-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S2048x16 : Shape := ⟨2, ![2048, 16]⟩
abbrev S2048x2048 : Shape := ⟨2, ![2048, 2048]⟩
abbrev S1024x1024 : Shape := ⟨2, ![1024, 1024]⟩
abbrev S1024x2048 : Shape := ⟨2, ![1024, 2048]⟩
abbrev S128x64 : Shape := ⟨2, ![128, 64]⟩
abbrev S1x16 : Shape := ⟨2, ![1, 16]⟩
abbrev S64 : Shape := ⟨1, ![64]⟩
abbrev S16x16 : Shape := ⟨2, ![16, 16]⟩
abbrev S1x64 : Shape := ⟨2, ![1, 64]⟩
abbrev S16 : Shape := ⟨1, ![16]⟩
abbrev S64x16 : Shape := ⟨2, ![64, 16]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S128x64 : S_.BroadcastsInDim S128x64 (![] : Fin 0 → Fin S128x64.rank)
  reducesTo_S128x64_S_d0_1 : S128x64.ReducesTo [0, 1] S_
  bcast_S_S1x16 : S_.BroadcastsInDim S1x16 (![] : Fin 0 → Fin S1x16.rank)
  reducesTo_S1x16_S_d0_1 : S1x16.ReducesTo [0, 1] S_
  bcast_S_S64 : S_.BroadcastsInDim S64 (![] : Fin 0 → Fin S64.rank)
  reducesTo_S64_S_d0 : S64.ReducesTo [0] S_
  bcast_S_S16x16 : S_.BroadcastsInDim S16x16 (![] : Fin 0 → Fin S16x16.rank)
  reducesTo_S16x16_S_d0_1 : S16x16.ReducesTo [0, 1] S_
  bcast_S_S1x64 : S_.BroadcastsInDim S1x64 (![] : Fin 0 → Fin S1x64.rank)
  reducesTo_S1x64_S_d0_1 : S1x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64x16 .f32) (main_arg12 : FVec F S1x16 .f32) (main_arg13 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S64x16 .f32 := Host.absf main_arg11
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S1x16 .f32 := Host.absf main_arg12
  let main_cst_22 : FVec F S_ .f32 := constant S_ .f32 0x7F800000#32
  let main_v60 : FVec F S1x16 .f32 := broadcastInDim S1x16 ![] bcast_S_S1x16 main_cst_22
  let main_v61 : IVec S1x16 1 := cmpf .olt main_v59 main_v60
  let main_c_23 : IVec S_ 1 := constantI S_ 1 1#1
  let main_v62 : IVec S_ 1 := (fun x v => Host.reduce IntOp.andi x v reducesTo_S1x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg7 : FVec F S64 .f32) (main_arg8 : FVec F S16x16 .f32) (main_arg9 : FVec F S1x64 .f32) (main_arg10 : FVec F S16 .f32) (main_arg11 : FVec F S64x16 .f32) (main_arg12 : FVec F S1x16 .f32) (main_arg13 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_v48 main_v49 main_v50

def fn_part1 {F : FTy → Type} [FloatOps F] (main_arg4 : FVec F S1024x2048 .f32) (main_arg5 : FVec F S128x64 .f32) (main_arg6 : FVec F S1x16 .f32) (main_arg7 : FVec F S64 .f32) (main_arg8 : FVec F S16x16 .f32) (main_arg9 : FVec F S1x64 .f32) (main_arg10 : FVec F S16 .f32) (main_arg11 : FVec F S64x16 .f32) (main_arg12 : FVec F S1x16 .f32) (main_arg13 : FVec F S16 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S1x16 .f32 := Host.absf main_arg6
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x128 .f32) (main_arg1 : FVec F S2048x16 .f32) (main_arg2 : FVec F S2048x2048 .f32) (main_arg3 : FVec F S1024x1024 .f32) (main_arg4 : FVec F S1024x2048 .f32) (main_arg5 : FVec F S128x64 .f32) (main_arg6 : FVec F S1x16 .f32) (main_arg7 : FVec F S64 .f32) (main_arg8 : FVec F S16x16 .f32) (main_arg9 : FVec F S1x64 .f32) (main_arg10 : FVec F S16 .f32) (main_arg11 : FVec F S64x16 .f32) (main_arg12 : FVec F S1x16 .f32) (main_arg13 : FVec F S16 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x128 : Shape := ⟨2, ![1024, 128]⟩
abbrev S2048x16 : Shape := ⟨2, ![2048, 16]⟩
abbrev S2048x2048 : Shape := ⟨2, ![2048, 2048]⟩
abbrev S1024x1024 : Shape := ⟨2, ![1024, 1024]⟩
abbrev S1024x2048 : Shape := ⟨2, ![1024, 2048]⟩
abbrev S128x64 : Shape := ⟨2, ![128, 64]⟩
abbrev S1x16 : Shape := ⟨2, ![1, 16]⟩
abbrev S64 : Shape := ⟨1, ![64]⟩
abbrev S16x16 : Shape := ⟨2, ![16, 16]⟩
abbrev S1x64 : Shape := ⟨2, ![1, 64]⟩
abbrev S16 : Shape := ⟨1, ![16]⟩
abbrev S64x16 : Shape := ⟨2, ![64, 16]⟩
abbrev S1024x64 : Shape := ⟨2, ![1024, 64]⟩
abbrev S256x2048 : Shape := ⟨2, ![256, 2048]⟩
abbrev S256x1024 : Shape := ⟨2, ![256, 1024]⟩
abbrev S256x64 : Shape := ⟨2, ![256, 64]⟩
abbrev S1x2048 : Shape := ⟨2, ![1, 2048]⟩
abbrev S2048 : Shape := ⟨1, ![2048]⟩
abbrev S1024x256 : Shape := ⟨2, ![1024, 256]⟩
abbrev S256x16 : Shape := ⟨2, ![256, 16]⟩
abbrev S1024x1 : Shape := ⟨2, ![1024, 1]⟩
abbrev S1024 : Shape := ⟨1, ![1024]⟩
abbrev S1024x16 : Shape := ⟨2, ![1024, 16]⟩
abbrev S256 : Shape := ⟨1, ![256]⟩
abbrev S256x1 : Shape := ⟨2, ![256, 1]⟩

abbrev nBuf : Space → Nat
  | .hbm => 20
  | .vmem => 42
  | .smem => 0
  | _ => 0

abbrev bufTy : (tb : Table) → Fin (tcTables nBuf tb) → BufTy
  | .hbm, ⟨0, _⟩ => ⟨S1024x128, .f32⟩
  | .hbm, ⟨1, _⟩ => ⟨S2048x16, .f32⟩
  | .hbm, ⟨2, _⟩ => ⟨S2048x2048, .f32⟩
  | .hbm, ⟨3, _⟩ => ⟨S1024x1024, .f32⟩
  | .hbm, ⟨4, _⟩ => ⟨S1024x2048, .f32⟩
  | .hbm, ⟨5, _⟩ => ⟨S128x64, .f32⟩
  | .hbm, ⟨6, _⟩ => ⟨S1x16, .f32⟩
  | .hbm, ⟨7, _⟩ => ⟨S64, .f32⟩
  | .hbm, ⟨8, _⟩ => ⟨S16x16, .f32⟩
  | .hbm, ⟨9, _⟩ => ⟨S1x64, .f32⟩
  | .hbm, ⟨10, _⟩ => ⟨S16, .f32⟩
  | .hbm, ⟨11, _⟩ => ⟨S64x16, .f32⟩
  | .hbm, ⟨12, _⟩ => ⟨S1x16, .f32⟩
  | .hbm, ⟨13, _⟩ => ⟨S16, .f32⟩
  | .hbm, ⟨14, _⟩ => ⟨S1x64, .f32⟩
  | .hbm, ⟨15, _⟩ => ⟨S1x16, .f32⟩
  | .hbm, ⟨16, _⟩ => ⟨S1x16, .f32⟩
  | .hbm, ⟨17, _⟩ => ⟨S1024x64, .f32⟩
  | .hbm, ⟨18, _⟩ => ⟨S2048x16, .f32⟩
  | .hbm, ⟨19, _⟩ => ⟨S1024x16, .f32⟩
  | .local _ .vmem, ⟨0, _⟩ => ⟨S256x2048, .f32⟩
  | .local _ .vmem, ⟨1, _⟩ => ⟨S256x2048, .f32⟩
  | .local _ .vmem, ⟨2, _⟩ => ⟨S1024x2048, .f32⟩
  | .local _ .vmem, ⟨3, _⟩ => ⟨S256x1024, .f32⟩
  | .local _ .vmem, ⟨4, _⟩ => ⟨S256x1024, .f32⟩
  | .local _ .vmem, ⟨5, _⟩ => ⟨S1024x128, .f32⟩
  | .local _ .vmem, ⟨6, _⟩ => ⟨S2048x16, .f32⟩
  | .local _ .vmem, ⟨7, _⟩ => ⟨S128x64, .f32⟩
  | .local _ .vmem, ⟨8, _⟩ => ⟨S1x16, .f32⟩
  | .local _ .vmem, ⟨9, _⟩ => ⟨S1x64, .f32⟩
  | .local _ .vmem, ⟨10, _⟩ => ⟨S256x64, .f32⟩
  | .local _ .vmem, ⟨11, _⟩ => ⟨S256x64, .f32⟩
  | .local _ .vmem, ⟨12, _⟩ => ⟨S1x2048, .f32⟩
  | .local _ .vmem, ⟨13, _⟩ => ⟨S1024x64, .f32⟩
  | .local _ .vmem, ⟨14, _⟩ => ⟨S1024x256, .f32⟩
  | .local _ .vmem, ⟨15, _⟩ => ⟨S1024x256, .f32⟩
  | .local _ .vmem, ⟨16, _⟩ => ⟨S1024x2048, .f32⟩
  | .local _ .vmem, ⟨17, _⟩ => ⟨S256x2048, .f32⟩
  | .local _ .vmem, ⟨18, _⟩ => ⟨S256x2048, .f32⟩
  | .local _ .vmem, ⟨19, _⟩ => ⟨S1024x64, .f32⟩
  | .local _ .vmem, ⟨20, _⟩ => ⟨S2048x16, .f32⟩
  | .local _ .vmem, ⟨21, _⟩ => ⟨S16x16, .f32⟩
  | .local _ .vmem, ⟨22, _⟩ => ⟨S1x64, .f32⟩
  | .local _ .vmem, ⟨23, _⟩ => ⟨S1x16, .f32⟩
  | .local _ .vmem, ⟨24, _⟩ => ⟨S256x16, .f32⟩
  | .local _ .vmem, ⟨25, _⟩ => ⟨S256x16, .f32⟩
  | .local _ .vmem, ⟨26, _⟩ => ⟨S1024x1, .f32⟩
  | .local _ .vmem, ⟨27, _⟩ => ⟨S2048x16, .f32⟩
  | .local _ .vmem, ⟨28, _⟩ => ⟨S256x2048, .f32⟩
  | .local _ .vmem, ⟨29, _⟩ => ⟨S256x2048, .f32⟩
  | .local _ .vmem, ⟨30, _⟩ => ⟨S1024x2048, .f32⟩
  | .local _ .vmem, ⟨31, _⟩ => ⟨S256x1024, .f32⟩
  | .local _ .vmem, ⟨32, _⟩ => ⟨S256x1024, .f32⟩
  | .local _ .vmem, ⟨33, _⟩ => ⟨S1024x64, .f32⟩
  | .local _ .vmem, ⟨34, _⟩ => ⟨S2048x16, .f32⟩
  | .local _ .vmem, ⟨35, _⟩ => ⟨S64x16, .f32⟩
  | .local _ .vmem, ⟨36, _⟩ => ⟨S1x16, .f32⟩
  | .local _ .vmem, ⟨37, _⟩ => ⟨S1x16, .f32⟩
  | .local _ .vmem, ⟨38, _⟩ => ⟨S256x16, .f32⟩
  | .local _ .vmem, ⟨39, _⟩ => ⟨S256x16, .f32⟩
  | .local _ .vmem, ⟨40, _⟩ => ⟨S1x2048, .f32⟩
  | .local _ .vmem, ⟨41, _⟩ => ⟨S1024x16, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg8_1 : Ref sig .tc := ⟨.vmem, 39, rfl⟩
abbrev cc2_scratch0 : Ref sig .tc := ⟨.vmem, 40, rfl⟩
abbrev cc2_scratch1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S64_S1x64 : S64.ShapeCasts S1x64
  shapeCasts_S16_S1x16 : S16.ShapeCasts S1x16
  inb_S2048x16_S2048x16_0_0 : ∀ a, (![0, 0] : Fin 2 → Nat) a + S2048x16.size a ≤ S2048x16.size a
  h_S2048x16 : 0 < S2048x16.numel
  inb_S1x16_S1x16_0_0 : ∀ a, (![0, 0] : Fin 2 → Nat) a + S1x16.size a ≤ S1x16.size a
  h_S1x16 : 0 < S1x16.numel
  broadcasts_S1x16_S2048x16 : S1x16.Broadcasts S2048x16
  reduces_S2048x16_S2048 : S2048x16.Reduces [1] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x2048_S256x2048_0_0 : ∀ a, (![0, 0] : Fin 2 → Nat) a + S256x2048.size a ≤ S256x2048.size a
  h_S256x2048 : 0 < S256x2048.numel
  broadcasts_S1x2048_S256x2048 : S1x2048.Broadcasts S256x2048
  inb_S1024x2048_S1024x2048_0_0 : ∀ a, (![0, 0] : Fin 2 → Nat) a + S1024x2048.size a ≤ S1024x2048.size a
  h_S1024x2048 : 0 < S1024x2048.numel
  iota_S256x1024_d0_w32 : S256x1024.Iotas .tc 32 [0]
  iota_S256x1024_d1_w32 : S256x1024.Iotas .tc 32 [1]
  inb_S256x1024_S256x1024_0_0 : ∀ a, (![0, 0] : Fin 2 → Nat) a + S256x1024.size a ≤ S256x1024.size a
  h_S256x1024 : 0 < S256x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  broadcasts_S1x64_S1024x64 : S1x64.Broadcasts S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S16x16_S16x16_0_0 : ∀ a, (![0, 0] : Fin 2 → Nat) a + S16x16.size a ≤ S16x16.size a
  h_S16x16 : 0 < S16x16.numel
  shapeCasts_S2048x16_S2048x16 : S2048x16.ShapeCasts S2048x16
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  iota_S256x2048_d0_w32 : S256x2048.Iotas .tc 32 [0]
  iota_S256x2048_d1_w32 : S256x2048.Iotas .tc 32 [1]
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  inb_S64x16_S64x16_0_0 : ∀ a, (![0, 0] : Fin 2 → Nat) a + S64x16.size a ≤ S64x16.size a
  h_S64x16 : 0 < S64x16.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S256x16_S256 : S256x16.Reduces [1] S256
  shapeCasts_S256_S256x1 : S256.ShapeCasts S256x1
  broadcasts_S256x1_S256x16 : S256x1.Broadcasts S256x16
  dot_S1024x128_S128x64_S1024x64_1_0_0_1_n_n_wf : DotDims.WF S1024x128 S128x64 S1024x64 [1] [0] [0] [1] [] []
  dot_S256x2048_S1024x2048_S256x1024_1_1_0_0_n_n_wf : DotDims.WF S256x2048 S1024x2048 S256x1024 [1] [1] [0] [0] [] []
  dot_S256x1024_S1024x64_S256x64_1_0_0_1_n_n_wf : DotDims.WF S256x1024 S1024x64 S256x64 [1] [0] [0] [1] [] []
  dot_S2048x16_S16x16_S2048x16_1_0_0_1_n_n_wf : DotDims.WF S2048x16 S16x16 S2048x16 [1] [0] [0] [1] [] []
  dot_S1024x256_S1024x2048_S256x2048_0_0_1_1_n_n_wf : DotDims.WF S1024x256 S1024x2048 S256x2048 [0] [0] [1] [1] [] []
  dot_S256x2048_S2048x16_S256x16_1_0_0_1_n_n_wf : DotDims.WF S256x2048 S2048x16 S256x16 [1] [0] [0] [1] [] []
  dot_S1024x64_S64x16_S1024x16_1_0_0_1_n_n_wf : DotDims.WF S1024x64 S64x16 S1024x16 [1] [0] [0] [1] [] []
  dot_S256x1024_S1024x16_S256x16_1_0_0_1_n_n_wf : DotDims.WF S256x1024 S1024x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S2048x16.size a
  hwx0_4 : ∀ i : grid0.Coords, EltTy.bits .f32 = 32 ∨ (Rect.block (s := S2048x16) S2048x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S1024x64.size a
  hwx0_8 : ∀ i : grid0.Coords, EltTy.bits .f32 = 32 ∨ (Rect.block (s := S1024x64) S256x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x2048.size a
  hwx1_0 : ∀ i : grid1.Coords, EltTy.bits .f32 = 32 ∨ (Rect.block (s := S1024x2048) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .f32 = 32 ∨ (Rect.block (s := S1024x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .f32 = 32 ∨ (Rect.block (s := S2048x2048) S256x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1024x64.size a
  hwx1_3 : ∀ i : grid1.Coords, EltTy.bits .f32 = 32 ∨ (Rect.block (s := S1024x64) S1024x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x16.size a ≤ S2048x16.size a
  hwx1_4 : ∀ i : grid1.Coords, EltTy.bits .f32 = 32 ∨ (Rect.block (s := S2048x16) S2048x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x16.size a ≤ S2048x16.size a
  hwx1_8 : ∀ i : grid1.Coords, EltTy.bits .f32 = 32 ∨ (Rect.block (s := S2048x16) S256x16.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S1024x2048.size a
  hwx2_0 : ∀ i : grid2.Coords, EltTy.bits .f32 = 32 ∨ (Rect.block (s := S1024x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .f32 = 32 ∨ (Rect.block (s := S1024x2048) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S1024x1024.size a
  hwx2_2 : ∀ i : grid2.Coords, EltTy.bits .f32 = 32 ∨ (Rect.block (s := S1024x1024) S256x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S1024x64.size a
  hwx2_3 : ∀ i : grid2.Coords, EltTy.bits .f32 = 32 ∨ (Rect.block (s := S1024x64) S1024x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x16.size a ≤ S2048x16.size a
  hwx2_4 : ∀ i : grid2.Coords, EltTy.bits .f32 = 32 ∨ (Rect.block (s := S2048x16) S2048x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x16.size a ≤ S1x16.size a
  hwx2_7 : ∀ i : grid2.Coords, EltTy.bits .f32 = 32 ∨ (Rect.block (s := S1x16) S1x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x16.size a ≤ S1024x16.size a
  hwx2_8 : ∀ i : grid2.Coords, EltTy.bits .f32 = 32 ∨ (Rect.block (s := S1024x16) S256x16.size (cc2_transform_8 i) (hinb2_8 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S1024x256_S1024x2048_S256x2048_0_0_1_1_n_n : DotDims S1024x256 S1024x2048 S256x2048 where
  lhsContracting := [0]
  rhsContracting := [0]
  lhsNonContracting := [1]
  rhsNonContracting := [1]
  lhsBatch := []
  rhsBatch := []
  wf := dot_S1024x256_S1024x2048_S256x2048_0_0_1_1_n_n_wf
def dot_S256x2048_S2048x16_S256x16_1_0_0_1_n_n : DotDims S256x2048 S2048x16 S256x16 where
  lhsContracting := [1]
  rhsContracting := [0]
  lhsNonContracting := [0]
  rhsNonContracting := [1]
  lhsBatch := []
  rhsBatch := []
  wf := dot_S256x2048_S2048x16_S256x16_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf

abbrev win0_0 : Pipeline.Window sig grid0 :=
  Pipeline.Window.ofSpec (Memref.whole main_arg4) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2048x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg4) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S2048x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S256x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg4) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2048x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v5) S256x16.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1024x128 : Shape := ⟨2, ![1024, 128]⟩
abbrev S2048x16 : Shape := ⟨2, ![2048, 16]⟩
abbrev S2048x2048 : Shape := ⟨2, ![2048, 2048]⟩
abbrev S1024x1024 : Shape := ⟨2, ![1024, 1024]⟩
abbrev S1024x2048 : Shape := ⟨2, ![1024, 2048]⟩
abbrev S128x64 : Shape := ⟨2, ![128, 64]⟩
abbrev S1x16 : Shape := ⟨2, ![1, 16]⟩
abbrev S64 : Shape := ⟨1, ![64]⟩
abbrev S16x16 : Shape := ⟨2, ![16, 16]⟩
abbrev S1x64 : Shape := ⟨2, ![1, 64]⟩
abbrev S16 : Shape := ⟨1, ![16]⟩
abbrev S64x16 : Shape := ⟨2, ![64, 16]⟩
abbrev S16x1 : Shape := ⟨2, ![16, 1]⟩
abbrev S2048x1 : Shape := ⟨2, ![2048, 1]⟩
abbrev S2048 : Shape := ⟨1, ![2048]⟩
abbrev S1x2048 : Shape := ⟨2, ![1, 2048]⟩
abbrev S2048x1024 : Shape := ⟨2, ![2048, 1024]⟩
abbrev S_ : Shape := ⟨0, ![]⟩
abbrev S1024x64 : Shape := ⟨2, ![1024, 64]⟩
abbrev S64x1 : Shape := ⟨2, ![64, 1]⟩
abbrev S1024x1 : Shape := ⟨2, ![1024, 1]⟩
abbrev S1024 : Shape := ⟨1, ![1024]⟩
abbrev S1x1024 : Shape := ⟨2, ![1, 1024]⟩
abbrev S1024x16 : Shape := ⟨2, ![1024, 16]⟩

abbrev nBuf : Space → Nat
  | .hbm => 119
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S2048x16, .f32⟩
  | .hbm, ⟨2, _⟩ => ⟨S2048x2048, .f32⟩
  | .hbm, ⟨3, _⟩ => ⟨S1024x1024, .f32⟩
  | .hbm, ⟨4, _⟩ => ⟨S1024x2048, .f32⟩
  | .hbm, ⟨5, _⟩ => ⟨S128x64, .f32⟩
  | .hbm, ⟨6, _⟩ => ⟨S1x16, .f32⟩
  | .hbm, ⟨7, _⟩ => ⟨S64, .f32⟩
  | .hbm, ⟨8, _⟩ => ⟨S16x16, .f32⟩
  | .hbm, ⟨9, _⟩ => ⟨S1x64, .f32⟩
  | .hbm, ⟨10, _⟩ => ⟨S16, .f32⟩
  | .hbm, ⟨11, _⟩ => ⟨S64x16, .f32⟩
  | .hbm, ⟨12, _⟩ => ⟨S1x16, .f32⟩
  | .hbm, ⟨13, _⟩ => ⟨S16, .f32⟩
  | .hbm, ⟨14, _⟩ => ⟨S16x1, .f32⟩
  | .hbm, ⟨15, _⟩ => ⟨S2048x1, .f32⟩
  | .hbm, ⟨16, _⟩ => ⟨S2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S2048x1024, .f32⟩
  | .hbm, ⟨21, _⟩ => ⟨S1024x1024, .f32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x64, .f32⟩
  | .hbm, ⟨36, _⟩ => ⟨S1024x64, .f32⟩
  | .hbm, ⟨37, _⟩ => ⟨S1x64, .f32⟩
  | .hbm, ⟨38, _⟩ => ⟨S1024x64, .f32⟩
  | .hbm, ⟨39, _⟩ => ⟨S1024x64, .f32⟩
  | .hbm, ⟨40, _⟩ => ⟨S_, .f32⟩
  | .hbm, ⟨41, _⟩ => ⟨S1024x64, .f32⟩
  | .hbm, ⟨42, _⟩ => ⟨S1024x64, .f32⟩
  | .hbm, ⟨43, _⟩ => ⟨S_, .f32⟩
  | .hbm, ⟨44, _⟩ => ⟨S2048x16, .f32⟩
  | .hbm, ⟨45, _⟩ => ⟨S2048x16, .f32⟩
  | .hbm, ⟨46, _⟩ => ⟨S64x1, .f32⟩
  | .hbm, ⟨47, _⟩ => ⟨S1024x1, .f32⟩
  | .hbm, ⟨48, _⟩ => ⟨S1024, .f32⟩
  | .hbm, ⟨49, _⟩ => ⟨S2048x1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x2048, .f32⟩
  | .hbm, ⟨54, _⟩ => ⟨S2048x2048, .i32⟩
  | .hbm, ⟨55, _⟩ => ⟨S2048x2048, .i32⟩
  | .hbm, ⟨56, _⟩ => ⟨S_, .i32⟩
  | .hbm, ⟨57, _⟩ => ⟨S2048x2048, .i32⟩
  | .hbm, ⟨58, _⟩ => ⟨S2048x2048, .i32⟩
  | .hbm, ⟨59, _⟩ => ⟨S2048x2048, .i1⟩
  | .hbm, ⟨60, _⟩ => ⟨S2048x2048, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x16, .f32⟩
  | .hbm, ⟨68, _⟩ => ⟨S2048x16, .f32⟩
  | .hbm, ⟨69, _⟩ => ⟨S1x16, .f32⟩
  | .hbm, ⟨70, _⟩ => ⟨S2048x16, .f32⟩
  | .hbm, ⟨71, _⟩ => ⟨S2048x16, .f32⟩
  | .hbm, ⟨72, _⟩ => ⟨S_, .f32⟩
  | .hbm, ⟨73, _⟩ => ⟨S1024x64, .f32⟩
  | .hbm, ⟨74, _⟩ => ⟨S1024x64, .f32⟩
  | .hbm, ⟨75, _⟩ => ⟨S_, .f32⟩
  | .hbm, ⟨76, _⟩ => ⟨S2048x16, .f32⟩
  | .hbm, ⟨77, _⟩ => ⟨S2048x16, .f32⟩
  | .hbm, ⟨78, _⟩ => ⟨S16x1, .f32⟩
  | .hbm, ⟨79, _⟩ => ⟨S2048x1, .f32⟩
  | .hbm, ⟨80, _⟩ => ⟨S2048, .f32⟩
  | .hbm, ⟨81, _⟩ => ⟨S1x2048, .f32⟩
  | .hbm, ⟨82, _⟩ => ⟨S1024x2048, .f32⟩
  | .hbm, ⟨83, _⟩ => ⟨S1024x2048, .f32⟩
  | .hbm, ⟨84, _⟩ => ⟨S2048x1024, .f32⟩
  | .hbm, ⟨85, _⟩ => ⟨S1024x1024, .f32⟩
  | .hbm, ⟨86, _⟩ => ⟨S1024x1024, .i32⟩
  | .hbm, ⟨87, _⟩ => ⟨S1024x1024, .i32⟩
  | .hbm, ⟨88, _⟩ => ⟨S_, .i32⟩
  | .hbm, ⟨89, _⟩ => ⟨S1024x1024, .i32⟩
  | .hbm, ⟨90, _⟩ => ⟨S1024x1024, .i32⟩
  | .hbm, ⟨91, _⟩ => ⟨S1024x1024, .i1⟩
  | .hbm, ⟨92, _⟩ => ⟨S1024x1024, .f32⟩
  | .hbm, ⟨93, _⟩ => ⟨S_, .f32⟩
  | .hbm, ⟨94, _⟩ => ⟨S1024x1024, .f32⟩
  | .hbm, ⟨95, _⟩ => ⟨S1024x1024, .f32⟩
  | .hbm, ⟨96, _⟩ => ⟨S1024x1024, .f32⟩
  | .hbm, ⟨97, _⟩ => ⟨S1024x1024, .f32⟩
  | .hbm, ⟨98, _⟩ => ⟨S1024x1024, .f32⟩
  | .hbm, ⟨99, _⟩ => ⟨S1024x16, .f32⟩
  | .hbm, ⟨100, _⟩ => ⟨S1024x16, .f32⟩
  | .hbm, ⟨101, _⟩ => ⟨S1x16, .f32⟩
  | .hbm, ⟨102, _⟩ => ⟨S1024x16, .f32⟩
  | .hbm, ⟨103, _⟩ => ⟨S1024x16, .f32⟩
  | .hbm, ⟨104, _⟩ => ⟨S_, .f32⟩
  | .hbm, ⟨105, _⟩ => ⟨S1024, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S1024x1, .f32⟩
  | .hbm, ⟨110, _⟩ => ⟨S1024x16, .f32⟩
  | .hbm, ⟨111, _⟩ => ⟨S1024x16, .f32⟩
  | .hbm, ⟨112, _⟩ => ⟨S1024x16, .f32⟩
  | .hbm, ⟨113, _⟩ => ⟨S_, .f32⟩
  | .hbm, ⟨114, _⟩ => ⟨S1024, .f32⟩
  | .hbm, ⟨115, _⟩ => ⟨S1024x1, .f32⟩
  | .hbm, ⟨116, _⟩ => ⟨S1024x1, .f32⟩
  | .hbm, ⟨117, _⟩ => ⟨S1024x16, .f32⟩
  | .hbm, ⟨118, _⟩ => ⟨S1024x16, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_call1_cst : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_v50 : Ref sig .tc := ⟨.hbm, 74, rfl⟩
abbrev main_call3_cst : Ref sig .tc := ⟨.hbm, 75, rfl⟩
abbrev main_call3_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_2 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_3 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call4_cst : Ref sig .tc := ⟨.hbm, 104, rfl⟩
abbrev main_call4_v0 : Ref sig .tc := ⟨.hbm, 105, rfl⟩
abbrev main_call4_cst_0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_cst_1 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_v76 : Ref sig .tc := ⟨.hbm, 118, rfl⟩

abbrev nD : Nat := 1
abbrev τ : Topo := Topo.v7x

variable {F : FTy → Type} [FloatOps F]

class Facts₀ : Prop where
  transposes_S1x16_S16x1_1_0 : S1x16.Transposes [1, 0] S16x1
  shapeCasts_S2048x1_S2048 : S2048x1.ShapeCasts S2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  transposes_S1024x2048_S2048x1024_1_0 : S1024x2048.Transposes [1, 0] S2048x1024
  bcast_S_S1024x1024 : S_.BroadcastsInDim S1024x1024 (![] : Fin 0 → Fin S1024x1024.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S_S2048x16 : S_.BroadcastsInDim S2048x16 (![] : Fin 0 → Fin S2048x16.rank)
  transposes_S1x64_S64x1_1_0 : S1x64.Transposes [1, 0] S64x1
  shapeCasts_S1024x1_S1024 : S1024x1.ShapeCasts S1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x2048 : S_.BroadcastsInDim S2048x2048 (![] : Fin 0 → Fin S2048x2048.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S1x16_S1024x16_0_1 : S1x16.BroadcastsInDim S1024x16 (![0, 1] : Fin 2 → Fin S1024x16.rank)
  reducesTo_S1024x16_S1024_d1 : S1024x16.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  dot_S2048x16_S16x1_S2048x1_1_0_0_1_n_n_wf : DotDims.WF S2048x16 S16x1 S2048x1 [1] [0] [0] [1] [] []
  dot_S1024x2048_S2048x1024_S1024x1024_1_0_0_1_n_n_wf : DotDims.WF S1024x2048 S2048x1024 S1024x1024 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  dot_S1024x64_S64x1_S1024x1_1_0_0_1_n_n_wf : DotDims.WF S1024x64 S64x1 S1024x1 [1] [0] [0] [1] [] []
  dot_S2048x1024_S1024x2048_S2048x2048_1_0_0_1_n_n_wf : DotDims.WF S2048x1024 S1024x2048 S2048x2048 [1] [0] [0] [1] [] []
  dot_S2048x16_S16x16_S2048x16_1_0_0_1_n_n_wf : DotDims.WF S2048x16 S16x16 S2048x16 [1] [0] [0] [1] [] []
  dot_S2048x2048_S2048x16_S2048x16_1_0_0_1_n_n_wf : DotDims.WF S2048x2048 S2048x16 S2048x16 [1] [0] [0] [1] [] []
  dot_S1024x64_S64x16_S1024x16_1_0_0_1_n_n_wf : DotDims.WF S1024x64 S64x16 S1024x16 [1] [0] [0] [1] [] []
  dot_S1024x1024_S1024x16_S1024x16_1_0_0_1_n_n_wf : DotDims.WF S1024x1024 S1024x16 S1024x16 [1] [0] [0] [1] [] []

variable [Facts₀]

def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

class Facts : Prop extends Facts₀ where

variable [Facts]
-- ==== Proof.RegCommon.lean ====
/-
  Two facts every region uses: the offsets ![0, 0] are the zero offsets, and one whole-buffer store covers its buffer.
-/
import Idealize.ShloMosaic.Lib.Pipeline.FrameBody
import Idealize.ShloMosaic.Lib.Pipeline.Value

noncomputable section

namespace Cert.Hand

open Idealize.ShloMosaic

/-- One whole-buffer store covers the buffer. -/
theorem cover1 {Val : EltTy → Type} {S : Shape} {e : EltTy} {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set :=
  ⟨_, List.mem_singleton_self _, View.mem_set_unit_zero h inb y⟩

theorem hz2 : (![0, 0] : Fin 2 → Nat) = fun _ => 0 := by funext a; fin_cases a <;> rfl

end Cert.Hand

end
-- ==== Proof.Reg0.lean ====
/-
  The first node layer's kernel region, for any float family: what each grid point finds in its windows, what it leaves
  in its output block and in the two scratch buffers it carries from point to point, and the region's proof data.

  Grid point 0 fills the scratch: d = the lane sums of He · p (as a row) and HW = Hv · W; every point then stores
  the block  relu((1 on the diagonal, (T_blk · d) T_fullᵀ off it) ⊙ adj_blk) · HW + b)  of its 256 rows. The scratch
  holds the same two values after every point, so the invariant after a point names them once.
-/
import proofs.«147858_g78709570666604_cont_9to1_m_429_2_alg».proof.Proof.RegCommon
import proofs.«147858_g78709570666604_cont_9to1_m_429_2_alg».proof.Proof.Gen.KernelIdeal.Launch
import proofs.«147858_g78709570666604_cont_9to1_m_429_2_alg».proof.Proof.Gen.KernelIdeal.Skeleton
import proofs.«147858_g78709570666604_cont_9to1_m_429_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

/-- The branch of the body: taken at the first grid point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-! ## The body on whole buffers -/

set_option maxHeartbeats 4000000 in
/-- At the first point: the scratch at anything; the body leaves d and HW in it and the block computed from them. -/
theorem sound_kernel0_A (c : Dev nD) (E : Set ℕ) (i : grid0.Coords) (hc : cond0 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x128 .f32) (h4 : a4.IsWhole)
    (a5 : Memref sig .tc .vmem S2048x16 .f32) (h5 : a5.IsWhole) (a6 : Memref sig .tc .vmem S128x64 .f32) (h6 : a6.IsWhole)
    (a7 : Memref sig .tc .vmem S1x16 .f32) (h7 : a7.IsWhole) (a8 : Memref sig .tc .vmem S1x64 .f32) (h8 : a8.IsWhole)
    (a9 : Memref sig .tc .vmem S256x64 .f32) (h9 : a9.IsWhole) (a10 : Memref sig .tc .vmem S1x2048 .f32) (h10 : a10.IsWhole)
    (a11 : Memref sig .tc .vmem S1024x64 .f32) (h11 : a11.IsWhole)
    (x1 : Vec F S256x2048 .f32) (x2 : Vec F S1024x2048 .f32) (x3 : Vec F S256x1024 .f32) (x4 : Vec F S1024x128 .f32)
    (x5 : Vec F S2048x16 .f32) (x6 : Vec F S128x64 .f32) (x7 : Vec F S1x16 .f32) (x8 : Vec F S1x64 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d) ∗ (∃ d, owns (c : Thread nD τ) a11 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k0_pay3 i x1 (k0_pay1 x5 x7) x2 x3 (k0_pay2 x4 x6) x8)
            ∗ owns (c : Thread nD τ) a10 fullShare (k0_pay1 x5 x7) ∗ owns (c : Thread nD τ) a11 fullShare (k0_pay2 x4 x6)) -∗ K ⟨⟩))
      ⊢ wp frame (wpE (defs₀ (F := F)) Variants.none c none) E (cc0__node_kernel i a1 h1 a2 h2 a3 h3 a4 h4 a5 h5 a6 h6 a7 h7 a8 h8 a9 h9 a10 h10 a11 h11) K := by
  simp only [cc0__node_kernel_eq_skeleton]; unfold cc0__node_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]
  isplitl [H10]
  · iexists _; isplitr
    swap; · iexact H10
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]
  · iexists _; isplitr
    swap; · iexact H11
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]

set_option maxHeartbeats 4000000 in
/-- At a later point: the scratch at d and HW; the body keeps it and leaves the block computed from it. -/
theorem sound_kernel0_B (c : Dev nD) (E : Set ℕ) (i : grid0.Coords) (hc : ¬cond0 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x128 .f32) (h4 : a4.IsWhole)
    (a5 : Memref sig .tc .vmem S2048x16 .f32) (h5 : a5.IsWhole) (a6 : Memref sig .tc .vmem S128x64 .f32) (h6 : a6.IsWhole)
    (a7 : Memref sig .tc .vmem S1x16 .f32) (h7 : a7.IsWhole) (a8 : Memref sig .tc .vmem S1x64 .f32) (h8 : a8.IsWhole)
    (a9 : Memref sig .tc .vmem S256x64 .f32) (h9 : a9.IsWhole) (a10 : Memref sig .tc .vmem S1x2048 .f32) (h10 : a10.IsWhole)
    (a11 : Memref sig .tc .vmem S1024x64 .f32) (h11 : a11.IsWhole)
    (x1 : Vec F S256x2048 .f32) (x2 : Vec F S1024x2048 .f32) (x3 : Vec F S256x1024 .f32) (x4 : Vec F S1024x128 .f32)
    (x5 : Vec F S2048x16 .f32) (x6 : Vec F S128x64 .f32) (x7 : Vec F S1x16 .f32) (x8 : Vec F S1x64 .f32)
    (d0 : Vec F S1x2048 .f32) (w0 : Vec F S1024x64 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ owns (c : Thread nD τ) a10 fullShare d0 ∗ owns (c : Thread nD τ) a11 fullShare w0
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k0_pay3 i x1 d0 x2 x3 w0 x8)
            ∗ owns (c : Thread nD τ) a10 fullShare d0 ∗ owns (c : Thread nD τ) a11 fullShare w0) -∗ K ⟨⟩))
      ⊢ wp frame (wpE (defs₀ (F := F)) Variants.none c none) E (cc0__node_kernel i a1 h1 a2 h2 a3 h3 a4 h4 a5 h5 a6 h6 a7 h7 a8 h8 a9 h9 a10 h10 a11 h11) K := by
  simp only [cc0__node_kernel_eq_skeleton]; unfold cc0__node_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1 hf2 hf3 hf4 hf5 hf6 hf7 hf8 hf10 hf11
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]
  isplitl [H10]
  · iexists _; isplitr; · ipureintro; rfl
    iexact H10
  · iexists _; isplitr; · ipureintro; rfl
    iexact H11

/-! ## The windows' blocks and the proof data, at the contents V the region is entered from -/

section Data

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The edge weights and the projected features the first point leaves in the scratch. -/
def dS0 (c : Dev nD) : Vec F S1x2048 .f32 := k0_pay1 (iblk0 V c 4 t0_0) (iblk0 V c 6 t0_0)
def wS0 (c : Dev nD) : Vec F S1024x64 .f32 := k0_pay2 (iblk0 V c 3 t0_0) (iblk0 V c 5 t0_0)

/-- The block point t leaves in the output window's buffer. -/
def out0 (c : Dev nD) (t : Fin cfg0.N) : Vec F S256x64 .f32 :=
  k0_pay3 (grid0.coords t) (iblk0 V c 0 t) (dS0 V c) (iblk0 V c 1 t) (iblk0 V c 2 t) (wS0 V c) (iblk0 V c 7 t)

abbrev scM0_0 : Memref sig .tc .vmem S1x2048 .f32 := Memref.whole cc0_scratch0
abbrev scM0_1 : Memref sig .tc .vmem S1024x64 .f32 := Memref.whole cc0_scratch1

/-- The invariant: before the first point every scoped buffer that is no staging buffer at anything; after a point the two
    scratch buffers at d and HW, the other such buffers at anything; the generator register at some state throughout. -/
def Phi0 (c : Dev nD) : ℕ → sProp 𝕄
  | 0 => Pipeline.ΦA spec0 c
  | _ + 1 => iprop(iprop(owns (c : Thread nD τ) scM0_0 fullShare (dS0 V c) ∗ owns (c : Thread nD τ) scM0_1 fullShare (wS0 V c))
      ∗ Pipeline.scopedRestBut (Ix := Unit) (Name := ℕ) (U := UR sig nD τ) (Lvl := ℕ) (Val := Elt F) spec0 c [cc0_scratch0, cc0_scratch1]
      ∗ (∃ r, prngReg c r))

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; rfl

/-- The proof data: the arrays as found; inputs left in place; the output block; the two windows on T hold half its share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0 V c t
  Φ t := Phi0 V c t.val
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8]
  rw [show (dat0 V c).Φ t.succ = Phi0 V c (t.val + 1) from rfl, show (dat0 V c).Φ t.castSucc = Phi0 V c t.val from rfl]
  have hN : t.val < 4 := lt_of_lt_of_eq t.isLt (show cfg0.N = 4 from N_0)
  obtain ⟨n, hn⟩ := t
  cases n with
  | zero =>
    rw [show Phi0 V c (0 + 1) = Phi0 V c 1 from rfl]
    rw [show Phi0 V c ((⟨0, hn⟩ : Fin cfg0.N)).val = Pipeline.ΦA spec0 c from rfl, PhiA0_eq]
    iintro ⟨⟨⟨⟨HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel0_A c Set.univ (grid0.coords ⟨0, hn⟩) ((hcond0 ⟨0, hn⟩).mpr (Nat.zero_mod _)) _ _ _ _ _ _ _ _ _ _ _ _ _ _ _ _ _ _ _ _ _ _
      (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · unfold Phi0
      isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | succ n =>
    have hc : ¬cond0 (grid0.coords ⟨n + 1, hn⟩) := fun h => by
      have := (hcond0 ⟨n + 1, hn⟩).mp h; dsimp only at this hN; omega
    rw [show Phi0 V c ((⟨n + 1, hn⟩ : Fin cfg0.N)).val = Phi0 V c (n + 1) from rfl]
    unfold Phi0
    iintro ⟨⟨⟨HS0, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel0_B c Set.univ (grid0.coords ⟨n + 1, hn⟩) hc _ _ _ _ _ _ _ _ _ _ _ _ _ _ _ _ _ _ _ _ _ _
      (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩)
      (dS0 V c) (wS0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Pipeline.ΦA spec0 c from rfl]

/-- After the last point the invariant gives the scoped buffers back at contents it no longer names. -/
theorem hout0 (c : Dev nD) : (dat0 V c).Φ (Fin.last cfg0.N) ⊢ Pipeline.ΦA spec0 c := by
  rw [show (dat0 V c).Φ (Fin.last cfg0.N) = Phi0 V c (3 + 1) from rfl, PhiA0_eq]
  unfold Phi0
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

/-! ## The region's two ends: the arrays out of the unscoped buffers and back

Windows 0 and 1 are both on the incidence matrix T: each holds half of its share; the other arrays are held whole. -/

section Boundary

variable (V : (c : Dev nD) → (b : Ref sig .tc) → Buf (Elt F) ((c : Thread nD τ).loc b))

/-- The buffers behind the windows' arrays, listed. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg4) ↦{fullShare} X main_arg4) ∗ (((c : Thread nD τ).loc main_arg3) ↦{fullShare} X main_arg3)
          ∗ (((c : Thread nD τ).loc main_arg0) ↦{fullShare} X main_arg0) ∗ (((c : Thread nD τ).loc main_arg1) ↦{fullShare} X main_arg1)
          ∗ (((c : Thread nD τ).loc main_arg5) ↦{fullShare} X main_arg5) ∗ (((c : Thread nD τ).loc main_arg6) ↦{fullShare} X main_arg6)
          ∗ (((c : Thread nD τ).loc main_v0) ↦{fullShare} X main_v0) ∗ (((c : Thread nD τ).loc main_v3) ↦{fullShare} X main_v3)) := by
  unfold Pipeline.arrBufs
  exact bigSep_eq_bigSepL_of_eq [main_arg4, main_arg3, main_arg0, main_arg1, main_arg5, main_arg6, main_v0, main_v3] (by decide) (by decide) _

/-- The proof data's arrays, window by window. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_arg4) ↦{fullShare.left} Fa 0) ∗ (((c : Thread nD τ).loc main_arg4) ↦{fullShare.right} Fa 1)
          ∗ (((c : Thread nD τ).loc main_arg3) ↦{fullShare} Fa 2) ∗ (((c : Thread nD τ).loc main_arg0) ↦{fullShare} Fa 3)
          ∗ (((c : Thread nD τ).loc main_arg1) ↦{fullShare} Fa 4) ∗ (((c : Thread nD τ).loc main_arg5) ↦{fullShare} Fa 5)
          ∗ (((c : Thread nD τ).loc main_arg6) ↦{fullShare} Fa 6) ∗ (((c : Thread nD τ).loc main_v0) ↦{fullShare} Fa 7)
          ∗ (((c : Thread nD τ).loc main_v3) ↦{fullShare} Fa 8)) := by
  unfold Dat.arrays; rw [bigSep_W0]
  simp only [Memref.view_whole, View.set_whole]
  rfl

/-- The unscoped buffers are the buffers behind the arrays and the rest. -/
theorem unscopedBufs0_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec0 c X
          ∗ Pipeline.unscopedRest (Ix := Unit) (Name := ℕ) (U := UR sig nD τ) (Lvl := ℕ) spec0 c X) :=
  Pipeline.unscopedBufs_split₀ cfgs 0 winFacts₀0.arr_unscoped c X

/-- ENTRY: the unscoped buffers at V are the arrays at the proof data's entry contents and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [unscopedBufs0_split, arrBufs0_eq, arrays0_eq]
  iintro ⟨⟨H4, H3, H0, H1, H5, H6, Hv0, Hv3⟩, Hrest⟩
  ihave H4' := (pointsTo_share (PosShare.mem_left_op_right fullShare)).1 $$ H4
  icases H4' with ⟨H4l, H4r⟩
  isplitr [Hrest]
  · isplitl [H4l]; · iexact H4l
    isplitl [H4r]; · iexact H4r
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

/-- The contents the region leaves in the result buffer. -/
def res0 (c : Dev nD) : Buf (Elt F) ((c : Thread nD τ).loc main_v3) := (dat0 V c).arrAt 8 cfg0.N

set_option maxHeartbeats 2000000 in
/-- EXIT: the arrays at their final contents (the inputs as entered, the result at res0) and the rest are the unscoped
    buffers at V updated at the result buffer. -/
theorem exit0 (c : Dev nD) (V' : (b : Ref sig .tc) → Buf (Elt F) ((c : Thread nD τ).loc b))
    (h3 : V' main_v3 = res0 V c) (hne : ∀ b, b ≠ main_v3 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  have hrest : (Pipeline.unscopedRest (Ix := Unit) (Name := ℕ) (U := UR sig nD τ) (Lvl := ℕ) spec0 c V' : sProp 𝕄)
      = Pipeline.unscopedRest (Ix := Unit) (Name := ℕ) (U := UR sig nD τ) (Lvl := ℕ) spec0 c (V c) := by
    unfold Pipeline.unscopedRest
    exact bigSep_congr fun b hb => by
      rw [hne b (fun e => (Finset.mem_sdiff.mp hb).2 (e ▸ Finset.mem_image.mpr ⟨8, Finset.mem_univ _, rfl⟩))]
  rw [unscopedBufs0_split, hrest, arrBufs0_eq, arrays0_eq]
  rw [h3, hne main_arg4 (by decide), hne main_arg3 (by decide), hne main_arg0 (by decide), hne main_arg1 (by decide),
    hne main_arg5 (by decide), hne main_arg6 (by decide), hne main_v0 (by decide)]
  rw [show (dat0 V c).arrAt 0 cfg0.N = V c main_arg4 from ((dat0 V c).arrAt_in 0 rfl _).trans (A_eq0 V c 0),
    show (dat0 V c).arrAt 1 cfg0.N = V c main_arg4 from ((dat0 V c).arrAt_in 1 rfl _).trans (A_eq0 V c 1),
    show (dat0 V c).arrAt 2 cfg0.N = V c main_arg3 from ((dat0 V c).arrAt_in 2 rfl _).trans (A_eq0 V c 2),
    show (dat0 V c).arrAt 3 cfg0.N = V c main_arg0 from ((dat0 V c).arrAt_in 3 rfl _).trans (A_eq0 V c 3),
    show (dat0 V c).arrAt 4 cfg0.N = V c main_arg1 from ((dat0 V c).arrAt_in 4 rfl _).trans (A_eq0 V c 4),
    show (dat0 V c).arrAt 5 cfg0.N = V c main_arg5 from ((dat0 V c).arrAt_in 5 rfl _).trans (A_eq0 V c 5),
    show (dat0 V c).arrAt 6 cfg0.N = V c main_arg6 from ((dat0 V c).arrAt_in 6 rfl _).trans (A_eq0 V c 6),
    show (dat0 V c).arrAt 7 cfg0.N = V c main_v0 from ((dat0 V c).arrAt_in 7 rfl _).trans (A_eq0 V c 7)]
  unfold res0
  iintro ⟨⟨H4l, H4r, H3, H0, H1, H5, H6, Hv0, Hv3⟩, Hrest⟩
  ihave H4 := (pointsTo_share (PosShare.mem_left_op_right fullShare)).2 $$ [H4l H4r]
  · isplitl [H4l]; · iexact H4l
    iexact H4r
  isplitr [Hrest]
  · isplitl [H4]; · iexact H4
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

end Boundary

end Cert.KernelIdeal.Hand

end
-- ==== Proof.Reg1.lean ====
/-
  The edge layer's kernel region, for any float family: what each grid point finds in its windows, what it leaves in its
  output block and in the two scratch buffers it carries from point to point, and the region's proof data.

  Grid point 0 fills the scratch: d = the lane sums of Hv · p (as a column) and HW = relu(He) · W; every point then stores
  the block  relu((1 on the diagonal, (T_cols · d)ᵀ T_full off it) ⊙ adj_blk) · HW + b)  of its 256 edges. The scratch
  holds the same two values after every point, so the invariant after a point names them once.
-/
import proofs.«147858_g78709570666604_cont_9to1_m_429_2_alg».proof.Proof.RegCommon
import proofs.«147858_g78709570666604_cont_9to1_m_429_2_alg».proof.Proof.Gen.KernelIdeal.Launch
import proofs.«147858_g78709570666604_cont_9to1_m_429_2_alg».proof.Proof.Gen.KernelIdeal.Skeleton
import proofs.«147858_g78709570666604_cont_9to1_m_429_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

/-- The branch of the body: taken at the first grid point only. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 8 = 0 :=
  (by decide +kernel : ∀ t : Fin grid1.N, cond1 (grid1.coords t) ↔ t.val % 8 = 0)

/-! ## The body on whole buffers -/

set_option maxHeartbeats 4000000 in
/-- At the first point: the scratch at anything; the body leaves d and HW in it and the block computed from them. -/
theorem sound_kernel1_A (c : Dev nD) (E : Set ℕ) (i : grid1.Coords) (hc : cond1 i)
    (a1 : Memref sig .tc .vmem S1024x256 .f32) (h1 : a1.IsWhole) (a2 : Memref sig .tc .vmem S1024x2048 .f32) (h2 : a2.IsWhole)
    (a3 : Memref sig .tc .vmem S256x2048 .f32) (h3 : a3.IsWhole) (a4 : Memref sig .tc .vmem S1024x64 .f32) (h4 : a4.IsWhole)
    (a5 : Memref sig .tc .vmem S2048x16 .f32) (h5 : a5.IsWhole) (a6 : Memref sig .tc .vmem S16x16 .f32) (h6 : a6.IsWhole)
    (a7 : Memref sig .tc .vmem S1x64 .f32) (h7 : a7.IsWhole) (a8 : Memref sig .tc .vmem S1x16 .f32) (h8 : a8.IsWhole)
    (a9 : Memref sig .tc .vmem S256x16 .f32) (h9 : a9.IsWhole) (a10 : Memref sig .tc .vmem S1024x1 .f32) (h10 : a10.IsWhole)
    (a11 : Memref sig .tc .vmem S2048x16 .f32) (h11 : a11.IsWhole)
    (x1 : Vec F S1024x256 .f32) (x2 : Vec F S1024x2048 .f32) (x3 : Vec F S256x2048 .f32) (x4 : Vec F S1024x64 .f32)
    (x5 : Vec F S2048x16 .f32) (x6 : Vec F S16x16 .f32) (x7 : Vec F S1x64 .f32) (x8 : Vec F S1x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d) ∗ (∃ d, owns (c : Thread nD τ) a11 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k1_pay3 i x1 (k1_pay1 x4 x7) x2 x3 (k1_pay2 x5 x6) x8)
            ∗ owns (c : Thread nD τ) a10 fullShare (k1_pay1 x4 x7) ∗ owns (c : Thread nD τ) a11 fullShare (k1_pay2 x5 x6)) -∗ K ⟨⟩))
      ⊢ wp frame (wpE (defs₀ (F := F)) Variants.none c none) E (cc1__edge_kernel i a1 h1 a2 h2 a3 h3 a4 h4 a5 h5 a6 h6 a7 h7 a8 h8 a9 h9 a10 h10 a11 h11) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]
  isplitl [H10]
  · iexists _; isplitr
    swap; · iexact H10
    ipureintro
    sl_unfold_words
    rw [View.read_writes_eq_canon _ _ _ (cover1 hz2 _ _)]
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]
  · iexists _; isplitr
    swap; · iexact H11
    ipureintro
    sl_unfold_words
    rw [View.read_writes_eq_canon _ _ _ (cover1 hz2 _ _)]
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]

set_option maxHeartbeats 4000000 in
/-- At a later point: the scratch at d and HW; the body keeps it and leaves the block computed from it. -/
theorem sound_kernel1_B (c : Dev nD) (E : Set ℕ) (i : grid1.Coords) (hc : ¬cond1 i)
    (a1 : Memref sig .tc .vmem S1024x256 .f32) (h1 : a1.IsWhole) (a2 : Memref sig .tc .vmem S1024x2048 .f32) (h2 : a2.IsWhole)
    (a3 : Memref sig .tc .vmem S256x2048 .f32) (h3 : a3.IsWhole) (a4 : Memref sig .tc .vmem S1024x64 .f32) (h4 : a4.IsWhole)
    (a5 : Memref sig .tc .vmem S2048x16 .f32) (h5 : a5.IsWhole) (a6 : Memref sig .tc .vmem S16x16 .f32) (h6 : a6.IsWhole)
    (a7 : Memref sig .tc .vmem S1x64 .f32) (h7 : a7.IsWhole) (a8 : Memref sig .tc .vmem S1x16 .f32) (h8 : a8.IsWhole)
    (a9 : Memref sig .tc .vmem S256x16 .f32) (h9 : a9.IsWhole) (a10 : Memref sig .tc .vmem S1024x1 .f32) (h10 : a10.IsWhole)
    (a11 : Memref sig .tc .vmem S2048x16 .f32) (h11 : a11.IsWhole)
    (x1 : Vec F S1024x256 .f32) (x2 : Vec F S1024x2048 .f32) (x3 : Vec F S256x2048 .f32) (x4 : Vec F S1024x64 .f32)
    (x5 : Vec F S2048x16 .f32) (x6 : Vec F S16x16 .f32) (x7 : Vec F S1x64 .f32) (x8 : Vec F S1x16 .f32)
    (d0 : Vec F S1024x1 .f32) (w0 : Vec F S2048x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ owns (c : Thread nD τ) a10 fullShare d0 ∗ owns (c : Thread nD τ) a11 fullShare w0
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k1_pay3 i x1 d0 x2 x3 w0 x8)
            ∗ owns (c : Thread nD τ) a10 fullShare d0 ∗ owns (c : Thread nD τ) a11 fullShare w0) -∗ K ⟨⟩))
      ⊢ wp frame (wpE (defs₀ (F := F)) Variants.none c none) E (cc1__edge_kernel i a1 h1 a2 h2 a3 h3 a4 h4 a5 h5 a6 h6 a7 h7 a8 h8 a9 h9 a10 h10 a11 h11) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1 hf2 hf3 hf4 hf5 hf6 hf7 hf8 hf10 hf11
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]
  isplitl [H10]
  · iexists _; isplitr; · ipureintro; rfl
    iexact H10
  · iexists _; isplitr; · ipureintro; rfl
    iexact H11

/-! ## The windows' blocks and the proof data, at the contents V the region is entered from -/

section Data

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The edge weights and the projected features the first point leaves in the scratch. -/
def dS1 (c : Dev nD) : Vec F S1024x1 .f32 := k1_pay1 (iblk1 V c 3 t1_0) (iblk1 V c 6 t1_0)
def wS1 (c : Dev nD) : Vec F S2048x16 .f32 := k1_pay2 (iblk1 V c 4 t1_0) (iblk1 V c 5 t1_0)

/-- The block point t leaves in the output window's buffer. -/
def out1 (c : Dev nD) (t : Fin cfg1.N) : Vec F S256x16 .f32 :=
  k1_pay3 (grid1.coords t) (iblk1 V c 0 t) (dS1 V c) (iblk1 V c 1 t) (iblk1 V c 2 t) (wS1 V c) (iblk1 V c 7 t)

abbrev scM1_0 : Memref sig .tc .vmem S1024x1 .f32 := Memref.whole cc1_scratch0
abbrev scM1_1 : Memref sig .tc .vmem S2048x16 .f32 := Memref.whole cc1_scratch1

/-- The invariant: before the first point every scoped buffer that is no staging buffer at anything; after a point the two
    scratch buffers at d and HW, the other such buffers at anything; the generator register at some state throughout. -/
def Phi1 (c : Dev nD) : ℕ → sProp 𝕄
  | 0 => Pipeline.ΦA spec1 c
  | _ + 1 => iprop(iprop(owns (c : Thread nD τ) scM1_0 fullShare (dS1 V c) ∗ owns (c : Thread nD τ) scM1_1 fullShare (wS1 V c))
      ∗ Pipeline.scopedRestBut (Ix := Unit) (Name := ℕ) (U := UR sig nD τ) (Lvl := ℕ) (Val := Elt F) spec1 c [cc1_scratch0, cc1_scratch1]
      ∗ (∃ r, prngReg c r))

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; rfl

/-- The proof data: the arrays as found; inputs left in place; the output block; the two windows on T hold half its share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 V c t
  Φ t := Phi1 V c t.val
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8]
  rw [show (dat1 V c).Φ t.succ = Phi1 V c (t.val + 1) from rfl, show (dat1 V c).Φ t.castSucc = Phi1 V c t.val from rfl]
  have hN : t.val < 8 := lt_of_lt_of_eq t.isLt (show cfg1.N = 8 from N_1)
  obtain ⟨n, hn⟩ := t
  cases n with
  | zero =>
    rw [show Phi1 V c (0 + 1) = Phi1 V c 1 from rfl]
    rw [show Phi1 V c ((⟨0, hn⟩ : Fin cfg1.N)).val = Pipeline.ΦA spec1 c from rfl, PhiA1_eq]
    iintro ⟨⟨⟨⟨HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel1_A c Set.univ (grid1.coords ⟨0, hn⟩) ((hcond1 ⟨0, hn⟩).mpr (Nat.zero_mod _)) _ _ _ _ _ _ _ _ _ _ _ _ _ _ _ _ _ _ _ _ _ _
      (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · unfold Phi1
      isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | succ n =>
    have hc : ¬cond1 (grid1.coords ⟨n + 1, hn⟩) := fun h => by
      have := (hcond1 ⟨n + 1, hn⟩).mp h; dsimp only at this hN; omega
    rw [show Phi1 V c ((⟨n + 1, hn⟩ : Fin cfg1.N)).val = Phi1 V c (n + 1) from rfl]
    unfold Phi1
    iintro ⟨⟨⟨HS0, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel1_B c Set.univ (grid1.coords ⟨n + 1, hn⟩) hc _ _ _ _ _ _ _ _ _ _ _ _ _ _ _ _ _ _ _ _ _ _
      (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)
      (dS1 V c) (wS1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = Pipeline.ΦA spec1 c from rfl]

/-- After the last point the invariant gives the scoped buffers back at contents it no longer names. -/
theorem hout1 (c : Dev nD) : (dat1 V c).Φ (Fin.last cfg1.N) ⊢ Pipeline.ΦA spec1 c := by
  rw [show (dat1 V c).Φ (Fin.last cfg1.N) = Phi1 V c (7 + 1) from rfl, PhiA1_eq]
  unfold Phi1
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

/-! ## The region's two ends: the arrays out of the unscoped buffers and back

Windows 0 and 1 are both on the incidence matrix T: each holds half of its share; the other arrays are held whole. -/

section Boundary

variable (V : (c : Dev nD) → (b : Ref sig .tc) → Buf (Elt F) ((c : Thread nD τ).loc b))

/-- The buffers behind the windows' arrays, listed. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg4) ↦{fullShare} X main_arg4) ∗ (((c : Thread nD τ).loc main_arg2) ↦{fullShare} X main_arg2)
          ∗ (((c : Thread nD τ).loc main_v3) ↦{fullShare} X main_v3) ∗ (((c : Thread nD τ).loc main_arg1) ↦{fullShare} X main_arg1)
          ∗ (((c : Thread nD τ).loc main_arg8) ↦{fullShare} X main_arg8) ∗ (((c : Thread nD τ).loc main_arg9) ↦{fullShare} X main_arg9)
          ∗ (((c : Thread nD τ).loc main_v1) ↦{fullShare} X main_v1) ∗ (((c : Thread nD τ).loc main_v4) ↦{fullShare} X main_v4)) := by
  unfold Pipeline.arrBufs
  exact bigSep_eq_bigSepL_of_eq [main_arg4, main_arg2, main_v3, main_arg1, main_arg8, main_arg9, main_v1, main_v4] (by decide) (by decide) _

/-- The proof data's arrays, window by window. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_arg4) ↦{fullShare.left} Fa 0) ∗ (((c : Thread nD τ).loc main_arg4) ↦{fullShare.right} Fa 1)
          ∗ (((c : Thread nD τ).loc main_arg2) ↦{fullShare} Fa 2) ∗ (((c : Thread nD τ).loc main_v3) ↦{fullShare} Fa 3)
          ∗ (((c : Thread nD τ).loc main_arg1) ↦{fullShare} Fa 4) ∗ (((c : Thread nD τ).loc main_arg8) ↦{fullShare} Fa 5)
          ∗ (((c : Thread nD τ).loc main_arg9) ↦{fullShare} Fa 6) ∗ (((c : Thread nD τ).loc main_v1) ↦{fullShare} Fa 7)
          ∗ (((c : Thread nD τ).loc main_v4) ↦{fullShare} Fa 8)) := by
  unfold Dat.arrays; rw [bigSep_W1]
  simp only [Memref.view_whole, View.set_whole]
  rfl

/-- The unscoped buffers are the buffers behind the arrays and the rest. -/
theorem unscopedBufs1_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec1 c X
          ∗ Pipeline.unscopedRest (Ix := Unit) (Name := ℕ) (U := UR sig nD τ) (Lvl := ℕ) spec1 c X) :=
  Pipeline.unscopedBufs_split₀ cfgs 1 winFacts₀1.arr_unscoped c X

/-- ENTRY: the unscoped buffers at V are the arrays at the proof data's entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs1_split, arrBufs1_eq, arrays1_eq]
  iintro ⟨⟨H4, H3, H0, H1, H5, H6, Hv0, Hv3⟩, Hrest⟩
  ihave H4' := (pointsTo_share (PosShare.mem_left_op_right fullShare)).1 $$ H4
  icases H4' with ⟨H4l, H4r⟩
  isplitr [Hrest]
  · isplitl [H4l]; · iexact H4l
    isplitl [H4r]; · iexact H4r
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

/-- The contents the region leaves in the result buffer. -/
def res1 (c : Dev nD) : Buf (Elt F) ((c : Thread nD τ).loc main_v4) := (dat1 V c).arrAt 8 cfg1.N

set_option maxHeartbeats 2000000 in
/-- EXIT: the arrays at their final contents (the inputs as entered, the result at res1) and the rest are the unscoped
    buffers at V updated at the result buffer. -/
theorem exit1 (c : Dev nD) (V' : (b : Ref sig .tc) → Buf (Elt F) ((c : Thread nD τ).loc b))
    (h3 : V' main_v4 = res1 V c) (hne : ∀ b, b ≠ main_v4 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hrest : (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c (V c) := by
    unfold Pipeline.unscopedRest
    exact bigSep_congr fun b hb => by
      rw [hne b (fun e => (Finset.mem_sdiff.mp hb).2 (e ▸ Finset.mem_image.mpr ⟨8, Finset.mem_univ _, rfl⟩))]
  rw [unscopedBufs1_split, hrest, arrBufs1_eq, arrays1_eq]
  rw [h3, hne main_arg4 (by decide), hne main_arg2 (by decide), hne main_v3 (by decide), hne main_arg1 (by decide),
    hne main_arg8 (by decide), hne main_arg9 (by decide), hne main_v1 (by decide)]
  rw [show (dat1 V c).arrAt 0 cfg1.N = V c main_arg4 from ((dat1 V c).arrAt_in 0 rfl _).trans (A_eq1 V c 0),
    show (dat1 V c).arrAt 1 cfg1.N = V c main_arg4 from ((dat1 V c).arrAt_in 1 rfl _).trans (A_eq1 V c 1),
    show (dat1 V c).arrAt 2 cfg1.N = V c main_arg2 from ((dat1 V c).arrAt_in 2 rfl _).trans (A_eq1 V c 2),
    show (dat1 V c).arrAt 3 cfg1.N = V c main_v3 from ((dat1 V c).arrAt_in 3 rfl _).trans (A_eq1 V c 3),
    show (dat1 V c).arrAt 4 cfg1.N = V c main_arg1 from ((dat1 V c).arrAt_in 4 rfl _).trans (A_eq1 V c 4),
    show (dat1 V c).arrAt 5 cfg1.N = V c main_arg8 from ((dat1 V c).arrAt_in 5 rfl _).trans (A_eq1 V c 5),
    show (dat1 V c).arrAt 6 cfg1.N = V c main_arg9 from ((dat1 V c).arrAt_in 6 rfl _).trans (A_eq1 V c 6),
    show (dat1 V c).arrAt 7 cfg1.N = V c main_v1 from ((dat1 V c).arrAt_in 7 rfl _).trans (A_eq1 V c 7)]
  unfold res1
  iintro ⟨⟨H4l, H4r, H3, H0, H1, H5, H6, Hv0, Hv3⟩, Hrest⟩
  ihave H4 := (pointsTo_share (PosShare.mem_left_op_right fullShare)).2 $$ [H4l H4r]
  · isplitl [H4l]; · iexact H4l
    iexact H4r
  isplitr [Hrest]
  · isplitl [H4]; · iexact H4
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

end Boundary

end Cert.KernelIdeal.Hand

end
-- ==== Proof.Reg2.lean ====
/-
  The last node layer's kernel region, for any float family: what each grid point finds in its windows, what it leaves in
  its output block and in the two scratch buffers it carries from point to point, and the region's proof data.

  Grid point 0 fills the scratch: d = the lane sums of He · p (as a row) and HW = Hv · W; every point then stores the
  row-wise log-softmax of  ((1 on the diagonal, (T_blk · d) T_fullᵀ off it) ⊙ adj_blk) · HW + b  for its 256 rows. The
  scratch holds the same two values after every point, so the invariant after a point names them once.
-/
import proofs.«147858_g78709570666604_cont_9to1_m_429_2_alg».proof.Proof.RegCommon
import proofs.«147858_g78709570666604_cont_9to1_m_429_2_alg».proof.Proof.Gen.KernelIdeal.Launch
import proofs.«147858_g78709570666604_cont_9to1_m_429_2_alg».proof.Proof.Gen.KernelIdeal.Skeleton
import proofs.«147858_g78709570666604_cont_9to1_m_429_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

/-- The branch of the body: taken at the first grid point only. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val % 4 = 0 :=
  (by decide +kernel : ∀ t : Fin grid2.N, cond2 (grid2.coords t) ↔ t.val % 4 = 0)

/-! ## The body on whole buffers -/

set_option maxHeartbeats 4000000 in
/-- At the first point: the scratch at anything; the body leaves d and HW in it and the block computed from them. -/
theorem sound_kernel2_A (c : Dev nD) (E : Set ℕ) (i : grid2.Coords) (hc : cond2 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x64 .f32) (h4 : a4.IsWhole)
    (a5 : Memref sig .tc .vmem S2048x16 .f32) (h5 : a5.IsWhole) (a6 : Memref sig .tc .vmem S64x16 .f32) (h6 : a6.IsWhole)
    (a7 : Memref sig .tc .vmem S1x16 .f32) (h7 : a7.IsWhole) (a8 : Memref sig .tc .vmem S1x16 .f32) (h8 : a8.IsWhole)
    (a9 : Memref sig .tc .vmem S256x16 .f32) (h9 : a9.IsWhole) (a10 : Memref sig .tc .vmem S1x2048 .f32) (h10 : a10.IsWhole)
    (a11 : Memref sig .tc .vmem S1024x16 .f32) (h11 : a11.IsWhole)
    (x1 : Vec F S256x2048 .f32) (x2 : Vec F S1024x2048 .f32) (x3 : Vec F S256x1024 .f32) (x4 : Vec F S1024x64 .f32)
    (x5 : Vec F S2048x16 .f32) (x6 : Vec F S64x16 .f32) (x7 : Vec F S1x16 .f32) (x8 : Vec F S1x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d) ∗ (∃ d, owns (c : Thread nD τ) a11 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k2_pay3 i x1 (k2_pay1 x5 x7) x2 x3 (k2_pay2 x4 x6) x8)
            ∗ owns (c : Thread nD τ) a10 fullShare (k2_pay1 x5 x7) ∗ owns (c : Thread nD τ) a11 fullShare (k2_pay2 x4 x6)) -∗ K ⟨⟩))
      ⊢ wp frame (wpE (defs₀ (F := F)) Variants.none c none) E (cc2__node_kernel i a1 h1 a2 h2 a3 h3 a4 h4 a5 h5 a6 h6 a7 h7 a8 h8 a9 h9 a10 h10 a11 h11) K := by
  simp only [cc2__node_kernel_eq_skeleton]; unfold cc2__node_kernel_skel; simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]
  isplitl [H10]
  · iexists _; isplitr
    swap; · iexact H10
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]
  · iexists _; isplitr
    swap; · iexact H11
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]

set_option maxHeartbeats 4000000 in
/-- At a later point: the scratch at d and HW; the body keeps it and leaves the block computed from it. -/
theorem sound_kernel2_B (c : Dev nD) (E : Set ℕ) (i : grid2.Coords) (hc : ¬cond2 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x64 .f32) (h4 : a4.IsWhole)
    (a5 : Memref sig .tc .vmem S2048x16 .f32) (h5 : a5.IsWhole) (a6 : Memref sig .tc .vmem S64x16 .f32) (h6 : a6.IsWhole)
    (a7 : Memref sig .tc .vmem S1x16 .f32) (h7 : a7.IsWhole) (a8 : Memref sig .tc .vmem S1x16 .f32) (h8 : a8.IsWhole)
    (a9 : Memref sig .tc .vmem S256x16 .f32) (h9 : a9.IsWhole) (a10 : Memref sig .tc .vmem S1x2048 .f32) (h10 : a10.IsWhole)
    (a11 : Memref sig .tc .vmem S1024x16 .f32) (h11 : a11.IsWhole)
    (x1 : Vec F S256x2048 .f32) (x2 : Vec F S1024x2048 .f32) (x3 : Vec F S256x1024 .f32) (x4 : Vec F S1024x64 .f32)
    (x5 : Vec F S2048x16 .f32) (x6 : Vec F S64x16 .f32) (x7 : Vec F S1x16 .f32) (x8 : Vec F S1x16 .f32)
    (d0 : Vec F S1x2048 .f32) (w0 : Vec F S1024x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ owns (c : Thread nD τ) a10 fullShare d0 ∗ owns (c : Thread nD τ) a11 fullShare w0
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k2_pay3 i x1 d0 x2 x3 w0 x8)
            ∗ owns (c : Thread nD τ) a10 fullShare d0 ∗ owns (c : Thread nD τ) a11 fullShare w0) -∗ K ⟨⟩))
      ⊢ wp frame (wpE (defs₀ (F := F)) Variants.none c none) E (cc2__node_kernel i a1 h1 a2 h2 a3 h3 a4 h4 a5 h5 a6 h6 a7 h7 a8 h8 a9 h9 a10 h10 a11 h11) K := by
  simp only [cc2__node_kernel_eq_skeleton]; unfold cc2__node_kernel_skel; simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1 hf2 hf3 hf4 hf5 hf6 hf7 hf8 hf10 hf11
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]
  isplitl [H10]
  · iexists _; isplitr; · ipureintro; rfl
    iexact H10
  · iexists _; isplitr; · ipureintro; rfl
    iexact H11

/-! ## The windows' blocks and the proof data, at the contents V the region is entered from -/

section Data

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The edge weights and the projected features the first point leaves in the scratch. -/
def dS2 (c : Dev nD) : Vec F S1x2048 .f32 := k2_pay1 (iblk2 V c 4 t2_0) (iblk2 V c 6 t2_0)
def wS2 (c : Dev nD) : Vec F S1024x16 .f32 := k2_pay2 (iblk2 V c 3 t2_0) (iblk2 V c 5 t2_0)

/-- The block point t leaves in the output window's buffer. -/
def out2 (c : Dev nD) (t : Fin cfg2.N) : Vec F S256x16 .f32 :=
  k2_pay3 (grid2.coords t) (iblk2 V c 0 t) (dS2 V c) (iblk2 V c 1 t) (iblk2 V c 2 t) (wS2 V c) (iblk2 V c 7 t)

abbrev scM2_0 : Memref sig .tc .vmem S1x2048 .f32 := Memref.whole cc2_scratch0
abbrev scM2_1 : Memref sig .tc .vmem S1024x16 .f32 := Memref.whole cc2_scratch1

/-- The invariant: before the first point every scoped buffer that is no staging buffer at anything; after a point the two
    scratch buffers at d and HW, the other such buffers at anything; the generator register at some state throughout. -/
def Phi2 (c : Dev nD) : ℕ → sProp 𝕄
  | 0 => Pipeline.ΦA spec2 c
  | _ + 1 => iprop(iprop(owns (c : Thread nD τ) scM2_0 fullShare (dS2 V c) ∗ owns (c : Thread nD τ) scM2_1 fullShare (wS2 V c))
      ∗ Pipeline.scopedRestBut (Ix := Unit) (Name := ℕ) (U := UR sig nD τ) (Lvl := ℕ) (Val := Elt F) spec2 c [cc2_scratch0, cc2_scratch1]
      ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; rfl

/-- The proof data: the arrays as found; inputs left in place; the output block; the two windows on T hold half its share each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 V c t
  Φ t := Phi2 V c t.val
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl,
    after2_0, after2_1, after2_2, after2_3, after2_4, after2_5, after2_6, after2_7, after2_8]
  rw [show (dat2 V c).Φ t.succ = Phi2 V c (t.val + 1) from rfl, show (dat2 V c).Φ t.castSucc = Phi2 V c t.val from rfl]
  have hN : t.val < 4 := lt_of_lt_of_eq t.isLt (show cfg2.N = 4 from N_2)
  obtain ⟨n, hn⟩ := t
  cases n with
  | zero =>
    rw [show Phi2 V c (0 + 1) = Phi2 V c 1 from rfl]
    rw [show Phi2 V c ((⟨0, hn⟩ : Fin cfg2.N)).val = Pipeline.ΦA spec2 c from rfl, PhiA2_eq]
    iintro ⟨⟨⟨⟨HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel2_A c Set.univ (grid2.coords ⟨0, hn⟩) ((hcond2 ⟨0, hn⟩).mpr (Nat.zero_mod _)) _ _ _ _ _ _ _ _ _ _ _ _ _ _ _ _ _ _ _ _ _ _
      (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · unfold Phi2
      isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | succ n =>
    have hc : ¬cond2 (grid2.coords ⟨n + 1, hn⟩) := fun h => by
      have := (hcond2 ⟨n + 1, hn⟩).mp h; dsimp only at this hN; omega
    rw [show Phi2 V c ((⟨n + 1, hn⟩ : Fin cfg2.N)).val = Phi2 V c (n + 1) from rfl]
    unfold Phi2
    iintro ⟨⟨⟨HS0, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel2_B c Set.univ (grid2.coords ⟨n + 1, hn⟩) hc _ _ _ _ _ _ _ _ _ _ _ _ _ _ _ _ _ _ _ _ _ _
      (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩)
      (dS2 V c) (wS2 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = Pipeline.ΦA spec2 c from rfl]

/-- After the last point the invariant gives the scoped buffers back at contents it no longer names. -/
theorem hout2 (c : Dev nD) : (dat2 V c).Φ (Fin.last cfg2.N) ⊢ Pipeline.ΦA spec2 c := by
  rw [show (dat2 V c).Φ (Fin.last cfg2.N) = Phi2 V c (3 + 1) from rfl, PhiA2_eq]
  unfold Phi2
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

/-! ## The region's two ends: the arrays out of the unscoped buffers and back

Windows 0 and 1 are both on the incidence matrix T: each holds half of its share; the other arrays are held whole. -/

section Boundary

variable (V : (c : Dev nD) → (b : Ref sig .tc) → Buf (Elt F) ((c : Thread nD τ).loc b))

/-- The buffers behind the windows' arrays, listed. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_arg4) ↦{fullShare} X main_arg4) ∗ (((c : Thread nD τ).loc main_arg3) ↦{fullShare} X main_arg3)
          ∗ (((c : Thread nD τ).loc main_v3) ↦{fullShare} X main_v3) ∗ (((c : Thread nD τ).loc main_v4) ↦{fullShare} X main_v4)
          ∗ (((c : Thread nD τ).loc main_arg11) ↦{fullShare} X main_arg11) ∗ (((c : Thread nD τ).loc main_arg12) ↦{fullShare} X main_arg12)
          ∗ (((c : Thread nD τ).loc main_v2) ↦{fullShare} X main_v2) ∗ (((c : Thread nD τ).loc main_v5) ↦{fullShare} X main_v5)) := by
  unfold Pipeline.arrBufs
  exact bigSep_eq_bigSepL_of_eq [main_arg4, main_arg3, main_v3, main_v4, main_arg11, main_arg12, main_v2, main_v5] (by decide) (by decide) _

/-- The proof data's arrays, window by window. -/
theorem arrays2_eq (c : Dev nD) (Fa : (w : Fin cfg2.W) → Buf (Elt F) ((cfg2.win w).arr.view.loc (c : Thread nD τ))) :
    ((dat2 V c).arrays Fa : sProp 𝕄)
      = iprop((((c : Thread nD τ).loc main_arg4) ↦{fullShare.left} Fa 0) ∗ (((c : Thread nD τ).loc main_arg4) ↦{fullShare.right} Fa 1)
          ∗ (((c : Thread nD τ).loc main_arg3) ↦{fullShare} Fa 2) ∗ (((c : Thread nD τ).loc main_v3) ↦{fullShare} Fa 3)
          ∗ (((c : Thread nD τ).loc main_v4) ↦{fullShare} Fa 4) ∗ (((c : Thread nD τ).loc main_arg11) ↦{fullShare} Fa 5)
          ∗ (((c : Thread nD τ).loc main_arg12) ↦{fullShare} Fa 6) ∗ (((c : Thread nD τ).loc main_v2) ↦{fullShare} Fa 7)
          ∗ (((c : Thread nD τ).loc main_v5) ↦{fullShare} Fa 8)) := by
  unfold Dat.arrays; rw [bigSep_W2]
  simp only [Memref.view_whole, View.set_whole]
  rfl

/-- The unscoped buffers are the buffers behind the arrays and the rest. -/
theorem unscopedBufs2_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec2 c X
          ∗ Pipeline.unscopedRest (Ix := Unit) (Name := ℕ) (U := UR sig nD τ) (Lvl := ℕ) spec2 c X) :=
  Pipeline.unscopedBufs_split₀ cfgs 2 winFacts₀2.arr_unscoped c X

/-- ENTRY: the unscoped buffers at V are the arrays at the proof data's entry contents and the rest. -/
theorem entry2 (c : Dev nD) :
    (unscopedBufs (Ix := Unit) (Name := ℕ) (U := UR sig nD τ) (Lvl := ℕ) c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [unscopedBufs2_split, arrBufs2_eq, arrays2_eq]
  iintro ⟨⟨H4, H3, H0, H1, H5, H6, Hv0, Hv3⟩, Hrest⟩
  ihave H4' := (pointsTo_share (PosShare.mem_left_op_right fullShare)).1 $$ H4
  icases H4' with ⟨H4l, H4r⟩
  isplitr [Hrest]
  · isplitl [H4l]; · iexact H4l
    isplitl [H4r]; · iexact H4r
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

/-- The contents the region leaves in the result buffer. -/
def res2 (c : Dev nD) : Buf (Elt F) ((c : Thread nD τ).loc main_v5) := (dat2 V c).arrAt 8 cfg2.N

set_option maxHeartbeats 2000000 in
/-- EXIT: the arrays at their final contents (the inputs as entered, the result at res2) and the rest are the unscoped
    buffers at V updated at the result buffer. -/
theorem exit2 (c : Dev nD) (V' : (b : Ref sig .tc) → Buf (Elt F) ((c : Thread nD τ).loc b))
    (h3 : V' main_v5 = res2 V c) (hne : ∀ b, b ≠ main_v5 → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have hrest : (Pipeline.unscopedRest (Ix := Unit) (Name := ℕ) (U := UR sig nD τ) (Lvl := ℕ) spec2 c V' : sProp 𝕄)
      = Pipeline.unscopedRest (Ix := Unit) (Name := ℕ) (U := UR sig nD τ) (Lvl := ℕ) spec2 c (V c) := by
    unfold Pipeline.unscopedRest
    exact bigSep_congr fun b hb => by
      rw [hne b (fun e => (Finset.mem_sdiff.mp hb).2 (e ▸ Finset.mem_image.mpr ⟨8, Finset.mem_univ _, rfl⟩))]
  rw [unscopedBufs2_split, hrest, arrBufs2_eq, arrays2_eq]
  rw [h3, hne main_arg4 (by decide), hne main_arg3 (by decide), hne main_v3 (by decide), hne main_v4 (by decide),
    hne main_arg11 (by decide), hne main_arg12 (by decide), hne main_v2 (by decide)]
  rw [show (dat2 V c).arrAt 0 cfg2.N = V c main_arg4 from ((dat2 V c).arrAt_in 0 rfl _).trans (A_eq2 V c 0),
    show (dat2 V c).arrAt 1 cfg2.N = V c main_arg4 from ((dat2 V c).arrAt_in 1 rfl _).trans (A_eq2 V c 1),
    show (dat2 V c).arrAt 2 cfg2.N = V c main_arg3 from ((dat2 V c).arrAt_in 2 rfl _).trans (A_eq2 V c 2),
    show (dat2 V c).arrAt 3 cfg2.N = V c main_v3 from ((dat2 V c).arrAt_in 3 rfl _).trans (A_eq2 V c 3),
    show (dat2 V c).arrAt 4 cfg2.N = V c main_v4 from ((dat2 V c).arrAt_in 4 rfl _).trans (A_eq2 V c 4),
    show (dat2 V c).arrAt 5 cfg2.N = V c main_arg11 from ((dat2 V c).arrAt_in 5 rfl _).trans (A_eq2 V c 5),
    show (dat2 V c).arrAt 6 cfg2.N = V c main_arg12 from ((dat2 V c).arrAt_in 6 rfl _).trans (A_eq2 V c 6),
    show (dat2 V c).arrAt 7 cfg2.N = V c main_v2 from ((dat2 V c).arrAt_in 7 rfl _).trans (A_eq2 V c 7)]
  unfold res2
  iintro ⟨⟨H4l, H4r, H3, H0, H1, H5, H6, Hv0, Hv3⟩, Hrest⟩
  ihave H4 := (pointsTo_share (PosShare.mem_left_op_right fullShare)).2 $$ [H4l H4r]
  · isplitl [H4l]; · iexact H4l
    iexact H4r
  isplitr [Hrest]
  · isplitl [H4]; · iexact H4
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

end Boundary

end Cert.KernelIdeal.Hand

end
-- ==== Proof.RegsI.lean ====
/-
  The three kernel regions of @main as segments, for any float family, and @main's run: every weakly fair execution
  terminates, the argument arrays end as launched and the result buffer ends at the third region's output, each region
  entered from the unscoped buffers as the one before left them (the first from the launch contents after the three
  bias reshapes).
-/
import proofs.«147858_g78709570666604_cont_9to1_m_429_2_alg».proof.Proof.Reg0
import proofs.«147858_g78709570666604_cont_9to1_m_429_2_alg».proof.Proof.Reg1
import proofs.«147858_g78709570666604_cont_9to1_m_429_2_alg».proof.Proof.Reg2
import proofs.«147858_g78709570666604_cont_9to1_m_429_2_alg».proof.Proof.RunCondI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

variable (m : (ℓ : Loc nD τ sig) → Buf (Elt F) ℓ)

/-! ## The buffer contents from region to region -/

/-- What region 0 is entered from: the launch contents after the host reshapes. -/
abbrev Va (c : Dev nD) (b : Ref sig .tc) : Buf (Elt F) ((c : Thread nD τ).loc b) := V1 m c b
/-- What region 0 leaves in its result buffer. -/
def x3 (c : Dev nD) : Buf (Elt F) ((c : Thread nD τ).loc main_v3) := res0 (Va m) c
abbrev Wb (c : Dev nD) : Valuation τ sig (Elt F) := Function.update (V1 m c) main_v3 (x3 m c)
abbrev Vb (c : Dev nD) (b : Ref sig .tc) : Buf (Elt F) ((c : Thread nD τ).loc b) := Wb m c b
/-- What region 1 leaves in its result buffer. -/
def x4 (c : Dev nD) : Buf (Elt F) ((c : Thread nD τ).loc main_v4) := res1 (Vb m) c
abbrev Wc (c : Dev nD) : Valuation τ sig (Elt F) := Function.update (Wb m c) main_v4 (x4 m c)
abbrev Vc (c : Dev nD) (b : Ref sig .tc) : Buf (Elt F) ((c : Thread nD τ).loc b) := Wc m c b
/-- What region 2 leaves in its result buffer: @main's result. -/
def x5 (c : Dev nD) : Buf (Elt F) ((c : Thread nD τ).loc main_v5) := res2 (Vc m) c
abbrev Wd (c : Dev nD) : Valuation τ sig (Elt F) := Function.update (Wc m c) main_v5 (x5 m c)

/-- The contents the regions leave, as the conditional frame takes them. -/
def outs : Outs (F := F) := fun _ r c => Wd m c r

theorem outs_v3 (c : Dev nD) : outs m 2 main_v3 c = x3 m c := by
  dsimp only [outs, Wd, Wc, Wb]
  rw [Function.update_of_ne (StableHlo.devRef_ne_of_ne (by decide) : (Proc.devRef .tc main_v3 : DevRef τ sig) ≠ Proc.devRef .tc main_v5),
    Function.update_of_ne (StableHlo.devRef_ne_of_ne (by decide) : (Proc.devRef .tc main_v3 : DevRef τ sig) ≠ Proc.devRef .tc main_v4),
    Function.update_self]
theorem outs_v4 (c : Dev nD) : outs m 3 main_v4 c = x4 m c := by
  dsimp only [outs, Wd, Wc]
  rw [Function.update_of_ne (StableHlo.devRef_ne_of_ne (by decide) : (Proc.devRef .tc main_v4 : DevRef τ sig) ≠ Proc.devRef .tc main_v5),
    Function.update_self]
theorem outs_v5 (c : Dev nD) : outs m 4 main_v5 c = x5 m c := by
  dsimp only [outs, Wd]
  rw [Function.update_self]

theorem V2_eq (c : Dev nD) : V2 m (outs m) c = Wb m c := by unfold V2; rw [outs_v3]
theorem V3_eq (c : Dev nD) : V3 m (outs m) c = Wc m c := by unfold V3; rw [V2_eq, outs_v4]
theorem V4_eq (c : Dev nD) : V4 m (outs m) c = Wd m c := by unfold V4; rw [V3_eq, outs_v5]

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
  | ⟨2, _⟩ => fun c => dat2 (Vc m) c

abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
set_option maxHeartbeats 2000000 in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := entry0 (Va m) c
    rw [Pipeline.unscopedBufs_held (Ix := Unit) (Name := ℕ) (U := UR sig nD τ) (Lvl := ℕ) c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Va m) c).trans ?_
    unfold Pipeline.ΦA
    iintro ⟨Hr, Hp⟩
    isplitl [Hp]; · iexact Hp
    isplitr; · iempintro
    iexact Hr
  hexit c := by
    have hjoin := exit0 (Va m) c (fun b => (Wb m c) b) (Function.update_self _ _ _)
      (fun b hb => Function.update_of_ne (StableHlo.devRef_ne_of_ne hb) _ _)
    rw [Pipeline.unscopedBufs_held (Ix := Unit) (Name := ℕ) (U := UR sig nD τ) (Lvl := ℕ) c (Wb m c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
set_option maxHeartbeats 2000000 in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := entry1 (Vb m) c
    rw [Pipeline.unscopedBufs_held (Ix := Unit) (Name := ℕ) (U := UR sig nD τ) (Lvl := ℕ) c (Wb m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vb m) c).trans ?_
    unfold Pipeline.ΦA
    iintro ⟨Hr, Hp⟩
    isplitl [Hp]; · iexact Hp
    isplitr; · iempintro
    iexact Hr
  hexit c := by
    have hjoin := exit1 (Vb m) c (fun b => (Wc m c) b) (Function.update_self _ _ _)
      (fun b hb => Function.update_of_ne (StableHlo.devRef_ne_of_ne hb) _ _)
    rw [Pipeline.unscopedBufs_held (Ix := Unit) (Name := ℕ) (U := UR sig nD τ) (Lvl := ℕ) c (Wc m c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
set_option maxHeartbeats 2000000 in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vc m) c).loose
  hwaits := Pipeline.hwaits_of_owed_zero _ _ _ _ L lv 2 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := UR sig nD τ) (Lvl := ℕ) spec2 c (Vc m c)
  hentry c := by
    rw [Pipeline.ownSems0_none]
    have hsplit := entry2 (Vc m) c
    rw [Pipeline.unscopedBufs_held (Ix := Unit) (Name := ℕ) (U := UR sig nD τ) (Lvl := ℕ) c (Wc m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (Vc m) c).trans ?_
    unfold Pipeline.ΦA
    iintro ⟨Hr, Hp⟩
    isplitl [Hp]; · iexact Hp
    isplitr; · iempintro
    iexact Hr
  hexit c := by
    have hjoin := exit2 (Vc m) c (fun b => (Wd m c) b) (Function.update_self _ _ _)
      (fun b hb => Function.update_of_ne (StableHlo.devRef_ne_of_ne hb) _ _)
    rw [Pipeline.unscopedBufs_held (Ix := Unit) (Name := ℕ) (U := UR sig nD τ) (Lvl := ℕ) c (Wd m c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
set_option maxHeartbeats 2000000 in
/-- Every weakly fair execution of @main from memory m with zero counters terminates, faulting nowhere; the result buffer ends
    at the third region's output and every argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v5) = x5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  have key := frame_cond_val m (emb₁ (sig := sig) (nD := nD) (τ := τ)) () 𝒱₀ L lv (fun _ _ => rfl) ρ (outs m) (pdats m) 0 (fun _ => iprop(emp))
    (initOf (Pipeline.cells cfgs cellOf_inj) (Pipeline.launchToks cfgs cellOf_inj)) ?hu (fun _ c => R c) ?hE0 ?hE3
    (reg0 m) (fun c => .rfl) (fun c => by rw [V2_eq]; exact .rfl)
    (reg1 m) (fun c => by rw [V2_eq]; exact .rfl) (fun c => by rw [V3_eq]; exact .rfl)
    (reg2 m) (fun c => by rw [V3_eq]; exact .rfl) (fun c => by rw [V4_eq]; exact .rfl)
  · exact (θ_run defs _ _).mono (fun r h c => ⟨(h c).1.trans (outs_v5 m c), (h c).2⟩) key
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    have hc : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ iprop(emp)) : sProp 𝕄)
        ⊢ iprop((∃ r, prngReg c r) ∗ ∃ W, owes (c : Thread nD τ) (0 : CellTallies nD τ sig Unit) W) := fun c => by
      iintro ⟨-, HO, -, Hp, -⟩
      isplitl [Hp]; · iexists _; iexact Hp
      iexists ∅; iexact HO
    have hm : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ iprop(emp)))
        ⊢ (bigSep Finset.univ (fun c : Dev nD => R c) : sProp 𝕄) := bigSep_mono fun c _ => hc c
    iintro ⟨H, -⟩
    imodintro
    iapply hm
    iexact H
  case hE3 =>
    intro c
    iintro ⟨-, H⟩
    iexact H

end Cert.KernelIdeal.Hand

end
-- ==== Proof.Reg0K.lean ====
/-
  The first node layer's kernel region, for any float family: what each grid point finds in its windows, what it leaves
  in its output block and in the two scratch buffers it carries from point to point, and the region's proof data.

  Grid point 0 fills the scratch: d = the lane sums of He · p (as a row) and HW = Hv · W; every point then stores
  the block  relu((1 on the diagonal, (T_blk · d) T_fullᵀ off it) ⊙ adj_blk) · HW + b)  of its 256 rows. The scratch
  holds the same two values after every point, so the invariant after a point names them once.
-/
import proofs.«147858_g78709570666604_cont_9to1_m_429_2_alg».proof.Proof.RegCommon
import proofs.«147858_g78709570666604_cont_9to1_m_429_2_alg».proof.Proof.Gen.Kernel.Launch
import proofs.«147858_g78709570666604_cont_9to1_m_429_2_alg».proof.Proof.Gen.Kernel.Skeleton
import proofs.«147858_g78709570666604_cont_9to1_m_429_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

/-- The branch of the body: taken at the first grid point only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-! ## The body on whole buffers -/

set_option maxHeartbeats 4000000 in
/-- At the first point: the scratch at anything; the body leaves d and HW in it and the block computed from them. -/
theorem sound_kernel0_A (c : Dev nD) (E : Set ℕ) (i : grid0.Coords) (hc : cond0 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x128 .f32) (h4 : a4.IsWhole)
    (a5 : Memref sig .tc .vmem S2048x16 .f32) (h5 : a5.IsWhole) (a6 : Memref sig .tc .vmem S128x64 .f32) (h6 : a6.IsWhole)
    (a7 : Memref sig .tc .vmem S1x16 .f32) (h7 : a7.IsWhole) (a8 : Memref sig .tc .vmem S1x64 .f32) (h8 : a8.IsWhole)
    (a9 : Memref sig .tc .vmem S256x64 .f32) (h9 : a9.IsWhole) (a10 : Memref sig .tc .vmem S1x2048 .f32) (h10 : a10.IsWhole)
    (a11 : Memref sig .tc .vmem S1024x64 .f32) (h11 : a11.IsWhole)
    (x1 : Vec F S256x2048 .f32) (x2 : Vec F S1024x2048 .f32) (x3 : Vec F S256x1024 .f32) (x4 : Vec F S1024x128 .f32)
    (x5 : Vec F S2048x16 .f32) (x6 : Vec F S128x64 .f32) (x7 : Vec F S1x16 .f32) (x8 : Vec F S1x64 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d) ∗ (∃ d, owns (c : Thread nD τ) a11 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k0_pay3 i x1 (k0_pay1 x5 x7) x2 x3 (k0_pay2 x4 x6) x8)
            ∗ owns (c : Thread nD τ) a10 fullShare (k0_pay1 x5 x7) ∗ owns (c : Thread nD τ) a11 fullShare (k0_pay2 x4 x6)) -∗ K ⟨⟩))
      ⊢ wp frame (wpE (defs₀ (F := F)) Variants.none c none) E (cc0__node_kernel i a1 h1 a2 h2 a3 h3 a4 h4 a5 h5 a6 h6 a7 h7 a8 h8 a9 h9 a10 h10 a11 h11) K := by
  simp only [cc0__node_kernel_eq_skeleton]; unfold cc0__node_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]
  isplitl [H10]
  · iexists _; isplitr
    swap; · iexact H10
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]
  · iexists _; isplitr
    swap; · iexact H11
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]

set_option maxHeartbeats 4000000 in
/-- At a later point: the scratch at d and HW; the body keeps it and leaves the block computed from it. -/
theorem sound_kernel0_B (c : Dev nD) (E : Set ℕ) (i : grid0.Coords) (hc : ¬cond0 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x128 .f32) (h4 : a4.IsWhole)
    (a5 : Memref sig .tc .vmem S2048x16 .f32) (h5 : a5.IsWhole) (a6 : Memref sig .tc .vmem S128x64 .f32) (h6 : a6.IsWhole)
    (a7 : Memref sig .tc .vmem S1x16 .f32) (h7 : a7.IsWhole) (a8 : Memref sig .tc .vmem S1x64 .f32) (h8 : a8.IsWhole)
    (a9 : Memref sig .tc .vmem S256x64 .f32) (h9 : a9.IsWhole) (a10 : Memref sig .tc .vmem S1x2048 .f32) (h10 : a10.IsWhole)
    (a11 : Memref sig .tc .vmem S1024x64 .f32) (h11 : a11.IsWhole)
    (x1 : Vec F S256x2048 .f32) (x2 : Vec F S1024x2048 .f32) (x3 : Vec F S256x1024 .f32) (x4 : Vec F S1024x128 .f32)
    (x5 : Vec F S2048x16 .f32) (x6 : Vec F S128x64 .f32) (x7 : Vec F S1x16 .f32) (x8 : Vec F S1x64 .f32)
    (d0 : Vec F S1x2048 .f32) (w0 : Vec F S1024x64 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ owns (c : Thread nD τ) a10 fullShare d0 ∗ owns (c : Thread nD τ) a11 fullShare w0
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k0_pay3 i x1 d0 x2 x3 w0 x8)
            ∗ owns (c : Thread nD τ) a10 fullShare d0 ∗ owns (c : Thread nD τ) a11 fullShare w0) -∗ K ⟨⟩))
      ⊢ wp frame (wpE (defs₀ (F := F)) Variants.none c none) E (cc0__node_kernel i a1 h1 a2 h2 a3 h3 a4 h4 a5 h5 a6 h6 a7 h7 a8 h8 a9 h9 a10 h10 a11 h11) K := by
  simp only [cc0__node_kernel_eq_skeleton]; unfold cc0__node_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1 hf2 hf3 hf4 hf5 hf6 hf7 hf8 hf10 hf11
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x128) hz2, View.ld_unit_zero (S := S2048x16) hz2, View.ld_unit_zero (S := S128x64) hz2, View.ld_unit_zero (S := S1x16) hz2,
      View.ld_unit_zero (S := S1x64) hz2, View.ld_unit_zero (S := S1x2048) hz2, View.ld_unit_zero (S := S1024x64) hz2,
      View.readCov_unit_zero (S := S1x2048) _ hz2, View.readCov_unit_zero (S := S1024x64) _ hz2]
  isplitl [H10]
  · iexists _; isplitr; · ipureintro; rfl
    iexact H10
  · iexists _; isplitr; · ipureintro; rfl
    iexact H11

/-! ## The windows' blocks and the proof data, at the contents V the region is entered from -/

section Data

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The edge weights and the projected features the first point leaves in the scratch. -/
def dS0 (c : Dev nD) : Vec F S1x2048 .f32 := k0_pay1 (iblk0 V c 4 t0_0) (iblk0 V c 6 t0_0)
def wS0 (c : Dev nD) : Vec F S1024x64 .f32 := k0_pay2 (iblk0 V c 3 t0_0) (iblk0 V c 5 t0_0)

/-- The block point t leaves in the output window's buffer. -/
def out0 (c : Dev nD) (t : Fin cfg0.N) : Vec F S256x64 .f32 :=
  k0_pay3 (grid0.coords t) (iblk0 V c 0 t) (dS0 V c) (iblk0 V c 1 t) (iblk0 V c 2 t) (wS0 V c) (iblk0 V c 7 t)

abbrev scM0_0 : Memref sig .tc .vmem S1x2048 .f32 := Memref.whole cc0_scratch0
abbrev scM0_1 : Memref sig .tc .vmem S1024x64 .f32 := Memref.whole cc0_scratch1

/-- The invariant: before the first point every scoped buffer that is no staging buffer at anything; after a point the two
    scratch buffers at d and HW, the other such buffers at anything; the generator register at some state throughout. -/
def Phi0 (c : Dev nD) : ℕ → sProp 𝕄
  | 0 => Pipeline.ΦA spec0 c
  | _ + 1 => iprop(iprop(owns (c : Thread nD τ) scM0_0 fullShare (dS0 V c) ∗ owns (c : Thread nD τ) scM0_1 fullShare (wS0 V c))
      ∗ Pipeline.scopedRestBut (Ix := Unit) (Name := ℕ) (U := UR sig nD τ) (Lvl := ℕ) (Val := Elt F) spec0 c [cc0_scratch0, cc0_scratch1]
      ∗ (∃ r, prngReg c r))

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; rfl

/-- The proof data: the arrays as found; inputs left in place; the output block; the two windows on T hold half its share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0 V c t
  Φ t := Phi0 V c t.val
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8]
  rw [show (dat0 V c).Φ t.succ = Phi0 V c (t.val + 1) from rfl, show (dat0 V c).Φ t.castSucc = Phi0 V c t.val from rfl]
  have hN : t.val < 4 := lt_of_lt_of_eq t.isLt (show cfg0.N = 4 from N_0)
  obtain ⟨n, hn⟩ := t
  cases n with
  | zero =>
    rw [show Phi0 V c (0 + 1) = Phi0 V c 1 from rfl]
    rw [show Phi0 V c ((⟨0, hn⟩ : Fin cfg0.N)).val = Pipeline.ΦA spec0 c from rfl, PhiA0_eq]
    iintro ⟨⟨⟨⟨HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel0_A c Set.univ (grid0.coords ⟨0, hn⟩) ((hcond0 ⟨0, hn⟩).mpr (Nat.zero_mod _)) _ _ _ _ _ _ _ _ _ _ _ _ _ _ _ _ _ _ _ _ _ _
      (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · unfold Phi0
      isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | succ n =>
    have hc : ¬cond0 (grid0.coords ⟨n + 1, hn⟩) := fun h => by
      have := (hcond0 ⟨n + 1, hn⟩).mp h; dsimp only at this hN; omega
    rw [show Phi0 V c ((⟨n + 1, hn⟩ : Fin cfg0.N)).val = Phi0 V c (n + 1) from rfl]
    unfold Phi0
    iintro ⟨⟨⟨HS0, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel0_B c Set.univ (grid0.coords ⟨n + 1, hn⟩) hc _ _ _ _ _ _ _ _ _ _ _ _ _ _ _ _ _ _ _ _ _ _
      (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩)
      (dS0 V c) (wS0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Pipeline.ΦA spec0 c from rfl]

/-- After the last point the invariant gives the scoped buffers back at contents it no longer names. -/
theorem hout0 (c : Dev nD) : (dat0 V c).Φ (Fin.last cfg0.N) ⊢ Pipeline.ΦA spec0 c := by
  rw [show (dat0 V c).Φ (Fin.last cfg0.N) = Phi0 V c (3 + 1) from rfl, PhiA0_eq]
  unfold Phi0
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

/-! ## The region's two ends: the arrays out of the unscoped buffers and back

Windows 0 and 1 are both on the incidence matrix T: each holds half of its share; the other arrays are held whole. -/

section Boundary

variable (V : (c : Dev nD) → (b : Ref sig .tc) → Buf (Elt F) ((c : Thread nD τ).loc b))

/-- The buffers behind the windows' arrays, listed. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg4) ↦{fullShare} X main_arg4) ∗ (((c : Thread nD τ).loc main_arg3) ↦{fullShare} X main_arg3)
          ∗ (((c : Thread nD τ).loc main_arg0) ↦{fullShare} X main_arg0) ∗ (((c : Thread nD τ).loc main_arg1) ↦{fullShare} X main_arg1)
          ∗ (((c : Thread nD τ).loc main_arg5) ↦{fullShare} X main_arg5) ∗ (((c : Thread nD τ).loc main_arg6) ↦{fullShare} X main_arg6)
          ∗ (((c : Thread nD τ).loc main_v0) ↦{fullShare} X main_v0) ∗ (((c : Thread nD τ).loc main_v3) ↦{fullShare} X main_v3)) := by
  unfold Pipeline.arrBufs
  exact bigSep_eq_bigSepL_of_eq [main_arg4, main_arg3, main_arg0, main_arg1, main_arg5, main_arg6, main_v0, main_v3] (by decide) (by decide) _

/-- The proof data's arrays, window by window. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_arg4) ↦{fullShare.left} Fa 0) ∗ (((c : Thread nD τ).loc main_arg4) ↦{fullShare.right} Fa 1)
          ∗ (((c : Thread nD τ).loc main_arg3) ↦{fullShare} Fa 2) ∗ (((c : Thread nD τ).loc main_arg0) ↦{fullShare} Fa 3)
          ∗ (((c : Thread nD τ).loc main_arg1) ↦{fullShare} Fa 4) ∗ (((c : Thread nD τ).loc main_arg5) ↦{fullShare} Fa 5)
          ∗ (((c : Thread nD τ).loc main_arg6) ↦{fullShare} Fa 6) ∗ (((c : Thread nD τ).loc main_v0) ↦{fullShare} Fa 7)
          ∗ (((c : Thread nD τ).loc main_v3) ↦{fullShare} Fa 8)) := by
  unfold Dat.arrays; rw [bigSep_W0]
  simp only [Memref.view_whole, View.set_whole]
  rfl

/-- The unscoped buffers are the buffers behind the arrays and the rest. -/
theorem unscopedBufs0_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec0 c X
          ∗ Pipeline.unscopedRest (Ix := Unit) (Name := ℕ) (U := UR sig nD τ) (Lvl := ℕ) spec0 c X) :=
  Pipeline.unscopedBufs_split₀ cfgs 0 winFacts₀0.arr_unscoped c X

/-- ENTRY: the unscoped buffers at V are the arrays at the proof data's entry contents and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [unscopedBufs0_split, arrBufs0_eq, arrays0_eq]
  iintro ⟨⟨H4, H3, H0, H1, H5, H6, Hv0, Hv3⟩, Hrest⟩
  ihave H4' := (pointsTo_share (PosShare.mem_left_op_right fullShare)).1 $$ H4
  icases H4' with ⟨H4l, H4r⟩
  isplitr [Hrest]
  · isplitl [H4l]; · iexact H4l
    isplitl [H4r]; · iexact H4r
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

/-- The contents the region leaves in the result buffer. -/
def res0 (c : Dev nD) : Buf (Elt F) ((c : Thread nD τ).loc main_v3) := (dat0 V c).arrAt 8 cfg0.N

set_option maxHeartbeats 2000000 in
/-- EXIT: the arrays at their final contents (the inputs as entered, the result at res0) and the rest are the unscoped
    buffers at V updated at the result buffer. -/
theorem exit0 (c : Dev nD) (V' : (b : Ref sig .tc) → Buf (Elt F) ((c : Thread nD τ).loc b))
    (h3 : V' main_v3 = res0 V c) (hne : ∀ b, b ≠ main_v3 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  have hrest : (Pipeline.unscopedRest (Ix := Unit) (Name := ℕ) (U := UR sig nD τ) (Lvl := ℕ) spec0 c V' : sProp 𝕄)
      = Pipeline.unscopedRest (Ix := Unit) (Name := ℕ) (U := UR sig nD τ) (Lvl := ℕ) spec0 c (V c) := by
    unfold Pipeline.unscopedRest
    exact bigSep_congr fun b hb => by
      rw [hne b (fun e => (Finset.mem_sdiff.mp hb).2 (e ▸ Finset.mem_image.mpr ⟨8, Finset.mem_univ _, rfl⟩))]
  rw [unscopedBufs0_split, hrest, arrBufs0_eq, arrays0_eq]
  rw [h3, hne main_arg4 (by decide), hne main_arg3 (by decide), hne main_arg0 (by decide), hne main_arg1 (by decide),
    hne main_arg5 (by decide), hne main_arg6 (by decide), hne main_v0 (by decide)]
  rw [show (dat0 V c).arrAt 0 cfg0.N = V c main_arg4 from ((dat0 V c).arrAt_in 0 rfl _).trans (A_eq0 V c 0),
    show (dat0 V c).arrAt 1 cfg0.N = V c main_arg4 from ((dat0 V c).arrAt_in 1 rfl _).trans (A_eq0 V c 1),
    show (dat0 V c).arrAt 2 cfg0.N = V c main_arg3 from ((dat0 V c).arrAt_in 2 rfl _).trans (A_eq0 V c 2),
    show (dat0 V c).arrAt 3 cfg0.N = V c main_arg0 from ((dat0 V c).arrAt_in 3 rfl _).trans (A_eq0 V c 3),
    show (dat0 V c).arrAt 4 cfg0.N = V c main_arg1 from ((dat0 V c).arrAt_in 4 rfl _).trans (A_eq0 V c 4),
    show (dat0 V c).arrAt 5 cfg0.N = V c main_arg5 from ((dat0 V c).arrAt_in 5 rfl _).trans (A_eq0 V c 5),
    show (dat0 V c).arrAt 6 cfg0.N = V c main_arg6 from ((dat0 V c).arrAt_in 6 rfl _).trans (A_eq0 V c 6),
    show (dat0 V c).arrAt 7 cfg0.N = V c main_v0 from ((dat0 V c).arrAt_in 7 rfl _).trans (A_eq0 V c 7)]
  unfold res0
  iintro ⟨⟨H4l, H4r, H3, H0, H1, H5, H6, Hv0, Hv3⟩, Hrest⟩
  ihave H4 := (pointsTo_share (PosShare.mem_left_op_right fullShare)).2 $$ [H4l H4r]
  · isplitl [H4l]; · iexact H4l
    iexact H4r
  isplitr [Hrest]
  · isplitl [H4]; · iexact H4
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

end Boundary

end Cert.Kernel.Hand

end
-- ==== Proof.Reg1K.lean ====
/-
  The edge layer's kernel region, for any float family: what each grid point finds in its windows, what it leaves in its
  output block and in the two scratch buffers it carries from point to point, and the region's proof data.

  Grid point 0 fills the scratch: d = the lane sums of Hv · p (as a column) and HW = relu(He) · W; every point then stores
  the block  relu((1 on the diagonal, (T_cols · d)ᵀ T_full off it) ⊙ adj_blk) · HW + b)  of its 256 edges. The scratch
  holds the same two values after every point, so the invariant after a point names them once.
-/
import proofs.«147858_g78709570666604_cont_9to1_m_429_2_alg».proof.Proof.RegCommon
import proofs.«147858_g78709570666604_cont_9to1_m_429_2_alg».proof.Proof.Gen.Kernel.Launch
import proofs.«147858_g78709570666604_cont_9to1_m_429_2_alg».proof.Proof.Gen.Kernel.Skeleton
import proofs.«147858_g78709570666604_cont_9to1_m_429_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

/-- The branch of the body: taken at the first grid point only. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 8 = 0 :=
  (by decide +kernel : ∀ t : Fin grid1.N, cond1 (grid1.coords t) ↔ t.val % 8 = 0)

/-! ## The body on whole buffers -/

set_option maxHeartbeats 4000000 in
/-- At the first point: the scratch at anything; the body leaves d and HW in it and the block computed from them. -/
theorem sound_kernel1_A (c : Dev nD) (E : Set ℕ) (i : grid1.Coords) (hc : cond1 i)
    (a1 : Memref sig .tc .vmem S1024x256 .f32) (h1 : a1.IsWhole) (a2 : Memref sig .tc .vmem S1024x2048 .f32) (h2 : a2.IsWhole)
    (a3 : Memref sig .tc .vmem S256x2048 .f32) (h3 : a3.IsWhole) (a4 : Memref sig .tc .vmem S1024x64 .f32) (h4 : a4.IsWhole)
    (a5 : Memref sig .tc .vmem S2048x16 .f32) (h5 : a5.IsWhole) (a6 : Memref sig .tc .vmem S16x16 .f32) (h6 : a6.IsWhole)
    (a7 : Memref sig .tc .vmem S1x64 .f32) (h7 : a7.IsWhole) (a8 : Memref sig .tc .vmem S1x16 .f32) (h8 : a8.IsWhole)
    (a9 : Memref sig .tc .vmem S256x16 .f32) (h9 : a9.IsWhole) (a10 : Memref sig .tc .vmem S1024x1 .f32) (h10 : a10.IsWhole)
    (a11 : Memref sig .tc .vmem S2048x16 .f32) (h11 : a11.IsWhole)
    (x1 : Vec F S1024x256 .f32) (x2 : Vec F S1024x2048 .f32) (x3 : Vec F S256x2048 .f32) (x4 : Vec F S1024x64 .f32)
    (x5 : Vec F S2048x16 .f32) (x6 : Vec F S16x16 .f32) (x7 : Vec F S1x64 .f32) (x8 : Vec F S1x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d) ∗ (∃ d, owns (c : Thread nD τ) a11 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k1_pay3 i x1 (k1_pay1 x4 x7) x2 x3 (k1_pay2 x5 x6) x8)
            ∗ owns (c : Thread nD τ) a10 fullShare (k1_pay1 x4 x7) ∗ owns (c : Thread nD τ) a11 fullShare (k1_pay2 x5 x6)) -∗ K ⟨⟩))
      ⊢ wp frame (wpE (defs₀ (F := F)) Variants.none c none) E (cc1__edge_kernel i a1 h1 a2 h2 a3 h3 a4 h4 a5 h5 a6 h6 a7 h7 a8 h8 a9 h9 a10 h10 a11 h11) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]
  isplitl [H10]
  · iexists _; isplitr
    swap; · iexact H10
    ipureintro
    sl_unfold_words
    rw [View.read_writes_eq_canon _ _ _ (cover1 hz2 _ _)]
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]
  · iexists _; isplitr
    swap; · iexact H11
    ipureintro
    sl_unfold_words
    rw [View.read_writes_eq_canon _ _ _ (cover1 hz2 _ _)]
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]

set_option maxHeartbeats 4000000 in
/-- At a later point: the scratch at d and HW; the body keeps it and leaves the block computed from it. -/
theorem sound_kernel1_B (c : Dev nD) (E : Set ℕ) (i : grid1.Coords) (hc : ¬cond1 i)
    (a1 : Memref sig .tc .vmem S1024x256 .f32) (h1 : a1.IsWhole) (a2 : Memref sig .tc .vmem S1024x2048 .f32) (h2 : a2.IsWhole)
    (a3 : Memref sig .tc .vmem S256x2048 .f32) (h3 : a3.IsWhole) (a4 : Memref sig .tc .vmem S1024x64 .f32) (h4 : a4.IsWhole)
    (a5 : Memref sig .tc .vmem S2048x16 .f32) (h5 : a5.IsWhole) (a6 : Memref sig .tc .vmem S16x16 .f32) (h6 : a6.IsWhole)
    (a7 : Memref sig .tc .vmem S1x64 .f32) (h7 : a7.IsWhole) (a8 : Memref sig .tc .vmem S1x16 .f32) (h8 : a8.IsWhole)
    (a9 : Memref sig .tc .vmem S256x16 .f32) (h9 : a9.IsWhole) (a10 : Memref sig .tc .vmem S1024x1 .f32) (h10 : a10.IsWhole)
    (a11 : Memref sig .tc .vmem S2048x16 .f32) (h11 : a11.IsWhole)
    (x1 : Vec F S1024x256 .f32) (x2 : Vec F S1024x2048 .f32) (x3 : Vec F S256x2048 .f32) (x4 : Vec F S1024x64 .f32)
    (x5 : Vec F S2048x16 .f32) (x6 : Vec F S16x16 .f32) (x7 : Vec F S1x64 .f32) (x8 : Vec F S1x16 .f32)
    (d0 : Vec F S1024x1 .f32) (w0 : Vec F S2048x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ owns (c : Thread nD τ) a10 fullShare d0 ∗ owns (c : Thread nD τ) a11 fullShare w0
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k1_pay3 i x1 d0 x2 x3 w0 x8)
            ∗ owns (c : Thread nD τ) a10 fullShare d0 ∗ owns (c : Thread nD τ) a11 fullShare w0) -∗ K ⟨⟩))
      ⊢ wp frame (wpE (defs₀ (F := F)) Variants.none c none) E (cc1__edge_kernel i a1 h1 a2 h2 a3 h3 a4 h4 a5 h5 a6 h6 a7 h7 a8 h8 a9 h9 a10 h10 a11 h11) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1 hf2 hf3 hf4 hf5 hf6 hf7 hf8 hf10 hf11
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S1024x256) hz2, View.ld_unit_zero (S := S1024x2048) hz2, View.ld_unit_zero (S := S256x2048) hz2,
      View.ld_unit_zero (S := S1024x64) hz2, View.ld_unit_zero (S := S2048x16) hz2, View.ld_unit_zero (S := S16x16) hz2, View.ld_unit_zero (S := S1x64) hz2,
      View.ld_unit_zero (S := S1x16) hz2, View.ld_unit_zero (S := S1024x1) hz2, View.ld_unit_zero (S := S2048x16) hz2,
      View.readCov_unit_zero (S := S1024x1) _ hz2, View.readCov_unit_zero (S := S2048x16) _ hz2]
  isplitl [H10]
  · iexists _; isplitr; · ipureintro; rfl
    iexact H10
  · iexists _; isplitr; · ipureintro; rfl
    iexact H11

/-! ## The windows' blocks and the proof data, at the contents V the region is entered from -/

section Data

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The edge weights and the projected features the first point leaves in the scratch. -/
def dS1 (c : Dev nD) : Vec F S1024x1 .f32 := k1_pay1 (iblk1 V c 3 t1_0) (iblk1 V c 6 t1_0)
def wS1 (c : Dev nD) : Vec F S2048x16 .f32 := k1_pay2 (iblk1 V c 4 t1_0) (iblk1 V c 5 t1_0)

/-- The block point t leaves in the output window's buffer. -/
def out1 (c : Dev nD) (t : Fin cfg1.N) : Vec F S256x16 .f32 :=
  k1_pay3 (grid1.coords t) (iblk1 V c 0 t) (dS1 V c) (iblk1 V c 1 t) (iblk1 V c 2 t) (wS1 V c) (iblk1 V c 7 t)

abbrev scM1_0 : Memref sig .tc .vmem S1024x1 .f32 := Memref.whole cc1_scratch0
abbrev scM1_1 : Memref sig .tc .vmem S2048x16 .f32 := Memref.whole cc1_scratch1

/-- The invariant: before the first point every scoped buffer that is no staging buffer at anything; after a point the two
    scratch buffers at d and HW, the other such buffers at anything; the generator register at some state throughout. -/
def Phi1 (c : Dev nD) : ℕ → sProp 𝕄
  | 0 => Pipeline.ΦA spec1 c
  | _ + 1 => iprop(iprop(owns (c : Thread nD τ) scM1_0 fullShare (dS1 V c) ∗ owns (c : Thread nD τ) scM1_1 fullShare (wS1 V c))
      ∗ Pipeline.scopedRestBut (Ix := Unit) (Name := ℕ) (U := UR sig nD τ) (Lvl := ℕ) (Val := Elt F) spec1 c [cc1_scratch0, cc1_scratch1]
      ∗ (∃ r, prngReg c r))

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; rfl

/-- The proof data: the arrays as found; inputs left in place; the output block; the two windows on T hold half its share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 V c t
  Φ t := Phi1 V c t.val
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8]
  rw [show (dat1 V c).Φ t.succ = Phi1 V c (t.val + 1) from rfl, show (dat1 V c).Φ t.castSucc = Phi1 V c t.val from rfl]
  have hN : t.val < 8 := lt_of_lt_of_eq t.isLt (show cfg1.N = 8 from N_1)
  obtain ⟨n, hn⟩ := t
  cases n with
  | zero =>
    rw [show Phi1 V c (0 + 1) = Phi1 V c 1 from rfl]
    rw [show Phi1 V c ((⟨0, hn⟩ : Fin cfg1.N)).val = Pipeline.ΦA spec1 c from rfl, PhiA1_eq]
    iintro ⟨⟨⟨⟨HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel1_A c Set.univ (grid1.coords ⟨0, hn⟩) ((hcond1 ⟨0, hn⟩).mpr (Nat.zero_mod _)) _ _ _ _ _ _ _ _ _ _ _ _ _ _ _ _ _ _ _ _ _ _
      (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · unfold Phi1
      isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | succ n =>
    have hc : ¬cond1 (grid1.coords ⟨n + 1, hn⟩) := fun h => by
      have := (hcond1 ⟨n + 1, hn⟩).mp h; dsimp only at this hN; omega
    rw [show Phi1 V c ((⟨n + 1, hn⟩ : Fin cfg1.N)).val = Phi1 V c (n + 1) from rfl]
    unfold Phi1
    iintro ⟨⟨⟨HS0, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel1_B c Set.univ (grid1.coords ⟨n + 1, hn⟩) hc _ _ _ _ _ _ _ _ _ _ _ _ _ _ _ _ _ _ _ _ _ _
      (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)
      (dS1 V c) (wS1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = Pipeline.ΦA spec1 c from rfl]

/-- After the last point the invariant gives the scoped buffers back at contents it no longer names. -/
theorem hout1 (c : Dev nD) : (dat1 V c).Φ (Fin.last cfg1.N) ⊢ Pipeline.ΦA spec1 c := by
  rw [show (dat1 V c).Φ (Fin.last cfg1.N) = Phi1 V c (7 + 1) from rfl, PhiA1_eq]
  unfold Phi1
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

/-! ## The region's two ends: the arrays out of the unscoped buffers and back

Windows 0 and 1 are both on the incidence matrix T: each holds half of its share; the other arrays are held whole. -/

section Boundary

variable (V : (c : Dev nD) → (b : Ref sig .tc) → Buf (Elt F) ((c : Thread nD τ).loc b))

/-- The buffers behind the windows' arrays, listed. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg4) ↦{fullShare} X main_arg4) ∗ (((c : Thread nD τ).loc main_arg2) ↦{fullShare} X main_arg2)
          ∗ (((c : Thread nD τ).loc main_v3) ↦{fullShare} X main_v3) ∗ (((c : Thread nD τ).loc main_arg1) ↦{fullShare} X main_arg1)
          ∗ (((c : Thread nD τ).loc main_arg8) ↦{fullShare} X main_arg8) ∗ (((c : Thread nD τ).loc main_arg9) ↦{fullShare} X main_arg9)
          ∗ (((c : Thread nD τ).loc main_v1) ↦{fullShare} X main_v1) ∗ (((c : Thread nD τ).loc main_v4) ↦{fullShare} X main_v4)) := by
  unfold Pipeline.arrBufs
  exact bigSep_eq_bigSepL_of_eq [main_arg4, main_arg2, main_v3, main_arg1, main_arg8, main_arg9, main_v1, main_v4] (by decide) (by decide) _

/-- The proof data's arrays, window by window. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_arg4) ↦{fullShare.left} Fa 0) ∗ (((c : Thread nD τ).loc main_arg4) ↦{fullShare.right} Fa 1)
          ∗ (((c : Thread nD τ).loc main_arg2) ↦{fullShare} Fa 2) ∗ (((c : Thread nD τ).loc main_v3) ↦{fullShare} Fa 3)
          ∗ (((c : Thread nD τ).loc main_arg1) ↦{fullShare} Fa 4) ∗ (((c : Thread nD τ).loc main_arg8) ↦{fullShare} Fa 5)
          ∗ (((c : Thread nD τ).loc main_arg9) ↦{fullShare} Fa 6) ∗ (((c : Thread nD τ).loc main_v1) ↦{fullShare} Fa 7)
          ∗ (((c : Thread nD τ).loc main_v4) ↦{fullShare} Fa 8)) := by
  unfold Dat.arrays; rw [bigSep_W1]
  simp only [Memref.view_whole, View.set_whole]
  rfl

/-- The unscoped buffers are the buffers behind the arrays and the rest. -/
theorem unscopedBufs1_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec1 c X
          ∗ Pipeline.unscopedRest (Ix := Unit) (Name := ℕ) (U := UR sig nD τ) (Lvl := ℕ) spec1 c X) :=
  Pipeline.unscopedBufs_split₀ cfgs 1 winFacts₀1.arr_unscoped c X

/-- ENTRY: the unscoped buffers at V are the arrays at the proof data's entry contents and the rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [unscopedBufs1_split, arrBufs1_eq, arrays1_eq]
  iintro ⟨⟨H4, H3, H0, H1, H5, H6, Hv0, Hv3⟩, Hrest⟩
  ihave H4' := (pointsTo_share (PosShare.mem_left_op_right fullShare)).1 $$ H4
  icases H4' with ⟨H4l, H4r⟩
  isplitr [Hrest]
  · isplitl [H4l]; · iexact H4l
    isplitl [H4r]; · iexact H4r
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

/-- The contents the region leaves in the result buffer. -/
def res1 (c : Dev nD) : Buf (Elt F) ((c : Thread nD τ).loc main_v4) := (dat1 V c).arrAt 8 cfg1.N

set_option maxHeartbeats 2000000 in
/-- EXIT: the arrays at their final contents (the inputs as entered, the result at res1) and the rest are the unscoped
    buffers at V updated at the result buffer. -/
theorem exit1 (c : Dev nD) (V' : (b : Ref sig .tc) → Buf (Elt F) ((c : Thread nD τ).loc b))
    (h3 : V' main_v4 = res1 V c) (hne : ∀ b, b ≠ main_v4 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hrest : (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c (V c) := by
    unfold Pipeline.unscopedRest
    exact bigSep_congr fun b hb => by
      rw [hne b (fun e => (Finset.mem_sdiff.mp hb).2 (e ▸ Finset.mem_image.mpr ⟨8, Finset.mem_univ _, rfl⟩))]
  rw [unscopedBufs1_split, hrest, arrBufs1_eq, arrays1_eq]
  rw [h3, hne main_arg4 (by decide), hne main_arg2 (by decide), hne main_v3 (by decide), hne main_arg1 (by decide),
    hne main_arg8 (by decide), hne main_arg9 (by decide), hne main_v1 (by decide)]
  rw [show (dat1 V c).arrAt 0 cfg1.N = V c main_arg4 from ((dat1 V c).arrAt_in 0 rfl _).trans (A_eq1 V c 0),
    show (dat1 V c).arrAt 1 cfg1.N = V c main_arg4 from ((dat1 V c).arrAt_in 1 rfl _).trans (A_eq1 V c 1),
    show (dat1 V c).arrAt 2 cfg1.N = V c main_arg2 from ((dat1 V c).arrAt_in 2 rfl _).trans (A_eq1 V c 2),
    show (dat1 V c).arrAt 3 cfg1.N = V c main_v3 from ((dat1 V c).arrAt_in 3 rfl _).trans (A_eq1 V c 3),
    show (dat1 V c).arrAt 4 cfg1.N = V c main_arg1 from ((dat1 V c).arrAt_in 4 rfl _).trans (A_eq1 V c 4),
    show (dat1 V c).arrAt 5 cfg1.N = V c main_arg8 from ((dat1 V c).arrAt_in 5 rfl _).trans (A_eq1 V c 5),
    show (dat1 V c).arrAt 6 cfg1.N = V c main_arg9 from ((dat1 V c).arrAt_in 6 rfl _).trans (A_eq1 V c 6),
    show (dat1 V c).arrAt 7 cfg1.N = V c main_v1 from ((dat1 V c).arrAt_in 7 rfl _).trans (A_eq1 V c 7)]
  unfold res1
  iintro ⟨⟨H4l, H4r, H3, H0, H1, H5, H6, Hv0, Hv3⟩, Hrest⟩
  ihave H4 := (pointsTo_share (PosShare.mem_left_op_right fullShare)).2 $$ [H4l H4r]
  · isplitl [H4l]; · iexact H4l
    iexact H4r
  isplitr [Hrest]
  · isplitl [H4]; · iexact H4
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

end Boundary

end Cert.Kernel.Hand

end
-- ==== Proof.Reg2K.lean ====
/-
  The last node layer's kernel region, for any float family: what each grid point finds in its windows, what it leaves in
  its output block and in the two scratch buffers it carries from point to point, and the region's proof data.

  Grid point 0 fills the scratch: d = the lane sums of He · p (as a row) and HW = Hv · W; every point then stores the
  row-wise log-softmax of  ((1 on the diagonal, (T_blk · d) T_fullᵀ off it) ⊙ adj_blk) · HW + b  for its 256 rows. The
  scratch holds the same two values after every point, so the invariant after a point names them once.
-/
import proofs.«147858_g78709570666604_cont_9to1_m_429_2_alg».proof.Proof.RegCommon
import proofs.«147858_g78709570666604_cont_9to1_m_429_2_alg».proof.Proof.Gen.Kernel.Launch
import proofs.«147858_g78709570666604_cont_9to1_m_429_2_alg».proof.Proof.Gen.Kernel.Skeleton
import proofs.«147858_g78709570666604_cont_9to1_m_429_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

/-- The branch of the body: taken at the first grid point only. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val % 4 = 0 :=
  (by decide +kernel : ∀ t : Fin grid2.N, cond2 (grid2.coords t) ↔ t.val % 4 = 0)

/-! ## The body on whole buffers -/

set_option maxHeartbeats 4000000 in
/-- At the first point: the scratch at anything; the body leaves d and HW in it and the block computed from them. -/
theorem sound_kernel2_A (c : Dev nD) (E : Set ℕ) (i : grid2.Coords) (hc : cond2 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x64 .f32) (h4 : a4.IsWhole)
    (a5 : Memref sig .tc .vmem S2048x16 .f32) (h5 : a5.IsWhole) (a6 : Memref sig .tc .vmem S64x16 .f32) (h6 : a6.IsWhole)
    (a7 : Memref sig .tc .vmem S1x16 .f32) (h7 : a7.IsWhole) (a8 : Memref sig .tc .vmem S1x16 .f32) (h8 : a8.IsWhole)
    (a9 : Memref sig .tc .vmem S256x16 .f32) (h9 : a9.IsWhole) (a10 : Memref sig .tc .vmem S1x2048 .f32) (h10 : a10.IsWhole)
    (a11 : Memref sig .tc .vmem S1024x16 .f32) (h11 : a11.IsWhole)
    (x1 : Vec F S256x2048 .f32) (x2 : Vec F S1024x2048 .f32) (x3 : Vec F S256x1024 .f32) (x4 : Vec F S1024x64 .f32)
    (x5 : Vec F S2048x16 .f32) (x6 : Vec F S64x16 .f32) (x7 : Vec F S1x16 .f32) (x8 : Vec F S1x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ (∃ d, owns (c : Thread nD τ) a10 fullShare d) ∗ (∃ d, owns (c : Thread nD τ) a11 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k2_pay3 i x1 (k2_pay1 x5 x7) x2 x3 (k2_pay2 x4 x6) x8)
            ∗ owns (c : Thread nD τ) a10 fullShare (k2_pay1 x5 x7) ∗ owns (c : Thread nD τ) a11 fullShare (k2_pay2 x4 x6)) -∗ K ⟨⟩))
      ⊢ wp frame (wpE (defs₀ (F := F)) Variants.none c none) E (cc2__node_kernel i a1 h1 a2 h2 a3 h3 a4 h4 a5 h5 a6 h6 a7 h7 a8 h8 a9 h9 a10 h10 a11 h11) K := by
  simp only [cc2__node_kernel_eq_skeleton]; unfold cc2__node_kernel_skel; simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]
  isplitl [H10]
  · iexists _; isplitr
    swap; · iexact H10
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]
  · iexists _; isplitr
    swap; · iexact H11
    ipureintro
    sl_unfold_words
    rw [View.read_writes_eq_canon _ _ _ (cover1 hz2 _ _)]
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]

set_option maxHeartbeats 4000000 in
/-- At a later point: the scratch at d and HW; the body keeps it and leaves the block computed from it. -/
theorem sound_kernel2_B (c : Dev nD) (E : Set ℕ) (i : grid2.Coords) (hc : ¬cond2 i)
    (a1 : Memref sig .tc .vmem S256x2048 .f32) (h1 : a1.IsWhole) (a2 : Memref sig .tc .vmem S1024x2048 .f32) (h2 : a2.IsWhole)
    (a3 : Memref sig .tc .vmem S256x1024 .f32) (h3 : a3.IsWhole) (a4 : Memref sig .tc .vmem S1024x64 .f32) (h4 : a4.IsWhole)
    (a5 : Memref sig .tc .vmem S2048x16 .f32) (h5 : a5.IsWhole) (a6 : Memref sig .tc .vmem S64x16 .f32) (h6 : a6.IsWhole)
    (a7 : Memref sig .tc .vmem S1x16 .f32) (h7 : a7.IsWhole) (a8 : Memref sig .tc .vmem S1x16 .f32) (h8 : a8.IsWhole)
    (a9 : Memref sig .tc .vmem S256x16 .f32) (h9 : a9.IsWhole) (a10 : Memref sig .tc .vmem S1x2048 .f32) (h10 : a10.IsWhole)
    (a11 : Memref sig .tc .vmem S1024x16 .f32) (h11 : a11.IsWhole)
    (x1 : Vec F S256x2048 .f32) (x2 : Vec F S1024x2048 .f32) (x3 : Vec F S256x1024 .f32) (x4 : Vec F S1024x64 .f32)
    (x5 : Vec F S2048x16 .f32) (x6 : Vec F S64x16 .f32) (x7 : Vec F S1x16 .f32) (x8 : Vec F S1x16 .f32)
    (d0 : Vec F S1x2048 .f32) (w0 : Vec F S1024x16 .f32)
    (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
        ∗ (∃ d, owns (c : Thread nD τ) a9 fullShare d) ∗ owns (c : Thread nD τ) a10 fullShare d0 ∗ owns (c : Thread nD τ) a11 fullShare w0
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8
            ∗ owns (c : Thread nD τ) a9 fullShare (k2_pay3 i x1 d0 x2 x3 w0 x8)
            ∗ owns (c : Thread nD τ) a10 fullShare d0 ∗ owns (c : Thread nD τ) a11 fullShare w0) -∗ K ⟨⟩))
      ⊢ wp frame (wpE (defs₀ (F := F)) Variants.none c none) E (cc2__node_kernel i a1 h1 a2 h2 a3 h3 a4 h4 a5 h5 a6 h6 a7 h7 a8 h8 a9 h9 a10 h10 a11 h11) K := by
  simp only [cc2__node_kernel_eq_skeleton]; unfold cc2__node_kernel_skel; simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1 hf2 hf3 hf4 hf5 hf6 hf7 hf8 hf10 hf11
  sl_exec (disch := exact hc)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]
  · iexists _; isplitr
    swap; · iexact H9
    ipureintro
    rw [View.read_writes_eq_canon _ _ _ (cover1 hz2 _ _)]
    sl_unfold_words
    rw [View.canon_unit_zero hz2]
    simp only [View.readAt_eq_ld, View.ld_unit_zero (S := S256x2048) hz2, View.ld_unit_zero (S := S1024x2048) hz2, View.ld_unit_zero (S := S256x1024) hz2,
      View.ld_unit_zero (S := S1024x64) hz2, View.ld_unit_zero (S := S2048x16) hz2, View.ld_unit_zero (S := S64x16) hz2, View.ld_unit_zero (S := S1x16) hz2,
      View.ld_unit_zero (S := S1x16) hz2, View.ld_unit_zero (S := S1x2048) hz2, View.ld_unit_zero (S := S1024x16) hz2,
      View.readCov_unit_zero (S := S1x2048) _ hz2, View.readCov_unit_zero (S := S1024x16) _ hz2]
  isplitl [H10]
  · iexists _; isplitr; · ipureintro; rfl
    iexact H10
  · iexists _; isplitr; · ipureintro; rfl
    iexact H11

/-! ## The windows' blocks and the proof data, at the contents V the region is entered from -/

section Data

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The edge weights and the projected features the first point leaves in the scratch. -/
def dS2 (c : Dev nD) : Vec F S1x2048 .f32 := k2_pay1 (iblk2 V c 4 t2_0) (iblk2 V c 6 t2_0)
def wS2 (c : Dev nD) : Vec F S1024x16 .f32 := k2_pay2 (iblk2 V c 3 t2_0) (iblk2 V c 5 t2_0)

/-- The block point t leaves in the output window's buffer. -/
def out2 (c : Dev nD) (t : Fin cfg2.N) : Vec F S256x16 .f32 :=
  k2_pay3 (grid2.coords t) (iblk2 V c 0 t) (dS2 V c) (iblk2 V c 1 t) (iblk2 V c 2 t) (wS2 V c) (iblk2 V c 7 t)

abbrev scM2_0 : Memref sig .tc .vmem S1x2048 .f32 := Memref.whole cc2_scratch0
abbrev scM2_1 : Memref sig .tc .vmem S1024x16 .f32 := Memref.whole cc2_scratch1

/-- The invariant: before the first point every scoped buffer that is no staging buffer at anything; after a point the two
    scratch buffers at d and HW, the other such buffers at anything; the generator register at some state throughout. -/
def Phi2 (c : Dev nD) : ℕ → sProp 𝕄
  | 0 => Pipeline.ΦA spec2 c
  | _ + 1 => iprop(iprop(owns (c : Thread nD τ) scM2_0 fullShare (dS2 V c) ∗ owns (c : Thread nD τ) scM2_1 fullShare (wS2 V c))
      ∗ Pipeline.scopedRestBut (Ix := Unit) (Name := ℕ) (U := UR sig nD τ) (Lvl := ℕ) (Val := Elt F) spec2 c [cc2_scratch0, cc2_scratch1]
      ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; rfl

/-- The proof data: the arrays as found; inputs left in place; the output block; the two windows on T hold half its share each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 V c t
  Φ t := Phi2 V c t.val
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl,
    after2_0, after2_1, after2_2, after2_3, after2_4, after2_5, after2_6, after2_7, after2_8]
  rw [show (dat2 V c).Φ t.succ = Phi2 V c (t.val + 1) from rfl, show (dat2 V c).Φ t.castSucc = Phi2 V c t.val from rfl]
  have hN : t.val < 4 := lt_of_lt_of_eq t.isLt (show cfg2.N = 4 from N_2)
  obtain ⟨n, hn⟩ := t
  cases n with
  | zero =>
    rw [show Phi2 V c (0 + 1) = Phi2 V c 1 from rfl]
    rw [show Phi2 V c ((⟨0, hn⟩ : Fin cfg2.N)).val = Pipeline.ΦA spec2 c from rfl, PhiA2_eq]
    iintro ⟨⟨⟨⟨HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel2_A c Set.univ (grid2.coords ⟨0, hn⟩) ((hcond2 ⟨0, hn⟩).mpr (Nat.zero_mod _)) _ _ _ _ _ _ _ _ _ _ _ _ _ _ _ _ _ _ _ _ _ _
      (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · unfold Phi2
      isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | succ n =>
    have hc : ¬cond2 (grid2.coords ⟨n + 1, hn⟩) := fun h => by
      have := (hcond2 ⟨n + 1, hn⟩).mp h; dsimp only at this hN; omega
    rw [show Phi2 V c ((⟨n + 1, hn⟩ : Fin cfg2.N)).val = Phi2 V c (n + 1) from rfl]
    unfold Phi2
    iintro ⟨⟨⟨HS0, HS1⟩, Hrest, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (sound_kernel2_B c Set.univ (grid2.coords ⟨n + 1, hn⟩) hc _ _ _ _ _ _ _ _ _ _ _ _ _ _ _ _ _ _ _ _ _ _
      (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩)
      (dS2 V c) (wS2 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = Pipeline.ΦA spec2 c from rfl]

/-- After the last point the invariant gives the scoped buffers back at contents it no longer names. -/
theorem hout2 (c : Dev nD) : (dat2 V c).Φ (Fin.last cfg2.N) ⊢ Pipeline.ΦA spec2 c := by
  rw [show (dat2 V c).Φ (Fin.last cfg2.N) = Phi2 V c (3 + 1) from rfl, PhiA2_eq]
  unfold Phi2
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

/-! ## The region's two ends: the arrays out of the unscoped buffers and back

Windows 0 and 1 are both on the incidence matrix T: each holds half of its share; the other arrays are held whole. -/

section Boundary

variable (V : (c : Dev nD) → (b : Ref sig .tc) → Buf (Elt F) ((c : Thread nD τ).loc b))

/-- The buffers behind the windows' arrays, listed. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_arg4) ↦{fullShare} X main_arg4) ∗ (((c : Thread nD τ).loc main_arg3) ↦{fullShare} X main_arg3)
          ∗ (((c : Thread nD τ).loc main_v3) ↦{fullShare} X main_v3) ∗ (((c : Thread nD τ).loc main_v4) ↦{fullShare} X main_v4)
          ∗ (((c : Thread nD τ).loc main_arg11) ↦{fullShare} X main_arg11) ∗ (((c : Thread nD τ).loc main_arg12) ↦{fullShare} X main_arg12)
          ∗ (((c : Thread nD τ).loc main_v2) ↦{fullShare} X main_v2) ∗ (((c : Thread nD τ).loc main_v5) ↦{fullShare} X main_v5)) := by
  unfold Pipeline.arrBufs
  exact bigSep_eq_bigSepL_of_eq [main_arg4, main_arg3, main_v3, main_v4, main_arg11, main_arg12, main_v2, main_v5] (by decide) (by decide) _

/-- The proof data's arrays, window by window. -/
theorem arrays2_eq (c : Dev nD) (Fa : (w : Fin cfg2.W) → Buf (Elt F) ((cfg2.win w).arr.view.loc (c : Thread nD τ))) :
    ((dat2 V c).arrays Fa : sProp 𝕄)
      = iprop((((c : Thread nD τ).loc main_arg4) ↦{fullShare.left} Fa 0) ∗ (((c : Thread nD τ).loc main_arg4) ↦{fullShare.right} Fa 1)
          ∗ (((c : Thread nD τ).loc main_arg3) ↦{fullShare} Fa 2) ∗ (((c : Thread nD τ).loc main_v3) ↦{fullShare} Fa 3)
          ∗ (((c : Thread nD τ).loc main_v4) ↦{fullShare} Fa 4) ∗ (((c : Thread nD τ).loc main_arg11) ↦{fullShare} Fa 5)
          ∗ (((c : Thread nD τ).loc main_arg12) ↦{fullShare} Fa 6) ∗ (((c : Thread nD τ).loc main_v2) ↦{fullShare} Fa 7)
          ∗ (((c : Thread nD τ).loc main_v5) ↦{fullShare} Fa 8)) := by
  unfold Dat.arrays; rw [bigSep_W2]
  simp only [Memref.view_whole, View.set_whole]
  rfl

/-- The unscoped buffers are the buffers behind the arrays and the rest. -/
theorem unscopedBufs2_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec2 c X
          ∗ Pipeline.unscopedRest (Ix := Unit) (Name := ℕ) (U := UR sig nD τ) (Lvl := ℕ) spec2 c X) :=
  Pipeline.unscopedBufs_split₀ cfgs 2 winFacts₀2.arr_unscoped c X

/-- ENTRY: the unscoped buffers at V are the arrays at the proof data's entry contents and the rest. -/
theorem entry2 (c : Dev nD) :
    (unscopedBufs (Ix := Unit) (Name := ℕ) (U := UR sig nD τ) (Lvl := ℕ) c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [unscopedBufs2_split, arrBufs2_eq, arrays2_eq]
  iintro ⟨⟨H4, H3, H0, H1, H5, H6, Hv0, Hv3⟩, Hrest⟩
  ihave H4' := (pointsTo_share (PosShare.mem_left_op_right fullShare)).1 $$ H4
  icases H4' with ⟨H4l, H4r⟩
  isplitr [Hrest]
  · isplitl [H4l]; · iexact H4l
    isplitl [H4r]; · iexact H4r
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

/-- The contents the region leaves in the result buffer. -/
def res2 (c : Dev nD) : Buf (Elt F) ((c : Thread nD τ).loc main_v5) := (dat2 V c).arrAt 8 cfg2.N

set_option maxHeartbeats 2000000 in
/-- EXIT: the arrays at their final contents (the inputs as entered, the result at res2) and the rest are the unscoped
    buffers at V updated at the result buffer. -/
theorem exit2 (c : Dev nD) (V' : (b : Ref sig .tc) → Buf (Elt F) ((c : Thread nD τ).loc b))
    (h3 : V' main_v5 = res2 V c) (hne : ∀ b, b ≠ main_v5 → V' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  have hrest : (Pipeline.unscopedRest (Ix := Unit) (Name := ℕ) (U := UR sig nD τ) (Lvl := ℕ) spec2 c V' : sProp 𝕄)
      = Pipeline.unscopedRest (Ix := Unit) (Name := ℕ) (U := UR sig nD τ) (Lvl := ℕ) spec2 c (V c) := by
    unfold Pipeline.unscopedRest
    exact bigSep_congr fun b hb => by
      rw [hne b (fun e => (Finset.mem_sdiff.mp hb).2 (e ▸ Finset.mem_image.mpr ⟨8, Finset.mem_univ _, rfl⟩))]
  rw [unscopedBufs2_split, hrest, arrBufs2_eq, arrays2_eq]
  rw [h3, hne main_arg4 (by decide), hne main_arg3 (by decide), hne main_v3 (by decide), hne main_v4 (by decide),
    hne main_arg11 (by decide), hne main_arg12 (by decide), hne main_v2 (by decide)]
  rw [show (dat2 V c).arrAt 0 cfg2.N = V c main_arg4 from ((dat2 V c).arrAt_in 0 rfl _).trans (A_eq2 V c 0),
    show (dat2 V c).arrAt 1 cfg2.N = V c main_arg4 from ((dat2 V c).arrAt_in 1 rfl _).trans (A_eq2 V c 1),
    show (dat2 V c).arrAt 2 cfg2.N = V c main_arg3 from ((dat2 V c).arrAt_in 2 rfl _).trans (A_eq2 V c 2),
    show (dat2 V c).arrAt 3 cfg2.N = V c main_v3 from ((dat2 V c).arrAt_in 3 rfl _).trans (A_eq2 V c 3),
    show (dat2 V c).arrAt 4 cfg2.N = V c main_v4 from ((dat2 V c).arrAt_in 4 rfl _).trans (A_eq2 V c 4),
    show (dat2 V c).arrAt 5 cfg2.N = V c main_arg11 from ((dat2 V c).arrAt_in 5 rfl _).trans (A_eq2 V c 5),
    show (dat2 V c).arrAt 6 cfg2.N = V c main_arg12 from ((dat2 V c).arrAt_in 6 rfl _).trans (A_eq2 V c 6),
    show (dat2 V c).arrAt 7 cfg2.N = V c main_v2 from ((dat2 V c).arrAt_in 7 rfl _).trans (A_eq2 V c 7)]
  unfold res2
  iintro ⟨⟨H4l, H4r, H3, H0, H1, H5, H6, Hv0, Hv3⟩, Hrest⟩
  ihave H4 := (pointsTo_share (PosShare.mem_left_op_right fullShare)).2 $$ [H4l H4r]
  · isplitl [H4l]; · iexact H4l
    iexact H4r
  isplitr [Hrest]
  · isplitl [H4]; · iexact H4
    isplitl [H3]; · iexact H3
    isplitl [H0]; · iexact H0
    isplitl [H1]; · iexact H1
    isplitl [H5]; · iexact H5
    isplitl [H6]; · iexact H6
    isplitl [Hv0]; · iexact Hv0
    iexact Hv3
  iexact Hrest

end Boundary

end Cert.Kernel.Hand

end
-- ==== Proof.RegsK.lean ====
/-
  The three kernel regions of @main as segments, for any float family, and @main's run: every weakly fair execution
  terminates, the argument arrays end as launched and the result buffer ends at the third region's output, each region
  entered from the unscoped buffers as the one before left them (the first from the launch contents after the three
  bias reshapes).
-/
import proofs.«147858_g78709570666604_cont_9to1_m_429_2_alg».proof.Proof.Reg0K
import proofs.«147858_g78709570666604_cont_9to1_m_429_2_alg».proof.Proof.Reg1K
import proofs.«147858_g78709570666604_cont_9to1_m_429_2_alg».proof.Proof.Reg2K
import proofs.«147858_g78709570666604_cont_9to1_m_429_2_alg».proof.Proof.RunCondK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

variable (m : (ℓ : Loc nD τ sig) → Buf (Elt F) ℓ)

/-! ## The buffer contents from region to region -/

/-- What region 0 is entered from: the launch contents after the host reshapes. -/
abbrev Va (c : Dev nD) (b : Ref sig .tc) : Buf (Elt F) ((c : Thread nD τ).loc b) := V1 m c b
/-- What region 0 leaves in its result buffer. -/
def x3 (c : Dev nD) : Buf (Elt F) ((c : Thread nD τ).loc main_v3) := res0 (Va m) c
abbrev Wb (c : Dev nD) : Valuation τ sig (Elt F) := Function.update (V1 m c) main_v3 (x3 m c)
abbrev Vb (c : Dev nD) (b : Ref sig .tc) : Buf (Elt F) ((c : Thread nD τ).loc b) := Wb m c b
/-- What region 1 leaves in its result buffer. -/
def x4 (c : Dev nD) : Buf (Elt F) ((c : Thread nD τ).loc main_v4) := res1 (Vb m) c
abbrev Wc (c : Dev nD) : Valuation τ sig (Elt F) := Function.update (Wb m c) main_v4 (x4 m c)
abbrev Vc (c : Dev nD) (b : Ref sig .tc) : Buf (Elt F) ((c : Thread nD τ).loc b) := Wc m c b
/-- What region 2 leaves in its result buffer: @main's result. -/
def x5 (c : Dev nD) : Buf (Elt F) ((c : Thread nD τ).loc main_v5) := res2 (Vc m) c
abbrev Wd (c : Dev nD) : Valuation τ sig (Elt F) := Function.update (Wc m c) main_v5 (x5 m c)

/-- The contents the regions leave, as the conditional frame takes them. -/
def outs : Outs (F := F) := fun _ r c => Wd m c r

theorem outs_v3 (c : Dev nD) : outs m 2 main_v3 c = x3 m c := by
  dsimp only [outs, Wd, Wc, Wb]
  rw [Function.update_of_ne (StableHlo.devRef_ne_of_ne (by decide) : (Proc.devRef .tc main_v3 : DevRef τ sig) ≠ Proc.devRef .tc main_v5),
    Function.update_of_ne (StableHlo.devRef_ne_of_ne (by decide) : (Proc.devRef .tc main_v3 : DevRef τ sig) ≠ Proc.devRef .tc main_v4),
    Function.update_self]
theorem outs_v4 (c : Dev nD) : outs m 3 main_v4 c = x4 m c := by
  dsimp only [outs, Wd, Wc]
  rw [Function.update_of_ne (StableHlo.devRef_ne_of_ne (by decide) : (Proc.devRef .tc main_v4 : DevRef τ sig) ≠ Proc.devRef .tc main_v5),
    Function.update_self]
theorem outs_v5 (c : Dev nD) : outs m 4 main_v5 c = x5 m c := by
  dsimp only [outs, Wd]
  rw [Function.update_self]

theorem V2_eq (c : Dev nD) : V2 m (outs m) c = Wb m c := by unfold V2; rw [outs_v3]
theorem V3_eq (c : Dev nD) : V3 m (outs m) c = Wc m c := by unfold V3; rw [V2_eq, outs_v4]
theorem V4_eq (c : Dev nD) : V4 m (outs m) c = Wd m c := by unfold V4; rw [V3_eq, outs_v5]

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
  | ⟨2, _⟩ => fun c => dat2 (Vc m) c

abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
set_option maxHeartbeats 2000000 in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := entry0 (Va m) c
    rw [Pipeline.unscopedBufs_held (Ix := Unit) (Name := ℕ) (U := UR sig nD τ) (Lvl := ℕ) c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Va m) c).trans ?_
    unfold Pipeline.ΦA
    iintro ⟨Hr, Hp⟩
    isplitl [Hp]; · iexact Hp
    isplitr; · iempintro
    iexact Hr
  hexit c := by
    have hjoin := exit0 (Va m) c (fun b => (Wb m c) b) (Function.update_self _ _ _)
      (fun b hb => Function.update_of_ne (StableHlo.devRef_ne_of_ne hb) _ _)
    rw [Pipeline.unscopedBufs_held (Ix := Unit) (Name := ℕ) (U := UR sig nD τ) (Lvl := ℕ) c (Wb m c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
set_option maxHeartbeats 2000000 in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := entry1 (Vb m) c
    rw [Pipeline.unscopedBufs_held (Ix := Unit) (Name := ℕ) (U := UR sig nD τ) (Lvl := ℕ) c (Wb m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vb m) c).trans ?_
    unfold Pipeline.ΦA
    iintro ⟨Hr, Hp⟩
    isplitl [Hp]; · iexact Hp
    isplitr; · iempintro
    iexact Hr
  hexit c := by
    have hjoin := exit1 (Vb m) c (fun b => (Wc m c) b) (Function.update_self _ _ _)
      (fun b hb => Function.update_of_ne (StableHlo.devRef_ne_of_ne hb) _ _)
    rw [Pipeline.unscopedBufs_held (Ix := Unit) (Name := ℕ) (U := UR sig nD τ) (Lvl := ℕ) c (Wc m c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
set_option maxHeartbeats 2000000 in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vc m) c).loose
  hwaits := Pipeline.hwaits_of_owed_zero _ _ _ _ L lv 2 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := UR sig nD τ) (Lvl := ℕ) spec2 c (Vc m c)
  hentry c := by
    rw [Pipeline.ownSems0_none]
    have hsplit := entry2 (Vc m) c
    rw [Pipeline.unscopedBufs_held (Ix := Unit) (Name := ℕ) (U := UR sig nD τ) (Lvl := ℕ) c (Wc m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (Vc m) c).trans ?_
    unfold Pipeline.ΦA
    iintro ⟨Hr, Hp⟩
    isplitl [Hp]; · iexact Hp
    isplitr; · iempintro
    iexact Hr
  hexit c := by
    have hjoin := exit2 (Vc m) c (fun b => (Wd m c) b) (Function.update_self _ _ _)
      (fun b hb => Function.update_of_ne (StableHlo.devRef_ne_of_ne hb) _ _)
    rw [Pipeline.unscopedBufs_held (Ix := Unit) (Name := ℕ) (U := UR sig nD τ) (Lvl := ℕ) c (Wd m c)] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
set_option maxHeartbeats 2000000 in
/-- Every weakly fair execution of @main from memory m with zero counters terminates, faulting nowhere; the result buffer ends
    at the third region's output and every argument array as launched. -/
theorem run_main (ρ : Dev nD → PrngReg) :
    θ_run defs (onTc (τ := τ) (main (F := F))) ⟨m, fun _ => 0, ρ⟩ (fun r => ∀ c : Dev nD,
      r.2.mem ((c.tc : Thread nD τ).loc main_v5) = x5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  have key := frame_cond_val m (emb₁ (sig := sig) (nD := nD) (τ := τ)) () 𝒱₀ L lv (fun _ _ => rfl) ρ (outs m) (pdats m) 0 (fun _ => iprop(emp))
    (initOf (Pipeline.cells cfgs cellOf_inj) (Pipeline.launchToks cfgs cellOf_inj)) ?hu (fun _ c => R c) ?hE0 ?hE3
    (reg0 m) (fun c => .rfl) (fun c => by rw [V2_eq]; exact .rfl)
    (reg1 m) (fun c => by rw [V2_eq]; exact .rfl) (fun c => by rw [V3_eq]; exact .rfl)
    (reg2 m) (fun c => by rw [V3_eq]; exact .rfl) (fun c => by rw [V4_eq]; exact .rfl)
  · exact (θ_run defs _ _).mono (fun r h c => ⟨(h c).1.trans (outs_v5 m c), (h c).2⟩) key
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    have hc : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ iprop(emp)) : sProp 𝕄)
        ⊢ iprop((∃ r, prngReg c r) ∗ ∃ W, owes (c : Thread nD τ) (0 : CellTallies nD τ sig Unit) W) := fun c => by
      iintro ⟨-, HO, -, Hp, -⟩
      isplitl [Hp]; · iexists _; iexact Hp
      iexists ∅; iexact HO
    have hm : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ iprop(emp)))
        ⊢ (bigSep Finset.univ (fun c : Dev nD => R c) : sProp 𝕄) := bigSep_mono fun c _ => hc c
    iintro ⟨H, -⟩
    imodintro
    iapply hm
    iexact H
  case hE3 =>
    intro c
    iintro ⟨-, H⟩
    iexact H

end Cert.Kernel.Hand

end
-- ==== Proof.Spec.lean ====
/-
  The three graph-convolution layers as functions on extended-real matrices, entry by entry.

  A node layer over N nodes and E edges with incidence matrix T (N × E):
      d(e)       = ∑ₖ He(e, k) · p(k)
      mult(r, c) = ∑ₑ (T(r, e) · d(e)) · T(c, e)
      A(r, c)    = (1 on the diagonal, mult(r, c) off it) · adj(r, c)
      pre(r, j)  = ∑_c A(r, c) · (∑ₖ Hv(c, k) · W(k, j)) + b(j)
  An edge layer is the same with the roles of the two axes of T exchanged:
      d(n)       = ∑ₖ Hv(n, k) · p(k),   mult(a, b) = ∑ₙ (T(n, a) · d(n)) · T(n, b).
  The network: X₁ = relu(node(X, Z)), Z₂ = relu(edge(X₁, relu Z)), out = log_softmax(node(X₁, Z₂)).
-/
import Mathlib.Data.EReal.Basic
import Mathlib.Data.EReal.Operations
import Mathlib.Algebra.BigOperators.Group.Finset.Basic
import Mathlib.Data.Finset.Fold
import Idealize.ShloMosaic.PureOps.Ideal
import Idealize.ShloMosaic.Lib.ValueIdx

noncomputable section

namespace Cert.Gcn

open Idealize.ShloMosaic

/-- An extended-real matrix. -/
abbrev Mat (A B : Nat) := Fin A → Fin B → EReal

def relu (x : EReal) : EReal := max x 0

/-- ∑ₖ H(a, k) · p(k). -/
def dvec {A K : Nat} (H : Mat A K) (p : Fin K → EReal) : Fin A → EReal := fun a => ∑ k : Fin K, H a k * p k

/-- ∑ₖ H(a, k) · W(k, b). -/
def lin {A K B : Nat} (H : Mat A K) (W : Mat K B) : Mat A B := fun a b => ∑ k : Fin K, H a k * W k b

/-- ∑ₑ (T(r, e) · d(e)) · T(c, e). -/
def multN {N E : Nat} (T : Mat N E) (d : Fin E → EReal) : Mat N N := fun r c => ∑ e : Fin E, (T r e * d e) * T c e

/-- ∑ₙ (T(n, a) · d(n)) · T(n, b). -/
def multE {N E : Nat} (T : Mat N E) (d : Fin N → EReal) : Mat E E := fun a b => ∑ n : Fin N, (T n a * d n) * T n b

/-- The diagonal forced to one, then the entrywise product with the adjacency. -/
def amat {A : Nat} (mult adj : Mat A A) : Mat A A := fun r c => (if r.val = c.val then (1 : EReal) else mult r c) * adj r c

/-- ∑_c Am(r, c) · HW(c, j) + b(j). -/
def layer {A B : Nat} (Am : Mat A A) (HW : Mat A B) (b : Fin B → EReal) : Mat A B :=
  fun r j => (∑ c : Fin A, Am r c * HW c j) + b j

def nodePre {N E Kv Ke B : Nat} (T : Mat N E) (adj : Mat N N) (Hv : Mat N Kv) (He : Mat E Ke) (W : Mat Kv B)
    (p : Fin Ke → EReal) (b : Fin B → EReal) : Mat N B :=
  layer (amat (multN T (dvec He p)) adj) (lin Hv W) b

def edgePre {N E Kv Ke B : Nat} (T : Mat N E) (adj : Mat E E) (Hv : Mat N Kv) (He : Mat E Ke) (W : Mat Ke B)
    (p : Fin Kv → EReal) (b : Fin B → EReal) : Mat E B :=
  layer (amat (multE T (dvec Hv p)) adj) (lin He W) b

/-- The row maximum from -∞. -/
def rowMax {A B : Nat} (o : Mat A B) (r : Fin A) : EReal := (Finset.univ : Finset (Fin B)).fold max (⊥ : EReal) (fun k => o r k)

/-- log-softmax the way the kernel spells it: o − (m + log ∑ exp (o − m)). -/
def logsmK {A B : Nat} (o : Mat A B) : Mat A B :=
  fun r j => o r j - (rowMax o r + Ideal.log (∑ k : Fin B, Ideal.exp (o r k - rowMax o r)))

/-- log-softmax the way the reference spells it: (o − m) − log ∑ exp (o − m). -/
def logsmR {A B : Nat} (o : Mat A B) : Mat A B :=
  fun r j => (o r j - rowMax o r) - Ideal.log (∑ k : Fin B, Ideal.exp (o r k - rowMax o r))

/-- A rank-2 array as a matrix. -/
def mat {A B : Nat} (x : (⟨2, ![A, B]⟩ : Shape).Idx → EReal) : Mat A B := fun a b => x (ValueIdx.ix2 a b)
/-- A [1, K] array as a vector. -/
def row {K : Nat} (x : (⟨2, ![1, K]⟩ : Shape).Idx → EReal) : Fin K → EReal := fun k => x (ValueIdx.ix2 0 k)
/-- A rank-1 array as a vector. -/
def vec {K : Nat} (x : (⟨1, ![K]⟩ : Shape).Idx → EReal) : Fin K → EReal := fun k => x (ValueIdx.ix1 k)

/-- An extended real that is a real number. -/
def Fn (x : EReal) : Prop := ∃ r : ℝ, x = (r : EReal)

section Net

variable (X : Mat 1024 128) (Z : Mat 2048 16) (adjE : Mat 2048 2048) (adjV : Mat 1024 1024) (T : Mat 1024 2048)
  (W1 : Mat 128 64) (p1 : Fin 16 → EReal) (b1 : Fin 64 → EReal) (W2 : Mat 16 16) (p2 : Fin 64 → EReal) (b2 : Fin 16 → EReal)
  (W3 : Mat 64 16) (p3 : Fin 16 → EReal) (b3 : Fin 16 → EReal)

/-- Layer 1: relu of the node layer on (X, Z). -/
def X1 : Mat 1024 64 := fun r j => relu (nodePre T adjV X Z W1 p1 b1 r j)
/-- Layer 2: relu of the edge layer on (X₁, relu Z). -/
def Z2 : Mat 2048 16 := fun a j => relu (edgePre T adjE (X1 X Z adjV T W1 p1 b1) (fun e k => relu (Z e k)) W2 p2 b2 a j)
/-- Layer 3 before the log-softmax: the node layer on (X₁, Z₂). -/
def O3 : Mat 1024 16 :=
  nodePre T adjV (X1 X Z adjV T W1 p1 b1) (Z2 X Z adjE adjV T W1 p1 b1 W2 p2 b2) W3 p3 b3
/-- The network's result. -/
def out : Mat 1024 16 := logsmK (O3 X Z adjE adjV T W1 p1 b1 W2 p2 b2 W3 p3 b3)

end Net

/-! ## Finiteness: sums, products and maxima of real numbers are real -/

theorem Fn.add {x y : EReal} (hx : Fn x) (hy : Fn y) : Fn (x + y) := by
  obtain ⟨a, rfl⟩ := hx; obtain ⟨b, rfl⟩ := hy; exact ⟨a + b, (EReal.coe_add a b).symm⟩
theorem Fn.mul {x y : EReal} (hx : Fn x) (hy : Fn y) : Fn (x * y) := by
  obtain ⟨a, rfl⟩ := hx; obtain ⟨b, rfl⟩ := hy; exact ⟨a * b, (EReal.coe_mul a b).symm⟩
theorem Fn.max {x y : EReal} (hx : Fn x) (hy : Fn y) : Fn (max x y) := by
  rcases max_choice x y with h | h <;> rw [h] <;> assumption
theorem Fn.one : Fn 1 := ⟨1, rfl⟩
theorem Fn.zero : Fn 0 := ⟨0, rfl⟩
theorem Fn.relu {x : EReal} (hx : Fn x) : Fn (relu x) := Fn.max hx Fn.zero
theorem Fn.sum {ι : Type} (s : Finset ι) (f : ι → EReal) (h : ∀ i ∈ s, Fn (f i)) : Fn (∑ i ∈ s, f i) := by
  classical
  induction s using Finset.induction_on with
  | empty => exact ⟨0, by simp⟩
  | insert a s ha ih =>
    rw [Finset.sum_insert ha]
    exact Fn.add (h a (Finset.mem_insert_self a s)) (ih fun i hi => h i (Finset.mem_insert_of_mem hi))

/-- A matrix–vector product of real entries is real. -/
theorem dvec_fn {A K : Nat} {H : Mat A K} {p : Fin K → EReal} (hH : ∀ i j, Fn (H i j)) (hp : ∀ i, Fn (p i))
    (a : Fin A) : Fn (dvec H p a) :=
  Fn.sum _ _ fun k _ => Fn.mul (hH a k) (hp k)

/-- A matrix product of real entries is real. -/
theorem lin_fn {A K B : Nat} {H : Mat A K} {W : Mat K B} (hH : ∀ i j, Fn (H i j)) (hW : ∀ i j, Fn (W i j))
    (a : Fin A) (b : Fin B) : Fn (lin H W a b) :=
  Fn.sum _ _ fun k _ => Fn.mul (hH a k) (hW k b)

theorem multN_fn {N E : Nat} {T : Mat N E} {d : Fin E → EReal} (hT : ∀ i j, Fn (T i j)) (hd : ∀ i, Fn (d i))
    (r c : Fin N) : Fn (multN T d r c) :=
  Fn.sum _ _ fun e _ => Fn.mul (Fn.mul (hT r e) (hd e)) (hT c e)

theorem multE_fn {N E : Nat} {T : Mat N E} {d : Fin N → EReal} (hT : ∀ i j, Fn (T i j)) (hd : ∀ i, Fn (d i))
    (a b : Fin E) : Fn (multE T d a b) :=
  Fn.sum _ _ fun n _ => Fn.mul (Fn.mul (hT n a) (hd n)) (hT n b)

theorem amat_fn {A : Nat} {mult adj : Mat A A} (hm : ∀ i j, Fn (mult i j)) (ha : ∀ i j, Fn (adj i j))
    (r c : Fin A) : Fn (amat mult adj r c) := by
  unfold amat
  split
  · exact Fn.mul Fn.one (ha r c)
  · exact Fn.mul (hm r c) (ha r c)

theorem layer_fn {A B : Nat} {Am : Mat A A} {HW : Mat A B} {b : Fin B → EReal} (hA : ∀ i j, Fn (Am i j))
    (hHW : ∀ i j, Fn (HW i j)) (hb : ∀ i, Fn (b i)) (r : Fin A) (j : Fin B) : Fn (layer Am HW b r j) :=
  Fn.add (Fn.sum _ _ fun c _ => Fn.mul (hA r c) (hHW c j)) (hb j)

theorem nodePre_fn {N E Kv Ke B : Nat} {T : Mat N E} {adj : Mat N N} {Hv : Mat N Kv} {He : Mat E Ke} {W : Mat Kv B}
    {p : Fin Ke → EReal} {b : Fin B → EReal} (hT : ∀ i j, Fn (T i j)) (hadj : ∀ i j, Fn (adj i j))
    (hHv : ∀ i j, Fn (Hv i j)) (hHe : ∀ i j, Fn (He i j)) (hW : ∀ i j, Fn (W i j)) (hp : ∀ i, Fn (p i))
    (hb : ∀ i, Fn (b i)) (r : Fin N) (j : Fin B) : Fn (nodePre T adj Hv He W p b r j) :=
  layer_fn (amat_fn (multN_fn hT (dvec_fn hHe hp)) hadj) (lin_fn hHv hW) hb r j

theorem edgePre_fn {N E Kv Ke B : Nat} {T : Mat N E} {adj : Mat E E} {Hv : Mat N Kv} {He : Mat E Ke} {W : Mat Ke B}
    {p : Fin Kv → EReal} {b : Fin B → EReal} (hT : ∀ i j, Fn (T i j)) (hadj : ∀ i j, Fn (adj i j))
    (hHv : ∀ i j, Fn (Hv i j)) (hHe : ∀ i j, Fn (He i j)) (hW : ∀ i j, Fn (W i j)) (hp : ∀ i, Fn (p i))
    (hb : ∀ i, Fn (b i)) (r : Fin E) (j : Fin B) : Fn (edgePre T adj Hv He W p b r j) :=
  layer_fn (amat_fn (multE_fn hT (dvec_fn hHv hp)) hadj) (lin_fn hHe hW) hb r j

/-- The last layer's pre-activation is real when every input entry is. -/
theorem O3_fn (X : Mat 1024 128) (Z : Mat 2048 16) (adjE : Mat 2048 2048) (adjV : Mat 1024 1024) (T : Mat 1024 2048)
    (W1 : Mat 128 64) (p1 : Fin 16 → EReal) (b1 : Fin 64 → EReal) (W2 : Mat 16 16) (p2 : Fin 64 → EReal) (b2 : Fin 16 → EReal)
    (W3 : Mat 64 16) (p3 : Fin 16 → EReal) (b3 : Fin 16 → EReal)
    (hX : ∀ i j, Fn (X i j)) (hZ : ∀ i j, Fn (Z i j)) (hE : ∀ i j, Fn (adjE i j)) (hV : ∀ i j, Fn (adjV i j)) (hT : ∀ i j, Fn (T i j))
    (hW1 : ∀ i j, Fn (W1 i j)) (hp1 : ∀ i, Fn (p1 i)) (hb1 : ∀ i, Fn (b1 i)) (hW2 : ∀ i j, Fn (W2 i j)) (hp2 : ∀ i, Fn (p2 i))
    (hb2 : ∀ i, Fn (b2 i)) (hW3 : ∀ i j, Fn (W3 i j)) (hp3 : ∀ i, Fn (p3 i)) (hb3 : ∀ i, Fn (b3 i)) (r : Fin 1024) (j : Fin 16) :
    Fn (O3 X Z adjE adjV T W1 p1 b1 W2 p2 b2 W3 p3 b3 r j) := by
  have hX1 : ∀ i k, Fn (X1 X Z adjV T W1 p1 b1 i k) := fun i k =>
    Fn.relu (nodePre_fn hT hV hX hZ hW1 hp1 hb1 i k)
  have hZ2 : ∀ i k, Fn (Z2 X Z adjE adjV T W1 p1 b1 W2 p2 b2 i k) := fun i k =>
    Fn.relu (edgePre_fn hT hE hX1 (fun e k => Fn.relu (hZ e k)) hW2 hp2 hb2 i k)
  exact nodePre_fn hT hV hX1 hZ2 hW3 hp3 hb3 r j

/-- A maximum from -∞ over a nonempty finite family of real numbers is real. -/
theorem fold_max_fn {ι : Type} (s : Finset ι) (f : ι → EReal) (h : ∀ i ∈ s, Fn (f i)) (hs : s.Nonempty) :
    Fn (s.fold max (⊥ : EReal) f) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]
      exact h a (Finset.mem_insert_self a _)
    · exact Fn.max (h a (Finset.mem_insert_self a s)) (ih (fun i hi => h i (Finset.mem_insert_of_mem hi)) hne)

/-- The row maximum of a real matrix with at least one column is real. -/
theorem rowMax_fn {A B : Nat} (hB : 0 < B) (o : Mat A B) (ho : ∀ r j, Fn (o r j)) (r : Fin A) : Fn (rowMax o r) :=
  fold_max_fn _ _ (fun k _ => ho r k) ⟨⟨0, hB⟩, Finset.mem_univ _⟩

/-- For real x and m and any extended real l, x − (m + l) = (x − m) − l. -/
theorem sub_add_eq_sub_sub_of_real (x m : ℝ) (l : EReal) :
    (x : EReal) - ((m : EReal) + l) = ((x : EReal) - (m : EReal)) - l := by
  induction l using EReal.rec with
  | bot => rw [EReal.add_bot, EReal.sub_bot (EReal.coe_ne_bot x), ← EReal.coe_sub, EReal.sub_bot (EReal.coe_ne_bot _)]
  | coe l => rw [← EReal.coe_add, ← EReal.coe_sub, ← EReal.coe_sub, ← EReal.coe_sub, sub_add_eq_sub_sub]
  | top => rw [EReal.add_top_of_ne_bot (EReal.coe_ne_bot m), EReal.sub_top, ← EReal.coe_sub, EReal.sub_top]

/-- On a matrix of real numbers with at least one column the two spellings of log-softmax agree. -/
theorem logsmK_eq_logsmR {A B : Nat} (hB : 0 < B) (o : Mat A B) (ho : ∀ r j, Fn (o r j)) : logsmK o = logsmR o := by
  funext r j
  obtain ⟨x, hx⟩ := ho r j
  obtain ⟨m, hm⟩ := rowMax_fn hB o ho r
  unfold logsmK logsmR
  rw [hm, hx]
  exact sub_add_eq_sub_sub_of_real x m _

theorem relu_relu (x : EReal) : relu (relu x) = relu x := by
  unfold relu; exact max_eq_left (le_max_right x 0)

end Cert.Gcn

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.RefValue.lean ====
/-
  The reference's result, read entry by entry at the extended reals: the row-wise log-softmax (in the reference's
  spelling, (o − m) − log ∑ exp (o − m)) of the third layer's pre-activation.
-/
import proofs.«147858_g78709570666604_cont_9to1_m_429_2_alg».proof.Proof.RefReadP
import proofs.«147858_g78709570666604_cont_9to1_m_429_2_alg».proof.Proof.Spec
import proofs.«147858_g78709570666604_cont_9to1_m_429_2_alg».proof.Proof.LibRowwise
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.Gcn

open Cert.ReferenceIdeal.ReadP

/-- Index equations of rank 2: coordinate by coordinate. -/
local macro "idx_eq" : tactic => `(tactic| (funext a; apply Fin.ext; match a with
  | ⟨0, _⟩ => first | rfl | exact Nat.div_one _
  | ⟨1, _⟩ => first | rfl | exact Nat.div_one _))
/-- Index equations of rank 1. -/
local macro "idx_eq1" : tactic => `(tactic| (funext a; apply Fin.ext; match a with
  | ⟨0, _⟩ => first | rfl | exact Nat.div_one _))

/-- The f32 word of 1.0 is the extended real 1. -/
theorem ofBits_one_f32 : Ideal.ofBits .f32 0x3F800000#32 = 1 := by
  simp [Ideal.ofBits, Ideal.ieee, -EReal.coe_mul]; norm_num

/-- The f32 word of −∞ is ⊥. -/
theorem ofBits_neginf_f32 : Ideal.ofBits .f32 0xFF800000#32 = (⊥ : EReal) := by
  simp [Ideal.ofBits, Ideal.ieee]

/-- The identity matrix's entry as the reference spells it: the unsigned value of the one-bit word (a + 0 == b)
    on 32-bit words of naturals below 2^32 is 1 when a = b and 0 otherwise. -/
theorem eye_word (a b : Nat) (ha : a < 2 ^ 32) (hb : b < 2 ^ 32) :
    (FloatOps.uitofp (F := Ideal) .f32 (IntOp.cmpi .eq (IntOp.addi (BitVec.ofNat 32 a) 0#32) (BitVec.ofNat 32 b)) : EReal)
      = if a = b then 1 else 0 := by
  show (((IntOp.cmpi .eq (IntOp.addi (BitVec.ofNat 32 a) 0#32) (BitVec.ofNat 32 b)).toNat : ℝ) : EReal) = _
  unfold IntOp.cmpi IntOp.addi
  rw [BitVec.add_zero]
  by_cases h : a = b
  · subst h; simp
  · rw [if_neg h]
    have hne : (BitVec.ofNat 32 a == BitVec.ofNat 32 b) = false := by
      rw [beq_eq_false_iff_ne]
      intro e
      apply h
      have e' := congrArg BitVec.toNat e
      rw [BitVec.toNat_ofNat, BitVec.toNat_ofNat, Nat.mod_eq_of_lt ha, Nat.mod_eq_of_lt hb] at e'
      exact e'
    simp [hne]

/-- The diagonal forced to one: e + (1 − e) · m for e the identity matrix's entry. -/
theorem diag_arith (p : Prop) [Decidable p] (m : EReal) :
    (if p then (1 : EReal) else 0) + (1 - (if p then (1 : EReal) else 0)) * m = if p then 1 else m := by
  by_cases h : p
  · rw [if_pos h, if_pos h]
    have : (1 : EReal) - 1 = 0 := by rw [← EReal.coe_one, ← EReal.coe_sub, sub_self, EReal.coe_zero]
    rw [this, zero_mul, add_zero]
  · rw [if_neg h, if_neg h, sub_zero, one_mul, zero_add]

section Stages

variable (x0 : (⟨S1024x128, .f32⟩ : BufTy).Contents (Elt Ideal)) (x1 : (⟨S2048x16, .f32⟩ : BufTy).Contents (Elt Ideal))
    (x2 : (⟨S2048x2048, .f32⟩ : BufTy).Contents (Elt Ideal)) (x3 : (⟨S1024x1024, .f32⟩ : BufTy).Contents (Elt Ideal))
    (x4 : (⟨S1024x2048, .f32⟩ : BufTy).Contents (Elt Ideal)) (x5 : (⟨S128x64, .f32⟩ : BufTy).Contents (Elt Ideal))
    (x6 : (⟨S1x16, .f32⟩ : BufTy).Contents (Elt Ideal)) (x7 : (⟨S64, .f32⟩ : BufTy).Contents (Elt Ideal))
    (x8 : (⟨S16x16, .f32⟩ : BufTy).Contents (Elt Ideal)) (x9 : (⟨S1x64, .f32⟩ : BufTy).Contents (Elt Ideal))
    (x10 : (⟨S16, .f32⟩ : BufTy).Contents (Elt Ideal)) (x11 : (⟨S64x16, .f32⟩ : BufTy).Contents (Elt Ideal))
    (x12 : (⟨S1x16, .f32⟩ : BufTy).Contents (Elt Ideal)) (x13 : (⟨S16, .f32⟩ : BufTy).Contents (Elt Ideal))

/-! ## Layer 1 (node layer on (X, Z)) -/

/-- d(e) = ∑ₖ Z(e, k) · p1(k), broadcast down the rows. -/
theorem v4_eq (r : Fin 1024) (e : Fin 2048) :
    val_main_v4 (F := Ideal) x1 x6 (ix2 r e) = dvec (mat x1) (row x6) e := by
  rw [val_main_v4_apply, val_main_v3_apply, val_main_v2_apply, val_main_v1_apply]
  unfold dvec mat row
  refine Finset.sum_congr rfl fun k _ => ?_
  rw [val_main_v0_apply]
  congr 2 <;> idx_eq

/-- mult(r, c) = ∑ₑ (T(r, e) · d(e)) · T(c, e). -/
theorem v7_eq (r c : Fin 1024) :
    val_main_v7 (F := Ideal) x1 x4 x6 (ix2 r c) = multN (mat x4) (dvec (mat x1) (row x6)) r c := by
  rw [val_main_v7_apply]
  unfold multN
  refine Finset.sum_congr rfl fun k _ => ?_
  have el : lidx_main_v7 (ix2 r c) k = ix2 r k := by idx_eq
  have er : ridx_main_v7 (ix2 r c) k = ix2 k c := by idx_eq
  have e6 : idx_main_v6 (ix2 k c) = ix2 c k := by idx_eq
  rw [el, er, val_main_v5_apply, val_main_v6_apply, v4_eq, e6]
  rfl

/-- The identity matrix. -/
theorem v13_eq (r c : Fin 1024) :
    val_main_v13 (F := Ideal) (ix2 r c) = if r.val = c.val then (1 : EReal) else 0 := by
  rw [val_main_v13_apply, val_main_v12_apply, val_main_v11_apply, val_main_v10_apply, val_main_c_apply,
    val_main_v8_apply, val_main_v9_apply]
  exact eye_word r.val c.val (by have := r.isLt; omega) (by have := c.isLt; omega)

/-- A(r, c) = (1 on the diagonal, mult(r, c) off it) · adj_v(r, c). -/
theorem v18_eq (r c : Fin 1024) :
    val_main_v18 (F := Ideal) x1 x3 x4 x6 (ix2 r c)
      = amat (multN (mat x4) (dvec (mat x1) (row x6))) (mat x3) r c := by
  rw [val_main_v18_apply, val_main_v17_apply, val_main_v16_apply, val_main_v15_apply, val_main_v14_apply,
    val_main_cst_apply, v7_eq, v13_eq]
  unfold amat
  rw [Ideal.ofBits_def, ofBits_one_f32, Ideal.mulf_def, Ideal.addf_def, Ideal.subf_def, Ideal.mulf_def, diag_arith]
  rfl

/-- (X · W1)(c, j). -/
theorem v19_eq (c : Fin 1024) (j : Fin 64) :
    val_main_v19 (F := Ideal) x0 x5 (ix2 c j) = lin (mat x0) (mat x5) c j := by
  rw [val_main_v19_apply]
  unfold lin mat
  refine Finset.sum_congr rfl fun k _ => ?_
  congr 2 <;> idx_eq

/-- The first layer before its relu. -/
theorem v23_eq (r : Fin 1024) (j : Fin 64) :
    val_main_v23 (F := Ideal) x0 x1 x3 x4 x5 x6 x7 (ix2 r j)
      = nodePre (mat x4) (mat x3) (mat x0) (mat x1) (mat x5) (row x6) (vec x7) r j := by
  rw [val_main_v23_apply, val_main_v20_apply, val_main_v22_apply, val_main_v21_apply, Ideal.addf_def]
  unfold nodePre layer
  congr 1
  · refine Finset.sum_congr rfl fun k _ => ?_
    have el : lidx_main_v20 (ix2 r j) k = ix2 r k := by idx_eq
    have er : ridx_main_v20 (ix2 r j) k = ix2 k j := by idx_eq
    rw [el, er, v18_eq, v19_eq]
  · unfold vec
    congr 1
    idx_eq1

/-- X₁. -/
theorem v24_eq (r : Fin 1024) (j : Fin 64) :
    val_main_v24 (F := Ideal) x0 x1 x3 x4 x5 x6 x7 (ix2 r j)
      = X1 (mat x0) (mat x1) (mat x3) (mat x4) (mat x5) (row x6) (vec x7) r j := by
  rw [val_main_v24_apply, val_main_call0_v0_apply, val_main_call0_cst_apply, v23_eq, Ideal.maximumf_def,
    Ideal.ofBits_def, Ideal.ofBits_zero_f32]
  rfl

/-! ## Layer 2 (edge layer on (X₁, relu Z)) -/

/-- relu Z. -/
theorem v25_eq (e : Fin 2048) (k : Fin 16) :
    val_main_v25 (F := Ideal) x1 (ix2 e k) = relu (mat x1 e k) := by
  rw [val_main_v25_apply, val_main_call1_v0_apply, val_main_call1_cst_apply, Ideal.maximumf_def, Ideal.ofBits_def,
    Ideal.ofBits_zero_f32]
  rfl

/-- d(n) = ∑ₖ X₁(n, k) · p2(k), broadcast down the rows. -/
theorem v31_eq (a : Fin 2048) (n : Fin 1024) :
    val_main_v31 (F := Ideal) x0 x1 x3 x4 x5 x6 x7 x9 (ix2 a n) = dvec (X1 (mat x0) (mat x1) (mat x3) (mat x4) (mat x5) (row x6) (vec x7)) (row x9) n := by
  rw [val_main_v31_apply, val_main_v30_apply, val_main_v28_apply, val_main_v27_apply]
  unfold dvec
  refine Finset.sum_congr rfl fun k _ => ?_
  have el : lidx_main_v27 (idx_main_v28 (idx_main_v30 (idx_main_v31 (ix2 a n)))) k = ix2 n k := by idx_eq
  have er : idx_main_v26 (ridx_main_v27 (idx_main_v28 (idx_main_v30 (idx_main_v31 (ix2 a n)))) k) = ix2 0 k := by idx_eq
  rw [val_main_v26_apply, el, er, v24_eq]
  rfl

/-- mult(a, b) = ∑ₙ (T(n, a) · d(n)) · T(n, b). -/
theorem v33_eq (a b : Fin 2048) :
    val_main_v33 (F := Ideal) x0 x1 x3 x4 x5 x6 x7 x9 (ix2 a b) = multE (mat x4) (dvec (X1 (mat x0) (mat x1) (mat x3) (mat x4) (mat x5) (row x6) (vec x7)) (row x9)) a b := by
  rw [val_main_v33_apply]
  unfold multE
  refine Finset.sum_congr rfl fun k _ => ?_
  have el : lidx_main_v33 (ix2 a b) k = ix2 a k := by idx_eq
  have er : ridx_main_v33 (ix2 a b) k = ix2 k b := by idx_eq
  have e29 : idx_main_v29 (ix2 a k) = ix2 k a := by idx_eq
  rw [el, er, val_main_v32_apply, val_main_v29_apply, v31_eq, e29]
  rfl

/-- The identity matrix on the edges. -/
theorem v39_eq (a b : Fin 2048) :
    val_main_v39 (F := Ideal) (ix2 a b) = if a.val = b.val then (1 : EReal) else 0 := by
  rw [val_main_v39_apply, val_main_v38_apply, val_main_v37_apply, val_main_v36_apply, val_main_c_0_apply,
    val_main_v34_apply, val_main_v35_apply]
  exact eye_word a.val b.val (by have := a.isLt; omega) (by have := b.isLt; omega)

/-- A(a, b) = (1 on the diagonal, mult(a, b) off it) · adj_e(a, b). -/
theorem v44_eq (a b : Fin 2048) :
    val_main_v44 (F := Ideal) x0 x1 x2 x3 x4 x5 x6 x7 x9 (ix2 a b)
      = amat (multE (mat x4) (dvec (X1 (mat x0) (mat x1) (mat x3) (mat x4) (mat x5) (row x6) (vec x7)) (row x9))) (mat x2) a b := by
  rw [val_main_v44_apply, val_main_v43_apply, val_main_v42_apply, val_main_v41_apply, val_main_v40_apply,
    val_main_cst_1_apply, v33_eq, v39_eq]
  unfold amat
  rw [Ideal.ofBits_def, ofBits_one_f32, Ideal.mulf_def, Ideal.addf_def, Ideal.subf_def, Ideal.mulf_def, diag_arith]
  rfl

/-- (relu Z · W2)(e, j). -/
theorem v45_eq (e : Fin 2048) (j : Fin 16) :
    val_main_v45 (F := Ideal) x1 x8 (ix2 e j) = lin (fun e k => relu (mat x1 e k)) (mat x8) e j := by
  rw [val_main_v45_apply]
  unfold lin
  refine Finset.sum_congr rfl fun k _ => ?_
  have el : lidx_main_v45 (ix2 e j) k = ix2 e k := by idx_eq
  have er : ridx_main_v45 (ix2 e j) k = ix2 k j := by idx_eq
  rw [el, er, v25_eq]
  rfl

/-- The second layer before its relu. -/
theorem v49_eq (a : Fin 2048) (j : Fin 16) :
    val_main_v49 (F := Ideal) x0 x1 x2 x3 x4 x5 x6 x7 x8 x9 x10 (ix2 a j)
      = edgePre (mat x4) (mat x2) (X1 (mat x0) (mat x1) (mat x3) (mat x4) (mat x5) (row x6) (vec x7)) (fun e k => relu (mat x1 e k)) (mat x8) (row x9) (vec x10) a j := by
  rw [val_main_v49_apply, val_main_v46_apply, val_main_v48_apply, val_main_v47_apply, Ideal.addf_def]
  unfold edgePre layer
  congr 1
  · refine Finset.sum_congr rfl fun k _ => ?_
    have el : lidx_main_v46 (ix2 a j) k = ix2 a k := by idx_eq
    have er : ridx_main_v46 (ix2 a j) k = ix2 k j := by idx_eq
    rw [el, er, v44_eq, v45_eq]
  · unfold vec
    congr 1
    idx_eq1

/-- Z₂. -/
theorem v51_eq (a : Fin 2048) (j : Fin 16) :
    val_main_v51 (F := Ideal) x0 x1 x2 x3 x4 x5 x6 x7 x8 x9 x10 (ix2 a j) = (Z2 (mat x0) (mat x1) (mat x2) (mat x3) (mat x4) (mat x5) (row x6) (vec x7) (mat x8) (row x9) (vec x10)) a j := by
  rw [val_main_v51_apply, val_main_call3_v0_apply, val_main_call3_cst_apply, v49_eq, Ideal.maximumf_def,
    Ideal.ofBits_def, Ideal.ofBits_zero_f32]
  rfl

/-- relu of X₁ is X₁ (a relu of a relu). -/
theorem v50_eq (r : Fin 1024) (j : Fin 64) :
    val_main_v50 (F := Ideal) x0 x1 x3 x4 x5 x6 x7 (ix2 r j) = (X1 (mat x0) (mat x1) (mat x3) (mat x4) (mat x5) (row x6) (vec x7)) r j := by
  rw [val_main_v50_apply, val_main_call2_v0_apply, val_main_call2_cst_apply, v24_eq, Ideal.maximumf_def,
    Ideal.ofBits_def, Ideal.ofBits_zero_f32]
  exact relu_relu (nodePre (mat x4) (mat x3) (mat x0) (mat x1) (mat x5) (row x6) (vec x7) r j)

/-! ## Layer 3 (node layer on (X₁, Z₂)) -/

/-- d(e) = ∑ₖ Z₂(e, k) · p3(k), broadcast down the rows. -/
theorem v56_eq (r : Fin 1024) (e : Fin 2048) :
    val_main_v56 (F := Ideal) x0 x1 x2 x3 x4 x5 x6 x7 x8 x9 x10 x12 (ix2 r e) = dvec (Z2 (mat x0) (mat x1) (mat x2) (mat x3) (mat x4) (mat x5) (row x6) (vec x7) (mat x8) (row x9) (vec x10)) (row x12) e := by
  rw [val_main_v56_apply, val_main_v55_apply, val_main_v54_apply, val_main_v53_apply]
  unfold dvec
  refine Finset.sum_congr rfl fun k _ => ?_
  have el : lidx_main_v53 (idx_main_v54 (idx_main_v55 (idx_main_v56 (ix2 r e)))) k = ix2 e k := by idx_eq
  have er : idx_main_v52 (ridx_main_v53 (idx_main_v54 (idx_main_v55 (idx_main_v56 (ix2 r e)))) k) = ix2 0 k := by idx_eq
  rw [val_main_v52_apply, el, er, v51_eq]
  rfl

/-- mult(r, c) = ∑ₑ (T(r, e) · d(e)) · T(c, e). -/
theorem v59_eq (r c : Fin 1024) :
    val_main_v59 (F := Ideal) x0 x1 x2 x3 x4 x5 x6 x7 x8 x9 x10 x12 (ix2 r c) = multN (mat x4) (dvec (Z2 (mat x0) (mat x1) (mat x2) (mat x3) (mat x4) (mat x5) (row x6) (vec x7) (mat x8) (row x9) (vec x10)) (row x12)) r c := by
  rw [val_main_v59_apply]
  unfold multN
  refine Finset.sum_congr rfl fun k _ => ?_
  have el : lidx_main_v59 (ix2 r c) k = ix2 r k := by idx_eq
  have er : ridx_main_v59 (ix2 r c) k = ix2 k c := by idx_eq
  have e58 : idx_main_v58 (ix2 k c) = ix2 c k := by idx_eq
  rw [el, er, val_main_v57_apply, val_main_v58_apply, v56_eq, e58]
  rfl

/-- The identity matrix on the nodes, again. -/
theorem v65_eq (r c : Fin 1024) :
    val_main_v65 (F := Ideal) (ix2 r c) = if r.val = c.val then (1 : EReal) else 0 := by
  rw [val_main_v65_apply, val_main_v64_apply, val_main_v63_apply, val_main_v62_apply, val_main_c_2_apply,
    val_main_v60_apply, val_main_v61_apply]
  exact eye_word r.val c.val (by have := r.isLt; omega) (by have := c.isLt; omega)

/-- A(r, c) = (1 on the diagonal, mult(r, c) off it) · adj_v(r, c). -/
theorem v70_eq (r c : Fin 1024) :
    val_main_v70 (F := Ideal) x0 x1 x2 x3 x4 x5 x6 x7 x8 x9 x10 x12 (ix2 r c)
      = amat (multN (mat x4) (dvec (Z2 (mat x0) (mat x1) (mat x2) (mat x3) (mat x4) (mat x5) (row x6) (vec x7) (mat x8) (row x9) (vec x10)) (row x12))) (mat x3) r c := by
  rw [val_main_v70_apply, val_main_v69_apply, val_main_v68_apply, val_main_v67_apply, val_main_v66_apply,
    val_main_cst_3_apply, v59_eq, v65_eq]
  unfold amat
  rw [Ideal.ofBits_def, ofBits_one_f32, Ideal.mulf_def, Ideal.addf_def, Ideal.subf_def, Ideal.mulf_def, diag_arith]
  rfl

/-- (X₁ · W3)(c, j). -/
theorem v71_eq (c : Fin 1024) (j : Fin 16) :
    val_main_v71 (F := Ideal) x0 x1 x3 x4 x5 x6 x7 x11 (ix2 c j) = lin (X1 (mat x0) (mat x1) (mat x3) (mat x4) (mat x5) (row x6) (vec x7)) (mat x11) c j := by
  rw [val_main_v71_apply]
  unfold lin
  refine Finset.sum_congr rfl fun k _ => ?_
  have el : lidx_main_v71 (ix2 c j) k = ix2 c k := by idx_eq
  have er : ridx_main_v71 (ix2 c j) k = ix2 k j := by idx_eq
  rw [el, er, v50_eq]
  rfl

/-- The third layer: the pre-activation the log-softmax is taken of. -/
theorem v75_eq (r : Fin 1024) (j : Fin 16) :
    val_main_v75 (F := Ideal) x0 x1 x2 x3 x4 x5 x6 x7 x8 x9 x10 x11 x12 x13 (ix2 r j) = (O3 (mat x0) (mat x1) (mat x2) (mat x3) (mat x4) (mat x5) (row x6) (vec x7) (mat x8) (row x9) (vec x10) (mat x11) (row x12) (vec x13)) r j := by
  rw [val_main_v75_apply, val_main_v72_apply, val_main_v74_apply, val_main_v73_apply, Ideal.addf_def]
  unfold O3 nodePre layer
  congr 1
  · refine Finset.sum_congr rfl fun k _ => ?_
    have el : lidx_main_v72 (ix2 r j) k = ix2 r k := by idx_eq
    have er : ridx_main_v72 (ix2 r j) k = ix2 k j := by idx_eq
    rw [el, er, v70_eq, v71_eq]
  · unfold vec
    congr 1
    idx_eq1

/-! ## The row-wise log-softmax -/

/-- The row maximum: the fold of max from −∞ over the row's sixteen entries. -/
theorem c4v0_eq (r : Fin 1024) :
    val_main_call4_v0 (F := Ideal) x0 x1 x2 x3 x4 x5 x6 x7 x8 x9 x10 x11 x12 x13 (ix1 r) = rowMax (O3 (mat x0) (mat x1) (mat x2) (mat x3) (mat x4) (mat x5) (row x6) (vec x7) (mat x8) (row x9) (vec x10) (mat x11) (row x12) (vec x13)) r := by
  unfold val_main_call4_v0
  generalize hv : val_main_v75 (F := Ideal) x0 x1 x2 x3 x4 x5 x6 x7 x8 x9 x10 x11 x12 x13 = v
  have hred : S1024x16.Reduces [1] S1024 := by decide
  refine (Host.reduce_eq_fold_single (α := Ideal .f32) (s := S1024x16) (t := S1024) (a := 1) FloatOps.maximumf v
    (val_main_call4_cst (F := Ideal)) Gen.reducesTo_S1024x16_S1024_d1 hred Gen.h_S_ (ix1 r)).trans ?_
  have e : (v ∘ hred.lift (ix1 r)) = fun k : Fin 16 => (O3 (mat x0) (mat x1) (mat x2) (mat x3) (mat x4) (mat x5) (row x6) (vec x7) (mat x8) (row x9) (vec x10) (mat x11) (row x12) (vec x13)) r k := funext fun (k : Fin 16) => by
    show v (hred.lift (ix1 r) k) = _
    rw [Cert.Lib.Rowwise.lift_row hred r k, ← hv]
    exact v75_eq x0 x1 x2 x3 x4 x5 x6 x7 x8 x9 x10 x11 x12 x13 r k
  rw [e, val_main_call4_cst_apply, Ideal.ofBits_def, ofBits_neginf_f32]
  rfl

/-- The maximum of −∞ and the row maximum is the row maximum. -/
theorem c4v2_eq (r : Fin 1024) :
    val_main_call4_v2 (F := Ideal) x0 x1 x2 x3 x4 x5 x6 x7 x8 x9 x10 x11 x12 x13 (ix1 r) = rowMax (O3 (mat x0) (mat x1) (mat x2) (mat x3) (mat x4) (mat x5) (row x6) (vec x7) (mat x8) (row x9) (vec x10) (mat x11) (row x12) (vec x13)) r := by
  rw [val_main_call4_v2_apply, val_main_call4_v1_apply, val_main_call4_cst_0_apply, c4v0_eq, Ideal.maximumf_def,
    Ideal.ofBits_def, ofBits_neginf_f32]
  exact max_eq_right bot_le

/-- o − m. -/
theorem c4v5_eq (r : Fin 1024) (j : Fin 16) :
    val_main_call4_v5 (F := Ideal) x0 x1 x2 x3 x4 x5 x6 x7 x8 x9 x10 x11 x12 x13 (ix2 r j) = (O3 (mat x0) (mat x1) (mat x2) (mat x3) (mat x4) (mat x5) (row x6) (vec x7) (mat x8) (row x9) (vec x10) (mat x11) (row x12) (vec x13)) r j - rowMax (O3 (mat x0) (mat x1) (mat x2) (mat x3) (mat x4) (mat x5) (row x6) (vec x7) (mat x8) (row x9) (vec x10) (mat x11) (row x12) (vec x13)) r := by
  have e : idx_main_call4_v3 (idx_main_call4_v4 (ix2 r j)) = ix1 r := by idx_eq1
  rw [val_main_call4_v5_apply, val_main_call4_v4_apply, val_main_call4_v3_apply, e, c4v2_eq, v75_eq, Ideal.subf_def]

/-- log ∑ₖ exp (o(r, k) − m(r)). -/
theorem c4v10_eq (r : Fin 1024) (j : Fin 16) :
    val_main_call4_v10 (F := Ideal) x0 x1 x2 x3 x4 x5 x6 x7 x8 x9 x10 x11 x12 x13 (ix2 r j)
      = Ideal.log (∑ k : Fin 16, Ideal.exp ((O3 (mat x0) (mat x1) (mat x2) (mat x3) (mat x4) (mat x5) (row x6) (vec x7) (mat x8) (row x9) (vec x10) (mat x11) (row x12) (vec x13)) r k - rowMax (O3 (mat x0) (mat x1) (mat x2) (mat x3) (mat x4) (mat x5) (row x6) (vec x7) (mat x8) (row x9) (vec x10) (mat x11) (row x12) (vec x13)) r)) := by
  rw [val_main_call4_v10_apply, val_main_call4_v9_apply, val_main_call4_v8_apply, val_main_call4_v7_apply,
    val_main_call4_cst_1_apply, Ideal.ofBits_def, Ideal.ofBits_zero_f32, zero_add, Ideal.hostUnary_log_def]
  congr 1
  refine Finset.sum_congr rfl fun k _ => ?_
  have e : idx_main_call4_v7 (idx_main_call4_v8 (idx_main_call4_v10 (ix2 r j))) k = ix2 r k := by idx_eq
  rw [e, val_main_call4_v6_apply, c4v5_eq, Ideal.hostUnary_exp_def]

end Stages

/-- The reference's result at (r, j) is the row-wise log-softmax of the third layer's pre-activation. -/
theorem ref_eq (x0 : (⟨S1024x128, .f32⟩ : BufTy).Contents (Elt Ideal)) (x1 : (⟨S2048x16, .f32⟩ : BufTy).Contents (Elt Ideal))
    (x2 : (⟨S2048x2048, .f32⟩ : BufTy).Contents (Elt Ideal)) (x3 : (⟨S1024x1024, .f32⟩ : BufTy).Contents (Elt Ideal))
    (x4 : (⟨S1024x2048, .f32⟩ : BufTy).Contents (Elt Ideal)) (x5 : (⟨S128x64, .f32⟩ : BufTy).Contents (Elt Ideal))
    (x6 : (⟨S1x16, .f32⟩ : BufTy).Contents (Elt Ideal)) (x7 : (⟨S64, .f32⟩ : BufTy).Contents (Elt Ideal))
    (x8 : (⟨S16x16, .f32⟩ : BufTy).Contents (Elt Ideal)) (x9 : (⟨S1x64, .f32⟩ : BufTy).Contents (Elt Ideal))
    (x10 : (⟨S16, .f32⟩ : BufTy).Contents (Elt Ideal)) (x11 : (⟨S64x16, .f32⟩ : BufTy).Contents (Elt Ideal))
    (x12 : (⟨S1x16, .f32⟩ : BufTy).Contents (Elt Ideal)) (x13 : (⟨S16, .f32⟩ : BufTy).Contents (Elt Ideal))
    (r : Fin 1024) (j : Fin 16) :
    Cert.ReferenceIdeal.ReadP.val_main_v76 (F := Ideal) x0 x1 x2 x3 x4 x5 x6 x7 x8 x9 x10 x11 x12 x13 (ix2 r j)
      = logsmR (O3 (mat x0) (mat x1) (mat x2) (mat x3) (mat x4) (mat x5) (row x6) (vec x7) (mat x8) (row x9) (vec x10)
          (mat x11) (row x12) (vec x13)) r j := by
  rw [val_main_v76_apply, c4v5_eq, c4v10_eq, Ideal.subf_def]
  rfl

end Cert.ReferenceIdeal.RefValue

end
-- ==== Proof.Pay0.lean ====
/-
  The first node layer's three stored values, read entry by entry at the extended reals.
-/
import proofs.«147858_g78709570666604_cont_9to1_m_429_2_alg».proof.Proof.Gen.KernelIdeal.Skeleton
import proofs.«147858_g78709570666604_cont_9to1_m_429_2_alg».proof.Proof.Spec
import proofs.«147858_g78709570666604_cont_9to1_m_429_2_alg».proof.Proof.LibRowwise
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay0

open Idealize.ShloMosaic Idealize.ShloMosaic.ValueIdx Cert.KernelIdeal Cert.KernelIdeal.Gen Cert.Gcn

/-! ## The diagonal test on words -/

/-- The words: block row r of grid point n is the global row n·256 + r, and the comparison with the
    column word is the comparison of the naturals (both are below 2³²). -/
theorem diag_word (n : Nat) (hn : n < 4) (r : Fin 256) (c : Fin 1024) :
    IntOp.cmpi .eq (IntOp.addi (Scalar.muli (BitVec.ofNat 32 n) 256#32) (BitVec.ofNat 32 (0 * 256 + r.val)))
        (BitVec.ofNat 32 (0 * 1024 + c.val))
      = if n * 256 + r.val = c.val then 1#1 else 0#1 := by
  have hr := r.isLt
  have hc := c.isLt
  simp only [Nat.zero_mul, Nat.zero_add]
  have e : IntOp.addi (Scalar.muli (BitVec.ofNat 32 n) 256#32) (BitVec.ofNat 32 r.val) = BitVec.ofNat 32 (n * 256 + r.val) := by
    show BitVec.ofNat 32 n * 256#32 + BitVec.ofNat 32 r.val = _
    apply BitVec.eq_of_toNat_eq
    simp only [BitVec.toNat_add, BitVec.toNat_mul, BitVec.toNat_ofNat]
    omega
  rw [e]
  show BitVec.ofBool (BitVec.ofNat 32 (n * 256 + r.val) == BitVec.ofNat 32 c.val) = _
  by_cases h : n * 256 + r.val = c.val
  · rw [if_pos h, h, beq_self_eq_true]
    rfl
  · rw [if_neg h]
    have hne : BitVec.ofNat 32 (n * 256 + r.val) ≠ BitVec.ofNat 32 c.val := by
      intro hh
      apply h
      have := congrArg BitVec.toNat hh
      simp only [BitVec.toNat_ofNat] at this
      omega
    have hb : (BitVec.ofNat 32 (n * 256 + r.val) == BitVec.ofNat 32 c.val) = false := beq_eq_false_iff_ne.mpr hne
    rw [hb]
    rfl

theorem diag_apply (i : grid0.Coords) (r : Fin 256) (c : Fin 1024) :
    cmpi .eq (addi (broadcast S256x1024 (Scalar.muli (BitVec.ofNat 32 (i 0).val) 256#32)) (iota .tc S256x1024 32 [0] iota_S256x1024_d0_w32))
        (iota .tc S256x1024 32 [1] iota_S256x1024_d1_w32) (ix2 r c)
      = if (i 0).val * 256 + r.val = c.val then 1#1 else 0#1 :=
  diag_word (i 0).val (i 0).isLt r c

/-! ## The two products of the node layer -/

theorem mm1_lhs_0 (j : S256x1024.Idx) (q : dot_S256x2048_S1024x2048_S256x1024_1_1_0_0_n_n.contr.Idx) :
    (dot_S256x2048_S1024x2048_S256x1024_1_1_0_0_n_n.lhsIdx j q 0).val = (j 0).val := rfl
theorem mm1_lhs_1 (j : S256x1024.Idx) (q : dot_S256x2048_S1024x2048_S256x1024_1_1_0_0_n_n.contr.Idx) :
    (dot_S256x2048_S1024x2048_S256x1024_1_1_0_0_n_n.lhsIdx j q 1).val = (q ⟨0, Nat.one_pos⟩).val := rfl
theorem mm1_rhs_0 (j : S256x1024.Idx) (q : dot_S256x2048_S1024x2048_S256x1024_1_1_0_0_n_n.contr.Idx) :
    (dot_S256x2048_S1024x2048_S256x1024_1_1_0_0_n_n.rhsIdx j q 0).val = (j 1).val := rfl
theorem mm1_rhs_1 (j : S256x1024.Idx) (q : dot_S256x2048_S1024x2048_S256x1024_1_1_0_0_n_n.contr.Idx) :
    (dot_S256x2048_S1024x2048_S256x1024_1_1_0_0_n_n.rhsIdx j q 1).val = (q ⟨0, Nat.one_pos⟩).val := rfl

/-- The product that contracts the lanes of both operands, into the zero word, at (r, c): ∑ₑ x(r, e) · y(c, e). -/
theorem mm1_apply (x : FVec Ideal S256x2048 .f32) (y : FVec Ideal S1024x2048 .f32) (r : Fin 256) (c : Fin 1024) :
    FloatOps.matmul dot_S256x2048_S1024x2048_S256x1024_1_1_0_0_n_n none x y (constant S256x1024 .f32 0x00000000#32) (ix2 r c)
      = ∑ e : Fin 2048, x (ix2 r e) * y (ix2 c e) := by
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 r c) ((contrEquiv1 dot_S256x2048_S1024x2048_S256x1024_1_1_0_0_n_n 2048 rfl rfl).symm k) = ix2 r k :=
    funext fun a => Fin.ext (by
      match a with
      | ⟨0, _⟩ => exact mm1_lhs_0 _ _
      | ⟨1, _⟩ => exact (mm1_lhs_1 _ _).trans hk)
  have er : dot_S256x2048_S1024x2048_S256x1024_1_1_0_0_n_n.rhsIdx (ix2 r c) ((contrEquiv1 dot_S256x2048_S1024x2048_S256x1024_1_1_0_0_n_n 2048 rfl rfl).symm k) = ix2 c k :=
    funext fun a => Fin.ext (by
      match a with
      | ⟨0, _⟩ => exact mm1_rhs_0 _ _
      | ⟨1, _⟩ => exact (mm1_rhs_1 _ _).trans hk)
  rw [el, er]

/-- The plain product [256, 1024] × [1024, 64] into the zero word, at (r, j): ∑_c x(r, c) · y(c, j). -/
theorem mm2_apply (x : FVec Ideal S256x1024 .f32) (y : FVec Ideal S1024x64 .f32) (r : Fin 256) (j : Fin 64) :
    FloatOps.matmul dot_S256x1024_S1024x64_S256x64_1_0_0_1_n_n none x y (constant S256x64 .f32 0x00000000#32) (ix2 r j)
      = ∑ c : Fin 1024, x (ix2 r c) * y (ix2 c j) := by
  have hD : dot_S256x1024_S1024x64_S256x64_1_0_0_1_n_n = DotDims.plain 256 1024 64 := Cert.Lib.Rowwise.eq_plain _ rfl rfl rfl rfl rfl rfl
  rw [hD]
  exact Cert.Lib.Rowwise.plain_matmul_zero_apply none x y r j

/-! ## The diagonal select -/

/-- A select on the word of a decided proposition is the `if` on the proposition. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

theorem select_of_eq {α : Type} {w : BitVec 1} {P : Prop} [Decidable P] (hw : w = if P then 1#1 else 0#1) {a b a' b' : α}
    (ha : a = a') (hb : b = b') : Scalar.select w a b = if P then a' else b' := by
  subst hw ha hb
  exact select_ite P a b

/-- The edge weights d(e) = ∑ₖ He(e, k) · p(k), stored as a row. -/
theorem pay1_eq (he : Vec Ideal S2048x16 .f32) (p : Vec Ideal S1x16 .f32) (e : Fin 2048) :
    k0_pay1 (F := Ideal) he p (ix2 0 e) = dvec (mat he) (row p) e := by
  unfold k0_pay1
  refine (congrFun (shapeCast_self _ _) _).trans ?_
  refine (shapeCast_a_1a_apply _ _ 0 e).trans ?_
  refine (Cert.Lib.Rowwise.laneSum_apply _ _ _ _ _ e).trans ?_
  refine Finset.sum_congr rfl fun k _ => ?_
  refine (mulf_apply _ _ _).trans ?_
  exact congrArg (he (ix2 e k) * ·) (broadcastTo_1b_ab_apply p _ e k)

/-- The projected node features ∑ₖ Hv(a, k) · W(k, b). -/
theorem pay2_eq (hv : Vec Ideal S1024x128 .f32) (w : Vec Ideal S128x64 .f32) (a : Fin 1024) (b : Fin 64) :
    k0_pay2 (F := Ideal) hv w (ix2 a b) = lin (mat hv) (mat w) a b := by
  unfold k0_pay2
  refine (congrFun (shapeCast_self _ _) _).trans ?_
  have hD : dot_S1024x128_S128x64_S1024x64_1_0_0_1_n_n = DotDims.plain 1024 128 64 :=
    Cert.Lib.Rowwise.eq_plain _ rfl rfl rfl rfl rfl rfl
  rw [hD]
  exact Cert.Lib.Rowwise.plain_matmul_zero_apply none hv w a b

/-- The output block of grid point i: row r of the block is global row 256·i + r. -/
theorem pay3_eq (i : grid0.Coords) (tblk : Vec Ideal S256x2048 .f32) (d : Vec Ideal S1x2048 .f32) (tfull : Vec Ideal S1024x2048 .f32)
    (adj : Vec Ideal S256x1024 .f32) (hw : Vec Ideal S1024x64 .f32) (b : Vec Ideal S1x64 .f32) (r : Fin 256) (j : Fin 64) :
    k0_pay3 (F := Ideal) i tblk d tfull adj hw b (ix2 r j)
      = relu ((∑ c : Fin 1024, ((if (i 0).val * 256 + r.val = c.val then (1 : EReal)
            else ∑ e : Fin 2048, (tblk (ix2 r e) * d (ix2 0 e)) * tfull (ix2 c e)) * adj (ix2 r c)) * hw (ix2 c j)) + b (ix2 0 j)) := by
  unfold k0_pay3 relu
  refine (maximumf_apply _ _ _).trans ?_
  refine congrArg₂ max ?_ Ideal.ofBits_zero_f32
  refine (addf_apply _ _ _).trans ?_
  refine congrArg₂ (· + ·) ?_ ?_
  · refine (mm2_apply _ _ r j).trans ?_
    refine Finset.sum_congr rfl fun c _ => ?_
    refine congrArg (· * hw (ix2 c j)) ?_
    refine (mulf_apply _ _ _).trans ?_
    refine congrArg (· * adj (ix2 r c)) ?_
    refine (select_apply _ _ _ _).trans ?_
    refine select_of_eq (diag_apply i r c) (IdealRules.sign_bit.ideal_onePat .f32) ?_
    refine (mm1_apply _ _ r c).trans ?_
    refine Finset.sum_congr rfl fun e _ => ?_
    refine congrArg (· * tfull (ix2 c e)) ?_
    refine (mulf_apply _ _ _).trans ?_
    exact congrArg (tblk (ix2 r e) * ·) (broadcastTo_1b_ab_apply d _ r e)
  · refine (broadcastTo_1b_ab_apply _ _ r j).trans ?_
    exact congrFun (shapeCast_self _ _) _

end Cert.KernelIdeal.Pay0

end
-- ==== Proof.Val0.lean ====
/-
  What the first region leaves in its result array, at the extended reals: entry (r, j) is relu of the node layer's
  pre-activation on the arrays the region was entered from. Block t of the result is what grid point t stored, and its row
  r is global row 256·t + r.
-/
import proofs.«147858_g78709570666604_cont_9to1_m_429_2_alg».proof.Proof.Reg0
import proofs.«147858_g78709570666604_cont_9to1_m_429_2_alg».proof.Proof.Pay0
import proofs.«147858_g78709570666604_cont_9to1_m_429_2_alg».proof.Proof.Spec
import proofs.«147858_g78709570666604_cont_9to1_m_429_2_alg».proof.Proof.LibRowwise
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val0

open Idealize.ShloMosaic Idealize.ShloMosaic.TcCoe Idealize.ShloMosaic.ValueIdx
open Cert.KernelIdeal Cert.KernelIdeal.Gen Cert.KernelIdeal.Hand Cert.Gcn

variable (V : (c : Dev nD) → (b : Ref sig .tc) → Buf (Elt Ideal) ((c : Thread nD τ).loc b))

/-! ## The windows' block indices at each grid point -/

/-- The row-blocked windows (the block of T, the block of the adjacency, the result) sit at block (t, 0); every other
    window is its whole array, block (0, 0); and the grid coordinate of point t is t. -/
theorem idx_facts : ∀ t : Fin cfg0.N,
    (win0_8.index t (0 : Fin 2) = t.val ∧ win0_8.index t (1 : Fin 2) = 0)
    ∧ (win0_0.index t (0 : Fin 2) = t.val ∧ win0_0.index t (1 : Fin 2) = 0)
    ∧ (win0_2.index t (0 : Fin 2) = t.val ∧ win0_2.index t (1 : Fin 2) = 0)
    ∧ (win0_1.index t (0 : Fin 2) = 0 ∧ win0_1.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (grid0.coords t (0 : Fin 1)).val = t.val :=
  (by decide +kernel : ∀ t : Fin grid0.N, _)

/-! ## The windows' blocks read at an index -/

/-- Row r of the block of T at point t is row 256·t + r of T. -/
theorem tblk_apply (c : Dev nD) (t : Fin cfg0.N) (r : Fin 256) (e : Fin 2048) (k : Fin 1024) (hk : k.val = 256 * t.val + r.val) :
    (iblk0 V c 0 t : Vec Ideal S256x2048 .f32) (ix2 r e) = (V c main_arg4 : S1024x2048.Idx → EReal) (ix2 k e) := by
  obtain ⟨-, ⟨e0, e1⟩, -⟩ := idx_facts t
  unfold iblk0
  rw [View.read_apply]
  show V c main_arg4 _ = V c main_arg4 _
  refine congrArg (V c main_arg4) (funext fun a => Fin.ext ?_)
  match a with
  | ⟨0, _⟩ => show win0_0.index t (0 : Fin 2) * 256 + 1 * r.val = k.val; rw [e0, hk]; omega
  | ⟨1, _⟩ => show win0_0.index t (1 : Fin 2) * 2048 + 1 * e.val = e.val; rw [e1]; omega

/-- Row r of the block of the adjacency at point t is row 256·t + r of the adjacency. -/
theorem adjblk_apply (c : Dev nD) (t : Fin cfg0.N) (r : Fin 256) (q : Fin 1024) (k : Fin 1024) (hk : k.val = 256 * t.val + r.val) :
    (iblk0 V c 2 t : Vec Ideal S256x1024 .f32) (ix2 r q) = (V c main_arg3 : S1024x1024.Idx → EReal) (ix2 k q) := by
  obtain ⟨-, -, ⟨e0, e1⟩, -⟩ := idx_facts t
  unfold iblk0
  rw [View.read_apply]
  show V c main_arg3 _ = V c main_arg3 _
  refine congrArg (V c main_arg3) (funext fun a => Fin.ext ?_)
  match a with
  | ⟨0, _⟩ => show win0_2.index t (0 : Fin 2) * 256 + 1 * r.val = k.val; rw [e0, hk]; omega
  | ⟨1, _⟩ => show win0_2.index t (1 : Fin 2) * 1024 + 1 * q.val = q.val; rw [e1]; omega

/-- The window on all of T is T. -/
theorem tfull_whole (c : Dev nD) (t : Fin cfg0.N) :
    (iblk0 V c 1 t : Vec Ideal S1024x2048 .f32) = (V c main_arg4 : S1024x2048.Idx → EReal) := by
  obtain ⟨-, -, -, ⟨e0, e1⟩, -⟩ := idx_facts t
  funext y
  unfold iblk0
  rw [View.read_apply]
  show V c main_arg4 _ = V c main_arg4 y
  refine congrArg (V c main_arg4) (funext fun a => Fin.ext ?_)
  match a with
  | ⟨0, _⟩ => show win0_1.index t (0 : Fin 2) * 1024 + 1 * (y 0).val = (y 0).val; rw [e0]; omega
  | ⟨1, _⟩ => show win0_1.index t (1 : Fin 2) * 2048 + 1 * (y 1).val = (y 1).val; rw [e1]; omega

/-- The window on the node features is the array. -/
theorem hv_whole (c : Dev nD) (t : Fin cfg0.N) :
    (iblk0 V c 3 t : Vec Ideal S1024x128 .f32) = (V c main_arg0 : S1024x128.Idx → EReal) := by
  obtain ⟨-, -, -, -, ⟨e0, e1⟩, -⟩ := idx_facts t
  funext y
  unfold iblk0
  rw [View.read_apply]
  show V c main_arg0 _ = V c main_arg0 y
  refine congrArg (V c main_arg0) (funext fun a => Fin.ext ?_)
  match a with
  | ⟨0, _⟩ => show win0_3.index t (0 : Fin 2) * 1024 + 1 * (y 0).val = (y 0).val; rw [e0]; omega
  | ⟨1, _⟩ => show win0_3.index t (1 : Fin 2) * 128 + 1 * (y 1).val = (y 1).val; rw [e1]; omega

/-- The window on the edge features is the array. -/
theorem he_whole (c : Dev nD) (t : Fin cfg0.N) :
    (iblk0 V c 4 t : Vec Ideal S2048x16 .f32) = (V c main_arg1 : S2048x16.Idx → EReal) := by
  obtain ⟨-, -, -, -, -, ⟨e0, e1⟩, -⟩ := idx_facts t
  funext y
  unfold iblk0
  rw [View.read_apply]
  show V c main_arg1 _ = V c main_arg1 y
  refine congrArg (V c main_arg1) (funext fun a => Fin.ext ?_)
  match a with
  | ⟨0, _⟩ => show win0_4.index t (0 : Fin 2) * 2048 + 1 * (y 0).val = (y 0).val; rw [e0]; omega
  | ⟨1, _⟩ => show win0_4.index t (1 : Fin 2) * 16 + 1 * (y 1).val = (y 1).val; rw [e1]; omega

/-- The window on the weights is the array. -/
theorem w_whole (c : Dev nD) (t : Fin cfg0.N) :
    (iblk0 V c 5 t : Vec Ideal S128x64 .f32) = (V c main_arg5 : S128x64.Idx → EReal) := by
  obtain ⟨-, -, -, -, -, -, ⟨e0, e1⟩, -⟩ := idx_facts t
  funext y
  unfold iblk0
  rw [View.read_apply]
  show V c main_arg5 _ = V c main_arg5 y
  refine congrArg (V c main_arg5) (funext fun a => Fin.ext ?_)
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

/-- The window on the edge projection is the array. -/
theorem p_whole (c : Dev nD) (t : Fin cfg0.N) :
    (iblk0 V c 6 t : Vec Ideal S1x16 .f32) = (V c main_arg6 : S1x16.Idx → EReal) := by
  obtain ⟨-, -, -, -, -, -, -, ⟨e0, e1⟩, -⟩ := idx_facts t
  funext y
  unfold iblk0
  rw [View.read_apply]
  show V c main_arg6 _ = V c main_arg6 y
  refine congrArg (V c main_arg6) (funext fun a => Fin.ext ?_)
  match a with
  | ⟨0, _⟩ => show win0_6.index t (0 : Fin 2) * 1 + 1 * (y 0).val = (y 0).val; rw [e0]; omega
  | ⟨1, _⟩ => show win0_6.index t (1 : Fin 2) * 16 + 1 * (y 1).val = (y 1).val; rw [e1]; omega

/-- The window on the bias is the array. -/
theorem b_whole (c : Dev nD) (t : Fin cfg0.N) :
    (iblk0 V c 7 t : Vec Ideal S1x64 .f32) = (V c main_v0 : S1x64.Idx → EReal) := by
  obtain ⟨-, -, -, -, -, -, -, -, ⟨e0, e1⟩, -⟩ := idx_facts t
  funext y
  unfold iblk0
  rw [View.read_apply]
  show V c main_v0 _ = V c main_v0 y
  refine congrArg (V c main_v0) (funext fun a => Fin.ext ?_)
  match a with
  | ⟨0, _⟩ => show win0_7.index t (0 : Fin 2) * 1 + 1 * (y 0).val = (y 0).val; rw [e0]; omega
  | ⟨1, _⟩ => show win0_7.index t (1 : Fin 2) * 64 + 1 * (y 1).val = (y 1).val; rw [e1]; omega

/-! ## What a grid point stores, and the result array -/

/-- The result as one function of the arrays the region was entered from: relu of the node layer's pre-activation. -/
def G (c : Dev nD) : S1024x64.Idx → EReal := fun i =>
  relu (nodePre (mat (V c main_arg4)) (mat (V c main_arg3)) (mat (V c main_arg0)) (mat (V c main_arg1)) (mat (V c main_arg5))
      (row (V c main_arg6)) (row (V c main_v0)) (i 0) (i 1))

/-- Row r of the block point t stores is row k = 256·t + r of the layer: the diagonal test at the block row is the test
    at the global row, the block rows of T and of the adjacency are their global rows, and the scratch holds the edge
    weights and the projected features of the whole arrays. -/
theorem out0_apply (c : Dev nD) (t : Fin cfg0.N) (r : Fin 256) (j : Fin 64) (k : Fin 1024) (hk : k.val = 256 * t.val + r.val) :
    out0 (F := Ideal) V c t (ix2 r j)
      = relu (nodePre (mat (V c main_arg4)) (mat (V c main_arg3)) (mat (V c main_arg0)) (mat (V c main_arg1)) (mat (V c main_arg5))
          (row (V c main_arg6)) (row (V c main_v0)) k j) := by
  obtain ⟨-, -, -, -, -, -, -, -, -, hg⟩ := idx_facts t
  unfold out0
  refine (Pay0.pay3_eq _ _ _ _ _ _ _ r j).trans ?_
  unfold nodePre layer amat multN
  refine congrArg relu ?_
  refine congrArg₂ (· + ·) (Finset.sum_congr rfl fun q _ => ?_) (congrFun (b_whole V c t) (ix2 0 j))
  refine congrArg₂ (· * ·) (congrArg₂ (· * ·) ?_ (adjblk_apply V c t r q k hk)) ?_
  · refine if_congr ?_ rfl (Finset.sum_congr rfl fun e _ => ?_)
    · rw [hg, hk]; omega
    · refine congrArg₂ (· * ·) (congrArg₂ (· * ·) (tblk_apply V c t r e k hk) ?_) (congrFun (tfull_whole V c t) (ix2 q e))
      unfold dS0
      rw [he_whole, p_whole]
      exact Pay0.pay1_eq _ _ e
  · unfold wS0
    rw [hv_whole, w_whole]
    exact Pay0.pay2_eq _ _ q j

/-- What point t writes back is block t of G: entry (r, j) of the block sits at (256·t + r, j) of the array. -/
theorem flushed_eq (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  obtain ⟨⟨e0, e1⟩, -⟩ := idx_facts t
  have hN : cfg0.N = 4 := N_0
  have ht := t.isLt
  funext y
  rw [View.read_apply]
  have hy0 : (y 0).val < 256 := (y 0).isLt
  have hy1 : (y 1).val < 64 := (y 1).isLt
  have hx : (cfg0.win 8).xinj (grid0.coords t) y = ix2 (⟨(y 0).val, hy0⟩ : Fin 256) (⟨(y 1).val, hy1⟩ : Fin 64) :=
    funext fun a => Fin.ext (by match a with | ⟨0, _⟩ => rfl | ⟨1, _⟩ => rfl)
  have hk : ((cfg0.win 8).blk t).view.emb y
      = ix2 (⟨256 * t.val + (y 0).val, by omega⟩ : Fin 1024) (⟨(y 1).val, hy1⟩ : Fin 64) :=
    funext fun a => Fin.ext (by
      match a with
      | ⟨0, _⟩ => show win0_8.index t (0 : Fin 2) * 256 + 1 * (y 0).val = 256 * t.val + (y 0).val; rw [e0]; omega
      | ⟨1, _⟩ => show win0_8.index t (1 : Fin 2) * 64 + 1 * (y 1).val = (y 1).val; rw [e1]; omega)
  show out0 V c t ((cfg0.win 8).xinj (grid0.coords t) y) = G V c (((cfg0.win 8).blk t).view.emb y)
  rw [hx, hk]
  exact out0_apply V c t ⟨(y 0).val, hy0⟩ ⟨(y 1).val, hy1⟩ ⟨256 * t.val + (y 0).val, by omega⟩ rfl

/-- An index of the result array is in point t's block iff each coordinate is in the block's range on its axis. -/
theorem mem_blk (t : Fin cfg0.N) (i : S1024x64.Idx) :
    i ∈ ((cfg0.win 8).blk t).view.set
      ↔ ∀ a : Fin 2, win0_8.index t a * S256x64.size a ≤ (i a).val ∧ (i a).val < win0_8.index t a * S256x64.size a + S256x64.size a := by
  show i ∈ ((View.whole main_v3).slice (win0_8.rect t)).set ↔ _
  rw [View.set_slice_whole, Rect.mem_set_unit]
  exact Iff.rfl

/-- The blocks tile the array: row r is in the block of point r / 256. -/
theorem cover (i : S1024x64.Idx) : ∃ t : Fin cfg0.N, (cfg0.win 8).flush t = true ∧ i ∈ ((cfg0.win 8).blk t).view.set := by
  have hN : cfg0.N = 4 := N_0
  have hi0 : (i 0).val < 1024 := (i 0).isLt
  have hi1 : (i 1).val < 64 := (i 1).isLt
  have hlt : (i 0).val / 256 < cfg0.N := by omega
  obtain ⟨⟨e0, e1⟩, -⟩ := idx_facts ⟨(i 0).val / 256, hlt⟩
  refine ⟨⟨(i 0).val / 256, hlt⟩, flush0_8 _, ?_⟩
  rw [mem_blk]
  intro a
  match a with
  | ⟨0, _⟩ =>
    show win0_8.index ⟨(i 0).val / 256, hlt⟩ (0 : Fin 2) * 256 ≤ (i 0).val
      ∧ (i 0).val < win0_8.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_8.index ⟨(i 0).val / 256, hlt⟩ (1 : Fin 2) * 64 ≤ (i 1).val
      ∧ (i 1).val < win0_8.index ⟨(i 0).val / 256, hlt⟩ (1 : Fin 2) * 64 + 64
    rw [e1]
    omega

/-- The result array after all write-backs is G. -/
theorem final (c : Dev nD) : (dat0 V c).arrAt 8 cfg0.N = G V c :=
  (dat0 V c).arrAt_eq_of_cover 8 (G V c) (fun t _ => flushed_eq V c t) cover

theorem res0_eq (c : Dev nD) (r : Fin 1024) (j : Fin 64) :
    res0 (F := Ideal) V c (ix2 r j)
      = relu (nodePre (mat (V c main_arg4)) (mat (V c main_arg3)) (mat (V c main_arg0)) (mat (V c main_arg1)) (mat (V c main_arg5))
          (row (V c main_arg6)) (row (V c main_v0)) r j) := by
  show (dat0 V c).arrAt 8 cfg0.N (ix2 r j) = _
  rw [final]
  rfl

end Cert.KernelIdeal.Val0

end
-- ==== Proof.Pay1.lean ====
/-
  The edge layer's three stored values, read entry by entry at the extended reals.
-/
import proofs.«147858_g78709570666604_cont_9to1_m_429_2_alg».proof.Proof.Gen.KernelIdeal.Skeleton
import proofs.«147858_g78709570666604_cont_9to1_m_429_2_alg».proof.Proof.Spec
import proofs.«147858_g78709570666604_cont_9to1_m_429_2_alg».proof.Proof.LibRowwise
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay1

open Idealize.ShloMosaic Idealize.ShloMosaic.ValueIdx Cert.KernelIdeal Cert.KernelIdeal.Gen Cert.Gcn

/-- The node weights d(n) = ∑ₖ Hv(n, k) · p(k), stored as a column. -/
theorem pay1_eq (hv : Vec Ideal S1024x64 .f32) (p : Vec Ideal S1x64 .f32) (n : Fin 1024) :
    k1_pay1 (F := Ideal) hv p (ix2 n 0) = dvec (mat hv) (row p) n := by
  unfold k1_pay1
  rw [shapeCast_self, shapeCast_self]
  refine (Cert.Lib.Rowwise.column_apply _ shapeCasts_S1024_S1024x1 n 0).trans ?_
  refine (Cert.Lib.Rowwise.laneSum_apply _ _ reduces_S1024x64_S1024 (.inl rfl) rfl n).trans ?_
  refine Finset.sum_congr rfl fun k _ => ?_
  rw [mulf_apply]
  exact congrArg (hv (ix2 n k) * ·) (broadcastTo_1b_ab_apply p broadcasts_S1x64_S1024x64 n k)

/-- The projected edge features ∑ₖ relu(He(e, k)) · W(k, j). -/
theorem pay2_eq (he : Vec Ideal S2048x16 .f32) (w : Vec Ideal S16x16 .f32) (e : Fin 2048) (j : Fin 16) :
    k1_pay2 (F := Ideal) he w (ix2 e j) = lin (fun e k => relu (mat he e k)) (mat w) e j := by
  unfold k1_pay2
  rw [shapeCast_self]
  have hD : dot_S2048x16_S16x16_S2048x16_1_0_0_1_n_n = DotDims.plain 2048 16 16 :=
    Cert.Lib.Rowwise.eq_plain _ rfl rfl rfl rfl rfl rfl
  rw [hD]
  refine (Cert.Lib.Rowwise.plain_matmul_zero_apply none _ w e j).trans ?_
  refine Finset.sum_congr rfl fun k _ => ?_
  rw [maximumf_apply, broadcast_apply]
  show max (he (ix2 e k)) (Ideal.ofBits .f32 0x00000000#32) * w (ix2 k j) = _
  rw [Ideal.ofBits_zero_f32]
  rfl

/-! ## The product that contracts the first axis of both operands -/

theorem dot00_lhs_0 (j : S256x2048.Idx) (q : dot_S1024x256_S1024x2048_S256x2048_0_0_1_1_n_n.contr.Idx) :
    (dot_S1024x256_S1024x2048_S256x2048_0_0_1_1_n_n.lhsIdx j q 0).val = (q ⟨0, by decide⟩).val :=
  dot_S1024x256_S1024x2048_S256x2048_0_0_1_1_n_n.lhsIdx_val_of_single rfl j q
theorem dot00_lhs_1 (j : S256x2048.Idx) (q : dot_S1024x256_S1024x2048_S256x2048_0_0_1_1_n_n.contr.Idx) :
    (dot_S1024x256_S1024x2048_S256x2048_0_0_1_1_n_n.lhsIdx j q 1).val = (j 0).val := by
  unfold DotDims.lhsIdx
  rw [dif_neg (show ¬(1 : Fin S1024x256.rank) ∈ dot_S1024x256_S1024x2048_S256x2048_0_0_1_1_n_n.lhsBatch by decide), dif_pos (show (1 : Fin S1024x256.rank) ∈ dot_S1024x256_S1024x2048_S256x2048_0_0_1_1_n_n.lhsNonContracting by decide)]
  rfl
theorem dot00_rhs_0 (j : S256x2048.Idx) (q : dot_S1024x256_S1024x2048_S256x2048_0_0_1_1_n_n.contr.Idx) :
    (dot_S1024x256_S1024x2048_S256x2048_0_0_1_1_n_n.rhsIdx j q 0).val = (q ⟨0, by decide⟩).val :=
  dot_S1024x256_S1024x2048_S256x2048_0_0_1_1_n_n.rhsIdx_val_of_single rfl j q
theorem dot00_rhs_1 (j : S256x2048.Idx) (q : dot_S1024x256_S1024x2048_S256x2048_0_0_1_1_n_n.contr.Idx) :
    (dot_S1024x256_S1024x2048_S256x2048_0_0_1_1_n_n.rhsIdx j q 1).val = (j 1).val := by
  unfold DotDims.rhsIdx
  rw [dif_neg (show ¬(1 : Fin S1024x2048.rank) ∈ dot_S1024x256_S1024x2048_S256x2048_0_0_1_1_n_n.rhsBatch by decide), dif_pos (show (1 : Fin S1024x2048.rank) ∈ dot_S1024x256_S1024x2048_S256x2048_0_0_1_1_n_n.rhsNonContracting by decide)]
  rfl

/-- The product xᵀ · y into the zero word, read at (p, q): ∑ₙ x(n, p) · y(n, q). -/
theorem matmul00_zero_apply (x : FVec Ideal S1024x256 .f32) (y : FVec Ideal S1024x2048 .f32) (p : Fin 256) (q : Fin 2048) :
    FloatOps.matmul dot_S1024x256_S1024x2048_S256x2048_0_0_1_1_n_n none x y (constant S256x2048 .f32 0x00000000#32) (ix2 p q)
      = ∑ n : Fin 1024, x (ix2 n p) * y (ix2 n q) := by
  rw [Ideal.matmul_constant_zero_apply, ← Equiv.sum_comp (contrEquiv1 dot_S1024x256_S1024x2048_S256x2048_0_0_1_1_n_n 1024 rfl rfl).symm]
  refine Finset.sum_congr rfl fun n _ => ?_
  have hk := contrEquiv1_symm_val dot_S1024x256_S1024x2048_S256x2048_0_0_1_1_n_n 1024 rfl rfl n
  have el : dot_S1024x256_S1024x2048_S256x2048_0_0_1_1_n_n.lhsIdx (ix2 p q) ((contrEquiv1 dot_S1024x256_S1024x2048_S256x2048_0_0_1_1_n_n 1024 rfl rfl).symm n) = ix2 n p :=
    funext fun a => Fin.ext (by
      match a with
      | ⟨0, _⟩ => exact (dot00_lhs_0 _ _).trans hk
      | ⟨1, _⟩ => exact dot00_lhs_1 _ _)
  have er : dot_S1024x256_S1024x2048_S256x2048_0_0_1_1_n_n.rhsIdx (ix2 p q) ((contrEquiv1 dot_S1024x256_S1024x2048_S256x2048_0_0_1_1_n_n 1024 rfl rfl).symm n) = ix2 n q :=
    funext fun a => Fin.ext (by
      match a with
      | ⟨0, _⟩ => exact (dot00_rhs_0 _ _).trans hk
      | ⟨1, _⟩ => exact dot00_rhs_1 _ _)
  rw [el, er]

/-! ## The diagonal test -/

/-- For g < 8, r < 256 and c < 2048 the 32-bit words of 256·g + r and of c agree exactly when the numbers do. -/
theorem diag_word_iff (g r c : Nat) (hg : g < 8) (hr : r < 256) (hc : c < 2048) :
    BitVec.ofNat 32 g * 256#32 + BitVec.ofNat 32 r = BitVec.ofNat 32 c ↔ g * 256 + r = c := by
  rw [← BitVec.toNat_inj]
  simp only [BitVec.toNat_add, BitVec.toNat_mul, BitVec.toNat_ofNat, Nat.reducePow, Nat.reduceMod]
  omega

/-- A select on the equality test of two words is the `if` on their equality. -/
theorem select_cmpi_eq {α : Type} {w : Nat} (x y : BitVec w) (A B : α) :
    Scalar.select (IntOp.cmpi .eq x y) A B = if x = y then A else B := by
  show (if BitVec.ofBool (x == y) = 1#1 then A else B) = _
  by_cases h : x = y
  · rw [if_pos h, beq_iff_eq.mpr h]
    exact if_pos (by decide)
  · rw [if_neg h, beq_eq_false_iff_ne.mpr h]
    exact if_neg (by decide)

/-- The select on the diagonal test is the `if` on the numbers. -/
theorem select_diag {α : Type} (g r c : Nat) (hg : g < 8) (hr : r < 256) (hc : c < 2048) (A B : α) :
    Scalar.select (IntOp.cmpi .eq (IntOp.addi (Scalar.muli (BitVec.ofNat 32 g) 256#32) (BitVec.ofNat 32 r)) (BitVec.ofNat 32 c)) A B
      = if g * 256 + r = c then A else B := by
  rw [select_cmpi_eq]
  unfold IntOp.addi Scalar.muli IntOp.muli
  exact if_congr (diag_word_iff g r c hg hr hc) rfl rfl

/-! ## The masked product, the bias and the rectifier -/

/-- The one word is the extended real 1. -/
theorem ofBits_one_f32 : Ideal.ofBits .f32 0x3F800000#32 = 1 := IdealRules.sign_bit.ideal_onePat .f32

/-- The block's entry (a, c) before the adjacency: 1 on the global diagonal 256·g + a = c, the product's entry off it. -/
theorem masked_apply (g : Nat) (hg : g < 8) (Y adj : FVec Ideal S256x2048 .f32) (a : Fin 256) (c : Fin 2048) :
    mulf (select (cmpi .eq (addi (broadcast S256x2048 (Scalar.muli (BitVec.ofNat 32 g) 256#32)) (iota .tc S256x2048 32 [0] iota_S256x2048_d0_w32))
            (iota .tc S256x2048 32 [1] iota_S256x2048_d1_w32))
          (broadcast S256x2048 (Scalar.ofBits (F := Ideal) .f32 0x3F800000#32)) Y) adj (ix2 a c)
      = (if g * 256 + a.val = c.val then (1 : EReal) else Y (ix2 a c)) * adj (ix2 a c) := by
  rw [mulf_apply, select_apply]
  refine congrArg (· * adj (ix2 a c)) ?_
  show Scalar.select (IntOp.cmpi .eq (IntOp.addi (Scalar.muli (BitVec.ofNat 32 g) 256#32)
      (iota .tc S256x2048 32 [0] iota_S256x2048_d0_w32 (ix2 a c))) (iota .tc S256x2048 32 [1] iota_S256x2048_d1_w32 (ix2 a c)))
      (Ideal.ofBits .f32 0x3F800000#32) (Y (ix2 a c)) = _
  rw [iota_single_apply, iota_single_apply, ofBits_one_f32]
  exact select_diag g a.val c.val hg a.isLt c.isLt 1 (Y (ix2 a c))

/-- The second product with the bias row added, rectified, at (a, j). -/
theorem tail_apply (X : FVec Ideal S256x2048 .f32) (hw : FVec Ideal S2048x16 .f32) (b : FVec Ideal S1x16 .f32) (a : Fin 256) (j : Fin 16) :
    maximumf (addf (matmul dot_S256x2048_S2048x16_S256x16_1_0_0_1_n_n none X hw (constant S256x16 .f32 0x00000000#32))
        (broadcastTo S256x16 (shapeCast S1x16 b shapeCasts_S1x16_S1x16) broadcasts_S1x16_S256x16))
      (broadcast S256x16 (Scalar.ofBits (F := Ideal) .f32 0x00000000#32)) (ix2 a j)
      = relu ((∑ c : Fin 2048, X (ix2 a c) * hw (ix2 c j)) + b (ix2 0 j)) := by
  have hD : dot_S256x2048_S2048x16_S256x16_1_0_0_1_n_n = DotDims.plain 256 2048 16 :=
    Cert.Lib.Rowwise.eq_plain _ rfl rfl rfl rfl rfl rfl
  rw [maximumf_apply, broadcast_apply, addf_apply, shapeCast_self, broadcastTo_1b_ab_apply, hD]
  show max (_ + b (ix2 0 j)) (Ideal.ofBits .f32 0x00000000#32) = _
  rw [Ideal.ofBits_zero_f32]
  exact congrArg (fun t => max (t + b (ix2 0 j)) 0) (Cert.Lib.Rowwise.plain_matmul_zero_apply none X hw a j)

/-- The output block of grid point i: row a of the block is global edge 256·i + a. -/
theorem pay3_eq (i : grid1.Coords) (tcols : Vec Ideal S1024x256 .f32) (d : Vec Ideal S1024x1 .f32) (tfull : Vec Ideal S1024x2048 .f32)
    (adj : Vec Ideal S256x2048 .f32) (hw : Vec Ideal S2048x16 .f32) (b : Vec Ideal S1x16 .f32) (a : Fin 256) (j : Fin 16) :
    k1_pay3 (F := Ideal) i tcols d tfull adj hw b (ix2 a j)
      = relu ((∑ c : Fin 2048, ((if (i 0).val * 256 + a.val = c.val then (1 : EReal)
            else ∑ n : Fin 1024, (tcols (ix2 n a) * d (ix2 n 0)) * tfull (ix2 n c)) * adj (ix2 a c)) * hw (ix2 c j)) + b (ix2 0 j)) := by
  have hg : (i 0).val < 8 := (i 0).isLt
  unfold k1_pay3
  refine (tail_apply _ hw b a j).trans ?_
  refine congrArg (fun t => relu (t + b (ix2 0 j))) (Finset.sum_congr rfl fun c _ => congrArg (· * hw (ix2 c j)) ?_)
  refine (masked_apply (i 0).val hg _ adj a c).trans ?_
  refine congrArg (fun t => (if (i 0).val * 256 + a.val = c.val then (1 : EReal) else t) * adj (ix2 a c)) ?_
  refine (matmul00_zero_apply _ tfull a c).trans ?_
  refine Finset.sum_congr rfl fun n _ => congrArg (· * tfull (ix2 n c)) ?_
  rw [mulf_apply]
  exact congrArg (tcols (ix2 n a) * ·) (Cert.Lib.Rowwise.columnBroadcast_apply d broadcasts_S1024x1_S1024x256 (by decide) n a)

end Cert.KernelIdeal.Pay1

end
-- ==== Proof.Val1.lean ====
/-
  What the second region leaves in its result array, at the extended reals: entry (a, j) is relu of the edge layer's
  pre-activation on the arrays the region was entered from (the edge features enter through relu). Block t of the result
  is what grid point t stored, and its row a is global edge 256·t + a.
-/
import proofs.«147858_g78709570666604_cont_9to1_m_429_2_alg».proof.Proof.Reg1
import proofs.«147858_g78709570666604_cont_9to1_m_429_2_alg».proof.Proof.Pay1
import proofs.«147858_g78709570666604_cont_9to1_m_429_2_alg».proof.Proof.Spec
import proofs.«147858_g78709570666604_cont_9to1_m_429_2_alg».proof.Proof.LibRowwise
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val1

open Idealize.ShloMosaic Idealize.ShloMosaic.TcCoe Idealize.ShloMosaic.ValueIdx
open Cert.KernelIdeal Cert.KernelIdeal.Gen Cert.KernelIdeal.Hand Cert.Gcn

variable (V : (c : Dev nD) → (b : Ref sig .tc) → Buf (Elt Ideal) ((c : Thread nD τ).loc b))

/-- The right-hand side as a function of the two coordinates. -/
def edgeOut (c : Dev nD) (a : Fin 2048) (j : Fin 16) : EReal :=
  relu (edgePre (mat (V c main_arg4)) (mat (V c main_arg2)) (mat (V c main_v3)) (fun e k => relu (mat (V c main_arg1) e k))
          (mat (V c main_arg8)) (row (V c main_arg9)) (row (V c main_v1)) a j)

/-- … and of the array's index. -/
def edgeOutArr (c : Dev nD) : S2048x16.Idx → EReal := fun i => edgeOut V c (i 0) (i 1)

/-- The block indices over the grid: the column block of T and the row blocks of the adjacency and of the result move with the
    point, every other window stays at block (0, 0); the point's one coordinate is its number. -/
theorem block_indices : ∀ t : Fin cfg1.N,
    (win1_0.index t (0 : Fin 2) = 0 ∧ win1_0.index t (1 : Fin 2) = t.val)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (grid1.coords t 0).val = t.val ∧ t.val < 8 :=
  (by decide +kernel : ∀ t : Fin grid1.N, _)

/-! ## The windows' blocks at their literal types -/

/-- Point t's column block of T. -/
abbrev tcolsB (c : Dev nD) (t : Fin cfg1.N) : Vec Ideal S1024x256 .f32 := iblk1 V c 0 t
/-- All of T. -/
abbrev tfullB (c : Dev nD) (t : Fin cfg1.N) : Vec Ideal S1024x2048 .f32 := iblk1 V c 1 t
/-- Point t's row block of the adjacency. -/
abbrev adjB (c : Dev nD) (t : Fin cfg1.N) : Vec Ideal S256x2048 .f32 := iblk1 V c 2 t
/-- The node features. -/
abbrev hvB (c : Dev nD) (t : Fin cfg1.N) : Vec Ideal S1024x64 .f32 := iblk1 V c 3 t
/-- The edge features. -/
abbrev heB (c : Dev nD) (t : Fin cfg1.N) : Vec Ideal S2048x16 .f32 := iblk1 V c 4 t
/-- The weights. -/
abbrev wB (c : Dev nD) (t : Fin cfg1.N) : Vec Ideal S16x16 .f32 := iblk1 V c 5 t
/-- The projection vector. -/
abbrev pB (c : Dev nD) (t : Fin cfg1.N) : Vec Ideal S1x64 .f32 := iblk1 V c 6 t
/-- The bias. -/
abbrev bB (c : Dev nD) (t : Fin cfg1.N) : Vec Ideal S1x16 .f32 := iblk1 V c 7 t

/-! ## Each window's block, read where it sits in its array -/

/-- Column a' = 256·t + r of T is column r of point t's column block. -/
theorem tcols_apply (c : Dev nD) (t : Fin cfg1.N) (n : Fin 1024) (r : Fin 256) (a : Fin 2048) (ha : a.val = 256 * t.val + r.val) :
    tcolsB V c t (ix2 n r) = mat (V c main_arg4) n a := by
  obtain ⟨⟨e0, e1⟩, -⟩ := block_indices t
  show iblk1 V c _ t _ = _
  unfold iblk1
  rw [View.read_apply]
  show V c main_arg4 (((cfg1.win 0).blk t).view.emb (ix2 n r)) = V c main_arg4 (ix2 n a)
  refine congrArg (V c main_arg4) (funext fun x => Fin.ext ?_)
  match x with
  | ⟨0, _⟩ => show win1_0.index t (0 : Fin 2) * 1024 + 1 * n.val = n.val; omega
  | ⟨1, _⟩ => show win1_0.index t (1 : Fin 2) * 256 + 1 * r.val = a.val; omega

/-- The second window on T holds all of it. -/
theorem tfull_apply (c : Dev nD) (t : Fin cfg1.N) (n : Fin 1024) (e : Fin 2048) :
    tfullB V c t (ix2 n e) = mat (V c main_arg4) n e := by
  obtain ⟨-, ⟨e0, e1⟩, -⟩ := block_indices t
  show iblk1 V c _ t _ = _
  unfold iblk1
  rw [View.read_apply]
  show V c main_arg4 (((cfg1.win 1).blk t).view.emb (ix2 n e)) = V c main_arg4 (ix2 n e)
  refine congrArg (V c main_arg4) (funext fun x => Fin.ext ?_)
  match x with
  | ⟨0, _⟩ => show win1_1.index t (0 : Fin 2) * 1024 + 1 * n.val = n.val; omega
  | ⟨1, _⟩ => show win1_1.index t (1 : Fin 2) * 2048 + 1 * e.val = e.val; omega

/-- Row a = 256·t + r of the adjacency is row r of point t's row block. -/
theorem adj_apply (c : Dev nD) (t : Fin cfg1.N) (r : Fin 256) (e : Fin 2048) (a : Fin 2048) (ha : a.val = 256 * t.val + r.val) :
    adjB V c t (ix2 r e) = mat (V c main_arg2) a e := by
  obtain ⟨-, -, ⟨e0, e1⟩, -⟩ := block_indices t
  show iblk1 V c _ t _ = _
  unfold iblk1
  rw [View.read_apply]
  show V c main_arg2 (((cfg1.win 2).blk t).view.emb (ix2 r e)) = V c main_arg2 (ix2 a e)
  refine congrArg (V c main_arg2) (funext fun x => Fin.ext ?_)
  match x with
  | ⟨0, _⟩ => show win1_2.index t (0 : Fin 2) * 256 + 1 * r.val = a.val; omega
  | ⟨1, _⟩ => show win1_2.index t (1 : Fin 2) * 2048 + 1 * e.val = e.val; omega

/-- The node features' window holds the whole array. -/
theorem hv_apply (c : Dev nD) (t : Fin cfg1.N) (n : Fin 1024) (k : Fin 64) :
    hvB V c t (ix2 n k) = mat (V c main_v3) n k := by
  obtain ⟨-, -, -, ⟨e0, e1⟩, -⟩ := block_indices t
  show iblk1 V c _ t _ = _
  unfold iblk1
  rw [View.read_apply]
  show V c main_v3 (((cfg1.win 3).blk t).view.emb (ix2 n k)) = V c main_v3 (ix2 n k)
  refine congrArg (V c main_v3) (funext fun x => Fin.ext ?_)
  match x with
  | ⟨0, _⟩ => show win1_3.index t (0 : Fin 2) * 1024 + 1 * n.val = n.val; omega
  | ⟨1, _⟩ => show win1_3.index t (1 : Fin 2) * 64 + 1 * k.val = k.val; omega

/-- The edge features' window holds the whole array. -/
theorem he_apply (c : Dev nD) (t : Fin cfg1.N) (e : Fin 2048) (k : Fin 16) :
    heB V c t (ix2 e k) = mat (V c main_arg1) e k := by
  obtain ⟨-, -, -, -, ⟨e0, e1⟩, -⟩ := block_indices t
  show iblk1 V c _ t _ = _
  unfold iblk1
  rw [View.read_apply]
  show V c main_arg1 (((cfg1.win 4).blk t).view.emb (ix2 e k)) = V c main_arg1 (ix2 e k)
  refine congrArg (V c main_arg1) (funext fun x => Fin.ext ?_)
  match x with
  | ⟨0, _⟩ => show win1_4.index t (0 : Fin 2) * 2048 + 1 * e.val = e.val; omega
  | ⟨1, _⟩ => show win1_4.index t (1 : Fin 2) * 16 + 1 * k.val = k.val; omega

/-- The weights' window holds the whole array. -/
theorem w_apply (c : Dev nD) (t : Fin cfg1.N) (k : Fin 16) (j : Fin 16) :
    wB V c t (ix2 k j) = mat (V c main_arg8) k j := by
  obtain ⟨-, -, -, -, -, ⟨e0, e1⟩, -⟩ := block_indices t
  show iblk1 V c _ t _ = _
  unfold iblk1
  rw [View.read_apply]
  show V c main_arg8 (((cfg1.win 5).blk t).view.emb (ix2 k j)) = V c main_arg8 (ix2 k j)
  refine congrArg (V c main_arg8) (funext fun x => Fin.ext ?_)
  match x with
  | ⟨0, _⟩ => show win1_5.index t (0 : Fin 2) * 16 + 1 * k.val = k.val; omega
  | ⟨1, _⟩ => show win1_5.index t (1 : Fin 2) * 16 + 1 * j.val = j.val; omega

/-- The projection vector's window holds the whole row. -/
theorem p_apply (c : Dev nD) (t : Fin cfg1.N) (u : Fin 1) (k : Fin 64) :
    pB V c t (ix2 u k) = row (V c main_arg9) k := by
  obtain ⟨-, -, -, -, -, -, ⟨e0, e1⟩, -⟩ := block_indices t
  have hu : u.val = 0 := by omega
  show iblk1 V c _ t _ = _
  unfold iblk1
  rw [View.read_apply]
  show V c main_arg9 (((cfg1.win 6).blk t).view.emb (ix2 u k)) = V c main_arg9 (ix2 0 k)
  refine congrArg (V c main_arg9) (funext fun x => Fin.ext ?_)
  match x with
  | ⟨0, _⟩ => show win1_6.index t (0 : Fin 2) * 1 + 1 * u.val = 0; omega
  | ⟨1, _⟩ => show win1_6.index t (1 : Fin 2) * 64 + 1 * k.val = k.val; omega

/-- The bias window holds the whole row. -/
theorem b_apply (c : Dev nD) (t : Fin cfg1.N) (u : Fin 1) (j : Fin 16) :
    bB V c t (ix2 u j) = row (V c main_v1) j := by
  obtain ⟨-, -, -, -, -, -, -, ⟨e0, e1⟩, -⟩ := block_indices t
  have hu : u.val = 0 := by omega
  show iblk1 V c _ t _ = _
  unfold iblk1
  rw [View.read_apply]
  show V c main_v1 (((cfg1.win 7).blk t).view.emb (ix2 u j)) = V c main_v1 (ix2 0 j)
  refine congrArg (V c main_v1) (funext fun x => Fin.ext ?_)
  match x with
  | ⟨0, _⟩ => show win1_7.index t (0 : Fin 2) * 1 + 1 * u.val = 0; omega
  | ⟨1, _⟩ => show win1_7.index t (1 : Fin 2) * 16 + 1 * j.val = j.val; omega

/-! ## The two scratch values -/

/-- The node weights the first point leaves: d(n) = ∑ₖ Hv(n, k) · p(k). -/
theorem dS_apply (c : Dev nD) (n : Fin 1024) :
    dS1 (F := Ideal) V c (ix2 n 0) = dvec (mat (V c main_v3)) (row (V c main_arg9)) n := by
  unfold dS1
  refine (Pay1.pay1_eq (hvB V c t1_0) (pB V c t1_0) n).trans ?_
  unfold dvec
  refine Finset.sum_congr rfl fun k _ => ?_
  show hvB V c t1_0 (ix2 n k) * pB V c t1_0 (ix2 0 k) = _
  rw [hv_apply V c t1_0 n k, p_apply V c t1_0 0 k]

/-- The projected edge features the first point leaves: ∑ₖ relu(He(e, k)) · W(k, j). -/
theorem wS_apply (c : Dev nD) (e : Fin 2048) (j : Fin 16) :
    wS1 (F := Ideal) V c (ix2 e j) = lin (fun e k => relu (mat (V c main_arg1) e k)) (mat (V c main_arg8)) e j := by
  unfold wS1
  refine (Pay1.pay2_eq (heB V c t1_0) (wB V c t1_0) e j).trans ?_
  unfold lin
  refine Finset.sum_congr rfl fun k _ => ?_
  show relu (heB V c t1_0 (ix2 e k)) * wB V c t1_0 (ix2 k j) = _
  rw [he_apply V c t1_0 e k, w_apply V c t1_0 k j]

/-! ## What a point stores, and where -/

/-- Entry (r, j) of the block point t stores is the layer's value at the global edge a = 256·t + r. -/
theorem stored_entry (c : Dev nD) (t : Fin cfg1.N) (r : Fin 256) (j : Fin 16) (a : Fin 2048) (ha : a.val = 256 * t.val + r.val) :
    out1 (F := Ideal) V c t (ix2 r j) = edgeOut V c a j := by
  obtain ⟨-, -, -, -, -, -, -, -, -, hg, -⟩ := block_indices t
  unfold out1
  refine (Pay1.pay3_eq (grid1.coords t) (tcolsB V c t) (dS1 V c) (tfullB V c t) (adjB V c t) (wS1 V c) (bB V c t) r j).trans ?_
  unfold edgeOut edgePre layer amat multE
  refine congrArg relu ?_
  rw [b_apply V c t 0 j]
  refine congrArg (· + row (V c main_v1) j) (Finset.sum_congr rfl fun e _ => ?_)
  rw [wS_apply V c e j, adj_apply V c t r e a ha]
  refine congrArg (fun x => x * mat (V c main_arg2) a e * lin (fun e k => relu (mat (V c main_arg1) e k)) (mat (V c main_arg8)) e j) ?_
  refine if_congr (by rw [hg]; omega) rfl (Finset.sum_congr rfl fun n _ => ?_)
  rw [tcols_apply V c t n r a ha, dS_apply V c n, tfull_apply V c t n e]

/-- WHAT POINT t WRITES BACK is block t of the one whole-array function. -/
theorem block_written (c : Dev nD) (t : Fin cfg1.N) :
    (dat1 V c).flushed 8 t = ((cfg1.win 8).blk t).view.read (Elt Ideal) (edgeOutArr V c) := by
  obtain ⟨-, -, -, -, -, -, -, -, ⟨e0, e1⟩, -, ht⟩ := block_indices t
  show (cfg1.win 8).cut (grid1.coords t) ((dat1 V c).after 8 t) = _
  rw [after1_8]
  funext y
  obtain ⟨r, j, rfl⟩ : ∃ (r : Fin 256) (j : Fin 16), y = ix2 r j := ⟨y 0, y 1, eq_ix2 (n0 := 256) (n1 := 16) y⟩
  have hemb : ((cfg1.win 8).blk t).view.emb (ix2 r j) = ix2 (⟨256 * t.val + r.val, by omega⟩ : Fin 2048) j :=
    funext fun x => Fin.ext (by
      match x with
      | ⟨0, _⟩ => show win1_8.index t (0 : Fin 2) * 256 + 1 * r.val = 256 * t.val + r.val; omega
      | ⟨1, _⟩ => show win1_8.index t (1 : Fin 2) * 16 + 1 * j.val = j.val; omega)
  rw [View.read_apply, hemb]
  exact stored_entry V c t r j ⟨256 * t.val + r.val, by omega⟩ rfl

/-- An index of the result array is in point t's block iff each coordinate is in the block's range on its axis. -/
theorem mem_block_iff (t : Fin cfg1.N) (i : S2048x16.Idx) :
    i ∈ ((cfg1.win 8).blk t).view.set ↔ ∀ x : Fin 2, win1_8.index t x * S256x16.size x ≤ (i x).val ∧ (i x).val < win1_8.index t x * S256x16.size x + S256x16.size x := by
  show i ∈ ((View.whole main_v4).slice (win1_8.rect t)).set ↔ _
  rw [View.set_slice_whole, Rect.mem_set_unit]
  exact Iff.rfl

/-- Every entry of the result array is in the block of the point that owns its row: row a belongs to point a / 256. -/
theorem rows_covered (i : S2048x16.Idx) : ∃ t : Fin cfg1.N, (cfg1.win 8).flush t = true ∧ i ∈ ((cfg1.win 8).blk t).view.set := by
  have hi0 : (i 0).val < 2048 := (i 0).isLt
  have hi1 : (i 1).val < 16 := (i 1).isLt
  have hN : cfg1.N = 8 := N_1
  let t : Fin cfg1.N := ⟨(i 0).val / 256, by rw [hN]; omega⟩
  obtain ⟨-, -, -, -, -, -, -, -, ⟨e0, e1⟩, -⟩ := block_indices t
  have ht : t.val = (i 0).val / 256 := rfl
  refine ⟨t, flush1_8 t, ?_⟩
  rw [mem_block_iff]
  intro x
  match x with
  | ⟨0, _⟩ => show win1_8.index t (0 : Fin 2) * 256 ≤ (i 0).val ∧ (i 0).val < win1_8.index t (0 : Fin 2) * 256 + 256; omega
  | ⟨1, _⟩ => show win1_8.index t (1 : Fin 2) * 16 ≤ (i 1).val ∧ (i 1).val < win1_8.index t (1 : Fin 2) * 16 + 16; omega

/-- THE RESULT ARRAY after the region: the one function at every index. -/
theorem result_array (c : Dev nD) : (dat1 V c).arrAt 8 cfg1.N = edgeOutArr V c :=
  (dat1 V c).arrAt_eq_of_cover 8 (edgeOutArr V c) (fun t _ => block_written V c t) rows_covered

theorem res1_eq (c : Dev nD) (a : Fin 2048) (j : Fin 16) :
    res1 (F := Ideal) V c (ix2 a j)
      = relu (edgePre (mat (V c main_arg4)) (mat (V c main_arg2)) (mat (V c main_v3)) (fun e k => relu (mat (V c main_arg1) e k))
          (mat (V c main_arg8)) (row (V c main_arg9)) (row (V c main_v1)) a j) := by
  unfold res1
  rw [result_array V c]
  rfl

end Cert.KernelIdeal.Val1

end
-- ==== Proof.Pay2.lean ====
/-
  The last node layer's three stored values, read entry by entry at the extended reals.
-/
import proofs.«147858_g78709570666604_cont_9to1_m_429_2_alg».proof.Proof.Gen.KernelIdeal.Skeleton
import proofs.«147858_g78709570666604_cont_9to1_m_429_2_alg».proof.Proof.Spec
import proofs.«147858_g78709570666604_cont_9to1_m_429_2_alg».proof.Proof.LibRowwise
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay2

open Idealize.ShloMosaic Idealize.ShloMosaic.ValueIdx Cert.KernelIdeal Cert.KernelIdeal.Gen Cert.Gcn

theorem pay1_eq (he : Vec Ideal S2048x16 .f32) (p : Vec Ideal S1x16 .f32) (e : Fin 2048) :
    k2_pay1 (F := Ideal) he p (ix2 0 e) = dvec (mat he) (row p) e := by
  unfold k2_pay1
  rw [shapeCast_self]
  refine (shapeCast_a_1a_apply _ _ 0 e).trans ?_
  refine (Cert.Lib.Rowwise.laneSum_apply _ _ _ _ _ e).trans ?_
  refine Finset.sum_congr rfl fun k _ => ?_
  rw [mulf_apply, shapeCast_self, broadcastTo_1b_ab_apply]
  rfl

theorem pay2_eq (hv : Vec Ideal S1024x64 .f32) (w : Vec Ideal S64x16 .f32) (a : Fin 1024) (b : Fin 16) :
    k2_pay2 (F := Ideal) hv w (ix2 a b) = lin (mat hv) (mat w) a b := by
  unfold k2_pay2
  rw [shapeCast_self, shapeCast_self]
  have hD : dot_S1024x64_S64x16_S1024x16_1_0_0_1_n_n = DotDims.plain 1024 64 16 :=
    Cert.Lib.Rowwise.eq_plain _ rfl rfl rfl rfl rfl rfl
  rw [hD]
  exact Cert.Lib.Rowwise.plain_matmul_zero_apply none hv w a b

/-- The block's pre-activation: row r of the block is global row 256·i + r. -/
def pre3 (i : grid2.Coords) (tblk : Vec Ideal S256x2048 .f32) (d : Vec Ideal S1x2048 .f32) (tfull : Vec Ideal S1024x2048 .f32)
    (adj : Vec Ideal S256x1024 .f32) (hw : Vec Ideal S1024x16 .f32) (b : Vec Ideal S1x16 .f32) : Mat 256 16 :=
  fun r j => (∑ c : Fin 1024, ((if (i 0).val * 256 + r.val = c.val then (1 : EReal)
      else ∑ e : Fin 2048, (tblk (ix2 r e) * d (ix2 0 e)) * tfull (ix2 c e)) * adj (ix2 r c)) * hw (ix2 c j)) + b (ix2 0 j)

/-! ## The row-wise log-softmax tail -/

theorem negInf_word : Ideal.ofBits .f32 0xFF800000#32 = (⊥ : EReal) := by simp [Ideal.ofBits, Ideal.ieee]

/-- The lane maximum from the negative-infinity word, cast to a column, is the row maximum. -/
theorem maxColumn_apply (v : FVec Ideal S256x16 .f32) (r : Fin 256) (u : Fin 1) :
    shapeCast S256x1 (multiReduction .maximumf [1] S256 v 0xFF800000#32 reduces_S256x16_S256 (.inl rfl) rfl)
        shapeCasts_S256_S256x1 (ix2 r u) = rowMax (mat v) r := by
  refine (Cert.Lib.Rowwise.column_apply _ _ r u).trans ?_
  refine (Cert.Lib.Rowwise.laneMax_apply _ _ _ _ _ r).trans ?_
  rw [negInf_word]
  rfl

/-- The lane sum from the zero word, cast to a column, is the row sum. -/
theorem sumColumn_apply (v : FVec Ideal S256x16 .f32) (r : Fin 256) (u : Fin 1) :
    shapeCast S256x1 (multiReduction .add [1] S256 v 0x00000000#32 reduces_S256x16_S256 (.inl rfl) rfl)
        shapeCasts_S256_S256x1 (ix2 r u) = ∑ k : Fin 16, v (ix2 r k) := by
  refine (Cert.Lib.Rowwise.column_apply _ _ r u).trans ?_
  exact Cert.Lib.Rowwise.laneSum_apply _ _ _ _ _ r

/-- The kernel's log-softmax of a block, as the kernel spells it. -/
def smTail (v24 : FVec Ideal S256x16 .f32) : FVec Ideal S256x16 .f32 :=
  have v25 : FVec Ideal S256 .f32 := multiReduction .maximumf [1] S256 v24 0xFF800000#32 reduces_S256x16_S256 (.inl rfl) rfl
  have v26 : FVec Ideal S256x1 .f32 := shapeCast S256x1 v25 shapeCasts_S256_S256x1
  have v27 : FVec Ideal S256x16 .f32 := broadcastTo S256x16 v26 broadcasts_S256x1_S256x16
  have v28 : FVec Ideal S256x16 .f32 := subf v24 v27
  have v29 : FVec Ideal S256x16 .f32 := exp v28
  have v30 : FVec Ideal S256 .f32 := multiReduction .add [1] S256 v29 0x00000000#32 reduces_S256x16_S256 (.inl rfl) rfl
  have v31 : FVec Ideal S256x1 .f32 := shapeCast S256x1 v30 shapeCasts_S256_S256x1
  have v32 : FVec Ideal S256x1 .f32 := log v31
  have v33 : FVec Ideal S256x1 .f32 := addf v26 v32
  have v34 : FVec Ideal S256x16 .f32 := broadcastTo S256x16 v33 broadcasts_S256x1_S256x16
  subf v24 v34

theorem smTail_apply (v : FVec Ideal S256x16 .f32) (r : Fin 256) (j : Fin 16) :
    smTail v (ix2 r j) = logsmK (mat v) r j := by
  unfold smTail logsmK
  rw [subf_apply]
  refine congrArg (v (ix2 r j) - ·) ?_
  refine (Cert.Lib.Rowwise.columnBroadcast_apply _ _ (by decide) r j).trans ?_
  rw [addf_apply, maxColumn_apply]
  refine congrArg (rowMax (mat v) r + ·) ?_
  show Ideal.log _ = Ideal.log _
  refine congrArg Ideal.log ?_
  refine (sumColumn_apply _ r 0).trans ?_
  refine Finset.sum_congr rfl fun k _ => ?_
  show Ideal.exp _ = Ideal.exp _
  refine congrArg Ideal.exp ?_
  rw [subf_apply]
  refine congrArg (v (ix2 r k) - ·) ?_
  refine (Cert.Lib.Rowwise.columnBroadcast_apply _ _ (by decide) r k).trans ?_
  exact maxColumn_apply v r 0

/-! ## The product that contracts the two operands' second axes -/

theorem lhs11_0 (j : S256x1024.Idx) (q : dot_S256x2048_S1024x2048_S256x1024_1_1_0_0_n_n.contr.Idx) :
    (dot_S256x2048_S1024x2048_S256x1024_1_1_0_0_n_n.lhsIdx j q 0).val = (j 0).val := by
  unfold DotDims.lhsIdx
  rw [dif_neg (show ¬(0 : Fin S256x2048.rank) ∈ dot_S256x2048_S1024x2048_S256x1024_1_1_0_0_n_n.lhsBatch by decide),
    dif_pos (show (0 : Fin S256x2048.rank) ∈ dot_S256x2048_S1024x2048_S256x1024_1_1_0_0_n_n.lhsNonContracting by decide)]
  rfl
theorem lhs11_1 (j : S256x1024.Idx) (q : dot_S256x2048_S1024x2048_S256x1024_1_1_0_0_n_n.contr.Idx) :
    (dot_S256x2048_S1024x2048_S256x1024_1_1_0_0_n_n.lhsIdx j q 1).val = (q ⟨0, by decide⟩).val :=
  dot_S256x2048_S1024x2048_S256x1024_1_1_0_0_n_n.lhsIdx_val_of_single rfl j q
theorem rhs11_0 (j : S256x1024.Idx) (q : dot_S256x2048_S1024x2048_S256x1024_1_1_0_0_n_n.contr.Idx) :
    (dot_S256x2048_S1024x2048_S256x1024_1_1_0_0_n_n.rhsIdx j q 0).val = (j 1).val := by
  unfold DotDims.rhsIdx
  rw [dif_neg (show ¬(0 : Fin S1024x2048.rank) ∈ dot_S256x2048_S1024x2048_S256x1024_1_1_0_0_n_n.rhsBatch by decide),
    dif_pos (show (0 : Fin S1024x2048.rank) ∈ dot_S256x2048_S1024x2048_S256x1024_1_1_0_0_n_n.rhsNonContracting by decide)]
  rfl
theorem rhs11_1 (j : S256x1024.Idx) (q : dot_S256x2048_S1024x2048_S256x1024_1_1_0_0_n_n.contr.Idx) :
    (dot_S256x2048_S1024x2048_S256x1024_1_1_0_0_n_n.rhsIdx j q 1).val = (q ⟨0, by decide⟩).val :=
  dot_S256x2048_S1024x2048_S256x1024_1_1_0_0_n_n.rhsIdx_val_of_single rfl j q

/-- That product into the zero word, read at (p, c): the sum over the shared second coordinate. -/
theorem matmul11_zero_apply (a : FVec Ideal S256x2048 .f32) (b : FVec Ideal S1024x2048 .f32) (p : Fin 256) (c : Fin 1024) :
    FloatOps.matmul dot_S256x2048_S1024x2048_S256x1024_1_1_0_0_n_n none a b (constant S256x1024 .f32 0x00000000#32) (ix2 p c)
      = ∑ e : Fin 2048, a (ix2 p e) * b (ix2 c e) := by
  rw [Ideal.matmul_constant_zero_apply,
    ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p c)
      ((contrEquiv1 dot_S256x2048_S1024x2048_S256x1024_1_1_0_0_n_n 2048 rfl rfl).symm k) = ix2 p k :=
    funext fun a => Fin.ext (by
      match a with
      | ⟨0, _⟩ => exact lhs11_0 _ _
      | ⟨1, _⟩ => exact (lhs11_1 _ _).trans hk)
  have er : dot_S256x2048_S1024x2048_S256x1024_1_1_0_0_n_n.rhsIdx (ix2 p c)
      ((contrEquiv1 dot_S256x2048_S1024x2048_S256x1024_1_1_0_0_n_n 2048 rfl rfl).symm k) = ix2 c k :=
    funext fun a => Fin.ext (by
      match a with
      | ⟨0, _⟩ => exact rhs11_0 _ _
      | ⟨1, _⟩ => exact (rhs11_1 _ _).trans hk)
  rw [el, er]

/-! ## The diagonal test -/

/-- Two naturals below 2³² have equal 32-bit words exactly when they are equal. -/
theorem word_eq_iff (a b : Nat) (ha : a < 2 ^ 32) (hb : b < 2 ^ 32) : BitVec.ofNat 32 a = BitVec.ofNat 32 b ↔ a = b := by
  constructor
  · intro h
    have h' := congrArg BitVec.toNat h
    simp only [BitVec.toNat_ofNat] at h'
    rwa [Nat.mod_eq_of_lt ha, Nat.mod_eq_of_lt hb] at h'
  · intro h; rw [h]

/-- The comparison of the global row number 256·i + r with the column number c. -/
theorem diag_apply (i : grid2.Coords) (r : Fin 256) (c : Fin 1024) :
    cmpi .eq (addi (broadcast S256x1024 (Scalar.muli (BitVec.ofNat 32 (i 0).val) 256#32))
        (iota .tc S256x1024 32 [0] iota_S256x1024_d0_w32)) (iota .tc S256x1024 32 [1] iota_S256x1024_d1_w32) (ix2 r c)
      = if (i 0).val * 256 + r.val = c.val then 1#1 else 0#1 := by
  have h4 : (i 0).val < 4 := (i 0).isLt
  show IntOp.cmpi .eq (IntOp.addi (Scalar.muli (BitVec.ofNat 32 (i 0).val) 256#32)
      (iota .tc S256x1024 32 [0] iota_S256x1024_d0_w32 (ix2 r c))) (iota .tc S256x1024 32 [1] iota_S256x1024_d1_w32 (ix2 r c)) = _
  rw [iota_single_apply, iota_single_apply]
  show BitVec.ofBool (BitVec.ofNat 32 (i 0).val * BitVec.ofNat 32 256 + BitVec.ofNat 32 r.val == BitVec.ofNat 32 c.val) = _
  rw [← BitVec.ofNat_mul, ← BitVec.ofNat_add]
  by_cases h : (i 0).val * 256 + r.val = c.val
  · rw [if_pos h, h, beq_self_eq_true]; rfl
  · rw [if_neg h]
    have hne : ¬ BitVec.ofNat 32 ((i 0).val * 256 + r.val) = BitVec.ofNat 32 c.val :=
      fun hh => h ((word_eq_iff _ _ (by omega) (by omega)).mp hh)
    rw [beq_eq_false_iff_ne.mpr hne]; rfl

/-- The select that forces the diagonal to one. -/
theorem diagSelect_apply (i : grid2.Coords) (x : FVec Ideal S256x1024 .f32) (r : Fin 256) (c : Fin 1024) :
    select (cmpi .eq (addi (broadcast S256x1024 (Scalar.muli (BitVec.ofNat 32 (i 0).val) 256#32))
        (iota .tc S256x1024 32 [0] iota_S256x1024_d0_w32)) (iota .tc S256x1024 32 [1] iota_S256x1024_d1_w32))
      (broadcast S256x1024 (Scalar.ofBits (F := Ideal) .f32 0x3F800000#32)) x (ix2 r c)
      = if (i 0).val * 256 + r.val = c.val then (1 : EReal) else x (ix2 r c) := by
  rw [select_apply, diag_apply]
  by_cases h : (i 0).val * 256 + r.val = c.val
  · rw [if_pos h, if_pos h, select_one]
    exact IdealRules.sign_bit.ideal_onePat .f32
  · rw [if_neg h, if_neg h, select_zero]

/-! ## The pre-activation -/

/-- The block's pre-activation as the kernel computes it: the second product plus the broadcast bias. -/
def preVec (i : grid2.Coords) (v3 : Vec Ideal S256x2048 .f32) (v4 : Vec Ideal S1x2048 .f32) (v7 : Vec Ideal S1024x2048 .f32)
    (v17 : Vec Ideal S256x1024 .f32) (v19 : Vec Ideal S1024x16 .f32) (v21 : Vec Ideal S1x16 .f32) : FVec Ideal S256x16 .f32 :=
  let arg0 : BitVec 32 := BitVec.ofNat 32 (i 0).val
  have v5 : FVec Ideal S256x2048 .f32 := broadcastTo S256x2048 v4 broadcasts_S1x2048_S256x2048
  have v6 : FVec Ideal S256x2048 .f32 := mulf v3 v5
  have cst : FVec Ideal S256x1024 .f32 := constant S256x1024 .f32 0x00000000#32
  have v8 : FVec Ideal S256x1024 .f32 := matmul (φ₂ := .f32) dot_S256x2048_S1024x2048_S256x1024_1_1_0_0_n_n none v6 v7 cst
  let v9 : BitVec 32 := Scalar.muli arg0 256#32
  have v10 : IVec S256x1024 32 := iota .tc S256x1024 32 [0] iota_S256x1024_d0_w32
  have v11 : IVec S256x1024 32 := broadcast S256x1024 v9
  have v12 : IVec S256x1024 32 := addi v11 v10
  have v13 : IVec S256x1024 32 := iota .tc S256x1024 32 [1] iota_S256x1024_d1_w32
  have v14 : IVec S256x1024 1 := cmpi .eq v12 v13
  have cst_6 : Ideal .f32 := Scalar.ofBits .f32 0x3F800000#32
  have v15 : FVec Ideal S256x1024 .f32 := broadcast S256x1024 cst_6
  have v16 : FVec Ideal S256x1024 .f32 := select v14 v15 v8
  have v18 : FVec Ideal S256x1024 .f32 := mulf v16 v17
  have cst_11 : FVec Ideal S256x16 .f32 := constant S256x16 .f32 0x00000000#32
  have v20 : FVec Ideal S256x16 .f32 := matmul (φ₂ := .f32) dot_S256x1024_S1024x16_S256x16_1_0_0_1_n_n none v18 v19 cst_11
  have v22 : FVec Ideal S1x16 .f32 := shapeCast S1x16 v21 shapeCasts_S1x16_S1x16
  have v23 : FVec Ideal S256x16 .f32 := broadcastTo S256x16 v22 broadcasts_S1x16_S256x16
  addf v20 v23

/-- The kernel's stored value is the log-softmax tail of the pre-activation. -/
theorem pay3_split (i : grid2.Coords) (tblk : Vec Ideal S256x2048 .f32) (d : Vec Ideal S1x2048 .f32) (tfull : Vec Ideal S1024x2048 .f32)
    (adj : Vec Ideal S256x1024 .f32) (hw : Vec Ideal S1024x16 .f32) (b : Vec Ideal S1x16 .f32) :
    k2_pay3 (F := Ideal) i tblk d tfull adj hw b = smTail (preVec i tblk d tfull adj hw b) := rfl

/-- The pre-activation read at (r, j). -/
theorem pre3_eq (i : grid2.Coords) (tblk : Vec Ideal S256x2048 .f32) (d : Vec Ideal S1x2048 .f32) (tfull : Vec Ideal S1024x2048 .f32)
    (adj : Vec Ideal S256x1024 .f32) (hw : Vec Ideal S1024x16 .f32) (b : Vec Ideal S1x16 .f32) (r : Fin 256) (j : Fin 16) :
    preVec i tblk d tfull adj hw b (ix2 r j) = pre3 i tblk d tfull adj hw b r j := by
  unfold preVec pre3
  rw [addf_apply]
  refine congrArg₂ (· + ·) ?_ ?_
  · have hD : dot_S256x1024_S1024x16_S256x16_1_0_0_1_n_n = DotDims.plain 256 1024 16 :=
      Cert.Lib.Rowwise.eq_plain _ rfl rfl rfl rfl rfl rfl
    rw [hD]
    refine (Cert.Lib.Rowwise.plain_matmul_zero_apply none _ hw r j).trans ?_
    refine Finset.sum_congr rfl fun c _ => ?_
    refine congrArg (· * hw (ix2 c j)) ?_
    rw [mulf_apply]
    refine congrArg (· * adj (ix2 r c)) ?_
    refine (diagSelect_apply i _ r c).trans ?_
    refine congrArg (fun x : EReal => if (i 0).val * 256 + r.val = c.val then (1 : EReal) else x) ?_
    refine (matmul11_zero_apply _ tfull r c).trans ?_
    refine Finset.sum_congr rfl fun e _ => ?_
    refine congrArg (· * tfull (ix2 c e)) ?_
    rw [mulf_apply, broadcastTo_1b_ab_apply]
  · rw [shapeCast_self]
    exact broadcastTo_1b_ab_apply b _ r j

/-- The output block of grid point i is the row-wise log-softmax (in the kernel's spelling) of its pre-activation. -/
theorem pay3_eq (i : grid2.Coords) (tblk : Vec Ideal S256x2048 .f32) (d : Vec Ideal S1x2048 .f32) (tfull : Vec Ideal S1024x2048 .f32)
    (adj : Vec Ideal S256x1024 .f32) (hw : Vec Ideal S1024x16 .f32) (b : Vec Ideal S1x16 .f32) (r : Fin 256) (j : Fin 16) :
    k2_pay3 (F := Ideal) i tblk d tfull adj hw b (ix2 r j) = logsmK (pre3 i tblk d tfull adj hw b) r j := by
  rw [pay3_split, smTail_apply]
  have e : mat (preVec i tblk d tfull adj hw b) = pre3 i tblk d tfull adj hw b :=
    funext fun r' => funext fun j' => pre3_eq i tblk d tfull adj hw b r' j'
  rw [e]

end Cert.KernelIdeal.Pay2

end
-- ==== Proof.Val2.lean ====
/-
  What the third region leaves in its result array, at the extended reals: the row-wise log-softmax (in the kernel's
  spelling) of the node layer's pre-activation on the arrays the region was entered from. Block t of the result is what grid
  point t stored, and its row r is global row 256·t + r; a row's log-softmax reads that row only.
-/
import proofs.«147858_g78709570666604_cont_9to1_m_429_2_alg».proof.Proof.Reg2
import proofs.«147858_g78709570666604_cont_9to1_m_429_2_alg».proof.Proof.Pay2
import proofs.«147858_g78709570666604_cont_9to1_m_429_2_alg».proof.Proof.Spec
import proofs.«147858_g78709570666604_cont_9to1_m_429_2_alg».proof.Proof.LibRowwise
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val2

open Idealize.ShloMosaic Idealize.ShloMosaic.TcCoe Idealize.ShloMosaic.ValueIdx
open Cert.KernelIdeal Cert.KernelIdeal.Gen Cert.KernelIdeal.Hand Cert.Gcn

variable (V : (c : Dev nD) → (b : Ref sig .tc) → Buf (Elt Ideal) ((c : Thread nD τ).loc b))

/-- The printed index maps over the grid: the three moving windows sit at block row t, the whole-array windows at the origin;
    the grid's one coordinate is the point's number. -/
theorem idx_facts : ∀ t : Fin cfg2.N,
    win2_8.index t (0 : Fin 2) = t.val ∧ win2_8.index t (1 : Fin 2) = 0
    ∧ win2_0.index t (0 : Fin 2) = t.val ∧ win2_0.index t (1 : Fin 2) = 0
    ∧ win2_2.index t (0 : Fin 2) = t.val ∧ win2_2.index t (1 : Fin 2) = 0
    ∧ win2_1.index t (0 : Fin 2) = 0 ∧ win2_1.index t (1 : Fin 2) = 0
    ∧ win2_7.index t (0 : Fin 2) = 0 ∧ win2_7.index t (1 : Fin 2) = 0
    ∧ (grid2.coords t 0).val = t.val :=
  (by decide +kernel : ∀ t : Fin grid2.N, _)

theorem idx_first : win2_3.index t2_0 (0 : Fin 2) = 0 ∧ win2_3.index t2_0 (1 : Fin 2) = 0
    ∧ win2_4.index t2_0 (0 : Fin 2) = 0 ∧ win2_4.index t2_0 (1 : Fin 2) = 0
    ∧ win2_5.index t2_0 (0 : Fin 2) = 0 ∧ win2_5.index t2_0 (1 : Fin 2) = 0
    ∧ win2_6.index t2_0 (0 : Fin 2) = 0 ∧ win2_6.index t2_0 (1 : Fin 2) = 0 := by
  decide +kernel

/-- Window 0's block at point t is rows 256·t … 256·t + 255 of the incidence matrix. -/
theorem iblk0_apply (c : Dev nD) (t : Fin cfg2.N) (x : S256x2048.Idx) (k : S1024x2048.Idx)
    (hk0 : (k 0).val = 256 * t.val + (x 0).val) (hk1 : (k 1).val = (x 1).val) :
    (iblk2 V c 0 t : Vec Ideal S256x2048 .f32) x = (V c main_arg4 : S1024x2048.Idx → EReal) k := by
  obtain ⟨-, -, e0, e1, -⟩ := idx_facts t
  unfold iblk2
  rw [View.read_apply]
  show V c main_arg4 _ = V c main_arg4 _
  refine congrArg (V c main_arg4) ?_
  funext a
  apply Fin.ext
  match a with
  | ⟨0, _⟩ => show win2_0.index t 0 * 256 + 1 * (x 0).val = (k 0).val; rw [e0, hk0]; omega
  | ⟨1, _⟩ => show win2_0.index t 1 * 2048 + 1 * (x 1).val = (k 1).val; rw [e1, hk1]; omega

/-- Window 2's block at point t is rows 256·t … 256·t + 255 of the adjacency matrix. -/
theorem iblk2_apply (c : Dev nD) (t : Fin cfg2.N) (x : S256x1024.Idx) (k : S1024x1024.Idx)
    (hk0 : (k 0).val = 256 * t.val + (x 0).val) (hk1 : (k 1).val = (x 1).val) :
    (iblk2 V c 2 t : Vec Ideal S256x1024 .f32) x = (V c main_arg3 : S1024x1024.Idx → EReal) k := by
  obtain ⟨-, -, -, -, e0, e1, -⟩ := idx_facts t
  unfold iblk2
  rw [View.read_apply]
  show V c main_arg3 _ = V c main_arg3 _
  refine congrArg (V c main_arg3) ?_
  funext a
  apply Fin.ext
  match a with
  | ⟨0, _⟩ => show win2_2.index t 0 * 256 + 1 * (x 0).val = (k 0).val; rw [e0, hk0]; omega
  | ⟨1, _⟩ => show win2_2.index t 1 * 1024 + 1 * (x 1).val = (k 1).val; rw [e1, hk1]; omega

/-- Window 1's block at every point is the whole incidence matrix. -/
theorem iblk1_eq (c : Dev nD) (t : Fin cfg2.N) :
    (iblk2 V c 1 t : Vec Ideal S1024x2048 .f32) = (V c main_arg4 : S1024x2048.Idx → EReal) := by
  obtain ⟨-, -, -, -, -, -, e0, e1, -⟩ := idx_facts t
  funext x
  unfold iblk2
  rw [View.read_apply]
  show V c main_arg4 _ = V c main_arg4 _
  refine congrArg (V c main_arg4) ?_
  funext a
  apply Fin.ext
  match a with
  | ⟨0, _⟩ => show win2_1.index t 0 * 1024 + 1 * (x 0).val = (x 0).val; rw [e0]; omega
  | ⟨1, _⟩ => show win2_1.index t 1 * 2048 + 1 * (x 1).val = (x 1).val; rw [e1]; omega

/-- Window 7's block at every point is the whole bias row. -/
theorem iblk7_eq (c : Dev nD) (t : Fin cfg2.N) :
    (iblk2 V c 7 t : Vec Ideal S1x16 .f32) = (V c main_v2 : S1x16.Idx → EReal) := by
  obtain ⟨-, -, -, -, -, -, -, -, e0, e1, -⟩ := idx_facts t
  funext x
  unfold iblk2
  rw [View.read_apply]
  show V c main_v2 _ = V c main_v2 _
  refine congrArg (V c main_v2) ?_
  funext a
  apply Fin.ext
  match a with
  | ⟨0, _⟩ => show win2_7.index t 0 * 1 + 1 * (x 0).val = (x 0).val; rw [e0]; omega
  | ⟨1, _⟩ => show win2_7.index t 1 * 16 + 1 * (x 1).val = (x 1).val; rw [e1]; omega

/-- At the first point, windows 3 to 6 hold their whole arrays. -/
theorem iblk3_eq (c : Dev nD) : (iblk2 V c 3 t2_0 : Vec Ideal S1024x64 .f32) = (V c main_v3 : S1024x64.Idx → EReal) := by
  obtain ⟨e0, e1, -⟩ := idx_first
  funext x
  unfold iblk2
  rw [View.read_apply]
  show V c main_v3 _ = V c main_v3 _
  refine congrArg (V c main_v3) ?_
  funext a
  apply Fin.ext
  match a with
  | ⟨0, _⟩ => show win2_3.index t2_0 0 * 1024 + 1 * (x 0).val = (x 0).val; rw [e0]; omega
  | ⟨1, _⟩ => show win2_3.index t2_0 1 * 64 + 1 * (x 1).val = (x 1).val; rw [e1]; omega
theorem iblk4_eq (c : Dev nD) : (iblk2 V c 4 t2_0 : Vec Ideal S2048x16 .f32) = (V c main_v4 : S2048x16.Idx → EReal) := by
  obtain ⟨-, -, e0, e1, -⟩ := idx_first
  funext x
  unfold iblk2
  rw [View.read_apply]
  show V c main_v4 _ = V c main_v4 _
  refine congrArg (V c main_v4) ?_
  funext a
  apply Fin.ext
  match a with
  | ⟨0, _⟩ => show win2_4.index t2_0 0 * 2048 + 1 * (x 0).val = (x 0).val; rw [e0]; omega
  | ⟨1, _⟩ => show win2_4.index t2_0 1 * 16 + 1 * (x 1).val = (x 1).val; rw [e1]; omega
theorem iblk5_eq (c : Dev nD) : (iblk2 V c 5 t2_0 : Vec Ideal S64x16 .f32) = (V c main_arg11 : S64x16.Idx → EReal) := by
  obtain ⟨-, -, -, -, e0, e1, -⟩ := idx_first
  funext x
  unfold iblk2
  rw [View.read_apply]
  show V c main_arg11 _ = V c main_arg11 _
  refine congrArg (V c main_arg11) ?_
  funext a
  apply Fin.ext
  match a with
  | ⟨0, _⟩ => show win2_5.index t2_0 0 * 64 + 1 * (x 0).val = (x 0).val; rw [e0]; omega
  | ⟨1, _⟩ => show win2_5.index t2_0 1 * 16 + 1 * (x 1).val = (x 1).val; rw [e1]; omega
theorem iblk6_eq (c : Dev nD) : (iblk2 V c 6 t2_0 : Vec Ideal S1x16 .f32) = (V c main_arg12 : S1x16.Idx → EReal) := by
  obtain ⟨-, -, -, -, -, -, e0, e1⟩ := idx_first
  funext x
  unfold iblk2
  rw [View.read_apply]
  show V c main_arg12 _ = V c main_arg12 _
  refine congrArg (V c main_arg12) ?_
  funext a
  apply Fin.ext
  match a with
  | ⟨0, _⟩ => show win2_6.index t2_0 0 * 1 + 1 * (x 0).val = (x 0).val; rw [e0]; omega
  | ⟨1, _⟩ => show win2_6.index t2_0 1 * 16 + 1 * (x 1).val = (x 1).val; rw [e1]; omega

/-- The two scratch values, entry by entry. -/
theorem dS2_apply (c : Dev nD) (e : Fin 2048) :
    dS2 (F := Ideal) V c (ix2 0 e) = dvec (mat (V c main_v4)) (row (V c main_arg12)) e := by
  unfold dS2
  rw [iblk4_eq, iblk6_eq]
  exact Pay2.pay1_eq _ _ e
theorem wS2_apply (c : Dev nD) (a : Fin 1024) (j : Fin 16) :
    wS2 (F := Ideal) V c (ix2 a j) = lin (mat (V c main_v3)) (mat (V c main_arg11)) a j := by
  unfold wS2
  rw [iblk3_eq, iblk5_eq]
  exact Pay2.pay2_eq _ _ a j

/-! ## A row's log-softmax reads that row only -/

theorem rowMax_congr {A A' B : Nat} (o : Mat A B) (o' : Mat A' B) (r : Fin A) (r' : Fin A') (h : ∀ k, o r k = o' r' k) :
    rowMax o r = rowMax o' r' := by
  unfold rowMax
  exact congrArg (fun f => (Finset.univ : Finset (Fin B)).fold max (⊥ : EReal) f) (funext h)

theorem logsmK_congr {A A' B : Nat} (o : Mat A B) (o' : Mat A' B) (r : Fin A) (r' : Fin A') (h : ∀ k, o r k = o' r' k) (j : Fin B) :
    logsmK o r j = logsmK o' r' j := by
  unfold logsmK
  rw [rowMax_congr o o' r r' h, h j]
  refine congrArg (fun s => o' r' j - (rowMax o' r' + Ideal.log s)) ?_
  exact Finset.sum_congr rfl fun k _ => by rw [h k]

/-! ## What one grid point stores -/

/-- Over any arrays: if the two row blocks are rows 256·t … of their arrays and the scratch holds the edge weights and the
    projected features, the stored block's row r is row 256·t + r of the whole layer's log-softmax. -/
theorem block_eq (tv : Nat) (ht : tv < 4) (i : grid2.Coords) (hi : (i 0).val = tv)
    (T : S1024x2048.Idx → EReal) (adjF : S1024x1024.Idx → EReal) (Hv : S1024x64.Idx → EReal) (He : S2048x16.Idx → EReal)
    (W : S64x16.Idx → EReal) (p b : S1x16.Idx → EReal)
    (tblk : Vec Ideal S256x2048 .f32) (adjb : Vec Ideal S256x1024 .f32) (dS : Vec Ideal S1x2048 .f32) (wS : Vec Ideal S1024x16 .f32)
    (htblk : ∀ (r : Fin 256) (e : Fin 2048), tblk (ix2 r e) = T (ix2 (⟨256 * tv + r.val, by omega⟩ : Fin 1024) e))
    (hadj : ∀ (r : Fin 256) (cc : Fin 1024), adjb (ix2 r cc) = adjF (ix2 (⟨256 * tv + r.val, by omega⟩ : Fin 1024) cc))
    (hdS : ∀ e : Fin 2048, dS (ix2 0 e) = dvec (mat He) (row p) e)
    (hwS : ∀ (a : Fin 1024) (j : Fin 16), wS (ix2 a j) = lin (mat Hv) (mat W) a j)
    (r : Fin 256) (j : Fin 16) :
    k2_pay3 (F := Ideal) i tblk dS T adjb wS b (ix2 r j)
      = logsmK (nodePre (mat T) (mat adjF) (mat Hv) (mat He) (mat W) (row p) (row b)) (⟨256 * tv + r.val, by omega⟩ : Fin 1024) j := by
  rw [Pay2.pay3_eq]
  refine logsmK_congr _ _ r _ (fun k => ?_) j
  unfold Pay2.pre3 nodePre layer amat multN
  refine congrArg₂ (· + ·) (Finset.sum_congr rfl fun cc _ => ?_) rfl
  rw [hwS cc k, hadj r cc]
  have hsum : (∑ e : Fin 2048, (tblk (ix2 r e) * dS (ix2 0 e)) * T (ix2 cc e))
      = ∑ e : Fin 2048, (mat T (⟨256 * tv + r.val, by omega⟩ : Fin 1024) e * dvec (mat He) (row p) e) * mat T cc e :=
    Finset.sum_congr rfl fun e _ => by rw [htblk r e, hdS e]; rfl
  by_cases h : (i 0).val * 256 + r.val = cc.val
  · have h' : ((⟨256 * tv + r.val, by omega⟩ : Fin 1024) : Nat) = cc.val := by show 256 * tv + r.val = cc.val; omega
    rw [if_pos h, if_pos h']; rfl
  · have h' : ¬ ((⟨256 * tv + r.val, by omega⟩ : Fin 1024) : Nat) = cc.val := by show ¬ 256 * tv + r.val = cc.val; omega
    rw [if_neg h, if_neg h', hsum]; rfl

/-- The layer's pre-activation on the arrays the region was entered from. -/
abbrev O3V (c : Dev nD) : Mat 1024 16 :=
  nodePre (mat (V c main_arg4)) (mat (V c main_arg3)) (mat (V c main_v3)) (mat (V c main_v4)) (mat (V c main_arg11))
    (row (V c main_arg12)) (row (V c main_v2))

/-- Row r of the block point t stores is global row 256·t + r. -/
theorem out2_apply (c : Dev nD) (t : Fin cfg2.N) (r : Fin 256) (j : Fin 16) (hr : 256 * t.val + r.val < 1024) :
    out2 (F := Ideal) V c t (ix2 r j) = logsmK (O3V V c) (⟨256 * t.val + r.val, hr⟩ : Fin 1024) j := by
  have ht : t.val < 4 := Nat.lt_of_lt_of_eq t.isLt N_2
  have hi : (grid2.coords t 0).val = t.val := (idx_facts t).2.2.2.2.2.2.2.2.2.2
  unfold out2
  rw [iblk1_eq, iblk7_eq]
  exact block_eq t.val ht (grid2.coords t) hi (V c main_arg4) (V c main_arg3) (V c main_v3) (V c main_v4) (V c main_arg11)
    (V c main_arg12) (V c main_v2) (iblk2 V c 0 t) (iblk2 V c 2 t) (dS2 V c) (wS2 V c)
    (fun r e => iblk0_apply V c t _ _ rfl rfl) (fun r cc => iblk2_apply V c t _ _ rfl rfl) (dS2_apply V c) (wS2_apply V c) r j

/-! ## From the blocks to the array -/

/-- The result array as one function of the index. -/
abbrev G2 (c : Dev nD) : S1024x16.Idx → EReal :=
  fun i => logsmK (O3V V c) (⟨(i 0).val, idx2_lt0 i⟩ : Fin 1024) (⟨(i 1).val, idx2_lt1 i⟩ : Fin 16)

/-- What point t writes back is block t of that function. -/
theorem flushed_eq (c : Dev nD) (t : Fin cfg2.N) :
    (dat2 V c).flushed 8 t = ((cfg2.win 8).blk t).view.read (Elt Ideal) (G2 V c) := by
  show (cfg2.win 8).cut (grid2.coords t) ((dat2 V c).after 8 t) = _
  rw [after2_8]
  obtain ⟨e0, e1, -⟩ := idx_facts t
  have ht : t.val < 4 := Nat.lt_of_lt_of_eq t.isLt N_2
  funext y
  have hy0 : (y 0).val < 256 := (y 0).isLt
  have hy1 : (y 1).val < 16 := (y 1).isLt
  show out2 V c t ((cfg2.win 8).xinj (grid2.coords t) y) = G2 V c (((cfg2.win 8).blk t).view.emb y)
  have h1 : (cfg2.win 8).xinj (grid2.coords t) y = ix2 (⟨(y 0).val, hy0⟩ : Fin 256) (⟨(y 1).val, hy1⟩ : Fin 16) := by
    funext a
    match a with
    | ⟨0, _⟩ => rfl
    | ⟨1, _⟩ => rfl
  have h2 : ((cfg2.win 8).blk t).view.emb y
      = ix2 (⟨256 * t.val + (y 0).val, by omega⟩ : Fin 1024) (⟨(y 1).val, hy1⟩ : Fin 16) := by
    funext a
    apply Fin.ext
    match a with
    | ⟨0, _⟩ => show win2_8.index t 0 * 256 + 1 * (y 0).val = 256 * t.val + (y 0).val; rw [e0]; omega
    | ⟨1, _⟩ => show win2_8.index t 1 * 16 + 1 * (y 1).val = (y 1).val; rw [e1]; omega
  refine (congrArg (out2 V c t) h1).trans ?_
  refine ((out2_apply V c t _ _ (by omega)).trans ?_)
  exact (congrArg (G2 V c) h2).symm

/-- An index of the array is in point t's block iff each coordinate is in the block's range on its axis. -/
theorem mem_blk (t : Fin cfg2.N) (i : S1024x16.Idx) :
    i ∈ ((cfg2.win 8).blk t).view.set
      ↔ ∀ a : Fin 2, win2_8.index t a * S256x16.size a ≤ (i a).val ∧ (i a).val < win2_8.index t a * S256x16.size a + S256x16.size a := by
  show i ∈ ((View.whole main_v5).slice (win2_8.rect t)).set ↔ _
  rw [View.set_slice_whole, Rect.mem_set_unit]
  exact Iff.rfl

/-- Row r of the array is in the block of point r / 256. -/
theorem cover (i : S1024x16.Idx) : ∃ t : Fin cfg2.N, (cfg2.win 8).flush t = true ∧ i ∈ ((cfg2.win 8).blk t).view.set := by
  have hi0 : (i 0).val < 1024 := (i 0).isLt
  have hi1 : (i 1).val < 16 := (i 1).isLt
  obtain ⟨t, ht⟩ : ∃ t : Fin cfg2.N, t.val = (i 0).val / 256 :=
    ⟨⟨(i 0).val / 256, Nat.lt_of_lt_of_eq (show (i 0).val / 256 < 4 by omega) N_2.symm⟩, rfl⟩
  obtain ⟨e0, e1, -⟩ := idx_facts t
  refine ⟨t, flush2_8 t, ?_⟩
  rw [mem_blk]
  intro a
  match a with
  | ⟨0, _⟩ =>
    show win2_8.index t 0 * 256 ≤ (i 0).val ∧ (i 0).val < win2_8.index t 0 * 256 + 256
    rw [e0, ht]; omega
  | ⟨1, _⟩ =>
    show win2_8.index t 1 * 16 ≤ (i 1).val ∧ (i 1).val < win2_8.index t 1 * 16 + 16
    rw [e1]; omega

/-- The result array after all write-backs is that function. -/
theorem res2_fun (c : Dev nD) : res2 (F := Ideal) V c = G2 V c :=
  (dat2 V c).arrAt_eq_of_cover 8 (G2 V c) (fun t _ => flushed_eq V c t) cover

theorem res2_eq (c : Dev nD) (r : Fin 1024) (j : Fin 16) :
    res2 (F := Ideal) V c (ix2 r j)
      = logsmK (nodePre (mat (V c main_arg4)) (mat (V c main_arg3)) (mat (V c main_v3)) (mat (V c main_v4)) (mat (V c main_arg11))
          (row (V c main_arg12)) (row (V c main_v2))) r j := by
  exact congrFun (res2_fun V c) (ix2 r j)

end Cert.KernelIdeal.Val2

end
-- ==== Proof.KernelValue.lean ====
/-
  The idealized kernel program's result, entry by entry at the extended reals, as the specification's network applied to the
  launch contents of the fourteen argument arrays: the third region's output on the first two regions' outputs, each region
  entered from the buffers as the one before left them, the three bias rows being the host's reshapes of the bias vectors.
-/
import proofs.«147858_g78709570666604_cont_9to1_m_429_2_alg».proof.Proof.RegsI
import proofs.«147858_g78709570666604_cont_9to1_m_429_2_alg».proof.Proof.Val0
import proofs.«147858_g78709570666604_cont_9to1_m_429_2_alg».proof.Proof.Val1
import proofs.«147858_g78709570666604_cont_9to1_m_429_2_alg».proof.Proof.Val2
import proofs.«147858_g78709570666604_cont_9to1_m_429_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KVal

open Idealize.ShloMosaic Idealize.ShloMosaic.TcCoe Idealize.ShloMosaic.ValueIdx
open Cert.KernelIdeal Cert.KernelIdeal.Gen Cert.KernelIdeal.Hand Cert.Gcn

variable (m : (ℓ : Loc nD τ sig) → Buf (Elt Ideal) ℓ)

/-! ## The buffers each region is entered from, read back to the launch contents -/

theorem Va_arg (c : Dev nD) (b : Ref sig .tc) (h : b ∉ (hostOps0_W : List (Ref sig .tc))) : Va m c b = m ((c : Thread nD τ).loc b) :=
  (V1_of m c b h).trans rfl
theorem Vb_of (c : Dev nD) (b : Ref sig .tc) (h : b ≠ main_v3) : Vb m c b = Va m c b :=
  Function.update_of_ne (StableHlo.devRef_ne_of_ne h) _ _
theorem Vb_v3 (c : Dev nD) : Vb m c main_v3 = x3 m c := Function.update_self _ _ _
theorem Vc_of (c : Dev nD) (b : Ref sig .tc) (h : b ≠ main_v4) : Vc m c b = Vb m c b :=
  Function.update_of_ne (StableHlo.devRef_ne_of_ne h) _ _
theorem Vc_v4 (c : Dev nD) : Vc m c main_v4 = x4 m c := Function.update_self _ _ _

/-- A length-K vector cast to a row reads, at (0, k), the vector at k. -/
theorem rowCast_apply {K : Nat} {α : Type} (v : (⟨1, ![K]⟩ : Shape).Idx → α) (h : (⟨1, ![K]⟩ : Shape).ShapeCasts ⟨2, ![1, K]⟩) (k : Fin K) :
    shapeCast ⟨2, ![1, K]⟩ v h (ix2 0 k) = v (ix1 k) := by
  refine shapeCast_apply v h (ix2 0 k) (ix1 k) ?_
  rw [Shape.rowMajor_val_one, Shape.rowMajor_val_two]
  show k.val = (0 : Fin 1).val * K + k.val
  simp

/-- The three bias rows are the host's reshapes of the bias vectors. -/
theorem Va_v0 (c : Dev nD) : (Va m c main_v0 : S1x64.Idx → EReal) = shapeCast S1x64 (m ((c : Thread nD τ).loc main_arg7)) shapeCasts_S64_S1x64 := by
  dsimp only [Va, V1, hostOps0]; after_results; rfl
theorem Va_v1 (c : Dev nD) : (Va m c main_v1 : S1x16.Idx → EReal) = shapeCast S1x16 (m ((c : Thread nD τ).loc main_arg10)) shapeCasts_S16_S1x16 := by
  dsimp only [Va, V1, hostOps0]; after_results; rfl
theorem Va_v2 (c : Dev nD) : (Va m c main_v2 : S1x16.Idx → EReal) = shapeCast S1x16 (m ((c : Thread nD τ).loc main_arg13)) shapeCasts_S16_S1x16 := by
  dsimp only [Va, V1, hostOps0]; after_results; rfl

theorem row_v0 (c : Dev nD) : row (Va m c main_v0) = vec (m ((c : Thread nD τ).loc main_arg7)) := by
  funext k; unfold row vec; rw [Va_v0]; exact rowCast_apply _ _ k
theorem row_v1 (c : Dev nD) : row (Va m c main_v1) = vec (m ((c : Thread nD τ).loc main_arg10)) := by
  funext k; unfold row vec; rw [Va_v1]; exact rowCast_apply _ _ k
theorem row_v2 (c : Dev nD) : row (Va m c main_v2) = vec (m ((c : Thread nD τ).loc main_arg13)) := by
  funext k; unfold row vec; rw [Va_v2]; exact rowCast_apply _ _ k

/-! ## The three regions' outputs -/

/-- Region 0's output is the first layer. -/
theorem x3_eq (c : Dev nD) :
    mat (x3 (F := Ideal) m c) = X1 (mat (m ((c.tc : Thread nD τ).loc main_arg0))) (mat (m ((c.tc : Thread nD τ).loc main_arg1))) (mat (m ((c.tc : Thread nD τ).loc main_arg3))) (mat (m ((c.tc : Thread nD τ).loc main_arg4))) (mat (m ((c.tc : Thread nD τ).loc main_arg5))) (row (m ((c.tc : Thread nD τ).loc main_arg6))) (vec (m ((c.tc : Thread nD τ).loc main_arg7))) := by
  funext r j
  show res0 (F := Ideal) (Va m) c (ix2 r j) = _
  unfold X1
  rw [Cert.KernelIdeal.Val0.res0_eq (Va m) c r j, row_v0,
    Va_arg m c main_arg4 (by decide), Va_arg m c main_arg3 (by decide), Va_arg m c main_arg0 (by decide), Va_arg m c main_arg1 (by decide),
    Va_arg m c main_arg5 (by decide), Va_arg m c main_arg6 (by decide)]

/-- Region 1's output is the second layer. -/
theorem x4_eq (c : Dev nD) :
    mat (x4 (F := Ideal) m c) = Z2 (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (mat (m ((c.tc : Thread nD τ).loc main_arg5))) (row (m ((c.tc : Thread nD τ).loc main_arg6))) (vec (m ((c.tc : Thread nD τ).loc main_arg7)))
      (mat (m ((c.tc : Thread nD τ).loc main_arg8))) (row (m ((c.tc : Thread nD τ).loc main_arg9))) (vec (m ((c.tc : Thread nD τ).loc main_arg10))) := by
  funext a j
  show res1 (F := Ideal) (Vb m) c (ix2 a j) = _
  unfold Z2
  rw [Cert.KernelIdeal.Val1.res1_eq (Vb m) c a j, Vb_v3,
    Vb_of m c main_arg4 (by decide), Vb_of m c main_arg2 (by decide), Vb_of m c main_arg1 (by decide), Vb_of m c main_arg8 (by decide),
    Vb_of m c main_arg9 (by decide), Vb_of m c main_v1 (by decide), row_v1,
    Va_arg m c main_arg4 (by decide), Va_arg m c main_arg2 (by decide), Va_arg m c main_arg1 (by decide), Va_arg m c main_arg8 (by decide),
    Va_arg m c main_arg9 (by decide), x3_eq]

theorem x5_eq (c : Dev nD) (r : Fin 1024) (j : Fin 16) :
    x5 (F := Ideal) m c (ix2 r j)
      = Cert.Gcn.out (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (mat (m ((c.tc : Thread nD τ).loc main_arg5)))
          (row (m ((c.tc : Thread nD τ).loc main_arg6))) (vec (m ((c.tc : Thread nD τ).loc main_arg7))) (mat (m ((c.tc : Thread nD τ).loc main_arg8))) (row (m ((c.tc : Thread nD τ).loc main_arg9))) (vec (m ((c.tc : Thread nD τ).loc main_arg10))) (mat (m ((c.tc : Thread nD τ).loc main_arg11))) (row (m ((c.tc : Thread nD τ).loc main_arg12)))
          (vec (m ((c.tc : Thread nD τ).loc main_arg13))) r j := by
  unfold x5 Cert.Gcn.out O3
  rw [Cert.KernelIdeal.Val2.res2_eq (Vc m) c r j, Vc_v4,
    Vc_of m c main_arg4 (by decide), Vc_of m c main_arg3 (by decide), Vc_of m c main_v3 (by decide), Vc_of m c main_arg11 (by decide),
    Vc_of m c main_arg12 (by decide), Vc_of m c main_v2 (by decide), Vb_v3,
    Vb_of m c main_arg4 (by decide), Vb_of m c main_arg3 (by decide), Vb_of m c main_arg11 (by decide), Vb_of m c main_arg12 (by decide),
    Vb_of m c main_v2 (by decide), row_v2,
    Va_arg m c main_arg4 (by decide), Va_arg m c main_arg3 (by decide), Va_arg m c main_arg11 (by decide), Va_arg m c main_arg12 (by decide),
    x3_eq, x4_eq]

end Cert.KernelIdeal.KVal

end
-- ==== Proof.PreFin.lean ====
/-
  The precondition read entry by entry: every entry of every argument array is a real number.
-/
import proofs.«147858_g78709570666604_cont_9to1_m_429_2_alg».proof.Defs
import proofs.«147858_g78709570666604_cont_9to1_m_429_2_alg».proof.Proof.Gen.Pre_finite_inputs
import proofs.«147858_g78709570666604_cont_9to1_m_429_2_alg».proof.Proof.Spec
import Idealize.ShloMosaic.Lib.ValueIdx
import Idealize.ShloMosaic.Lib.ReduceAll

noncomputable section

namespace Cert.PreFin

open Idealize.ShloMosaic Idealize.ShloMosaic.ValueIdx Cert.Gcn

/-- The scalar shape has exactly one index. -/
local instance : Subsingleton Cert.Pre_finite_inputs.S_.Idx := ⟨fun a b => funext fun d => d.elim0⟩

/-- A boolean read as a one-bit word is the word 1 exactly when it is true. -/
private theorem ofBool_eq_one {b : Bool} : BitVec.ofBool b = 1#1 ↔ b = true := by cases b <;> decide

/-- The single-precision pattern with all exponent bits set and no fraction bit denotes +∞. -/
theorem ofBits_inf : Ideal.ofBits .f32 0x7F800000#32 = (⊤ : EReal) := by
  simp [Ideal.ofBits, Ideal.ieee]

/-- An extended real whose absolute value max x (−x) lies strictly below +∞ is neither +∞ nor −∞,
    hence the coercion of a real. -/
theorem fn_of_abs_lt_top {x : EReal} (h : max x (-x) < ⊤) : Fn x := by
  induction x using EReal.rec with
  | bot => exact absurd h (by simp)
  | top => exact absurd h (by simp)
  | coe r => exact ⟨r, rfl⟩

/-- One array of any shape: if the conjunction over all its entries of |x i| < +∞ is the bit 1, every entry is real. -/
theorem all_fn {S : Shape} {axes : List (Fin S.rank)} (x : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf (F := Ideal) (φ := .f32) .olt (Host.absf (F := Ideal) (φ := .f32) x)
            (broadcastInDim S ![] hb (constant (F := Ideal) Cert.Pre_finite_inputs.S_ .f32 0x7F800000#32)))
          (constantI Cert.Pre_finite_inputs.S_ 1 1#1) hr hu ix0 = 1#1) :
    ∀ i, Fn (x i) := by
  intro i
  have h1 := Host.reduce_andi_all _ _ hr hu ix0 e i
  have h2 : Ideal.cmp .olt (max (x i) (-(x i))) (Ideal.ofBits .f32 0x7F800000#32) = 1#1 := h1
  rw [ofBits_inf] at h2
  exact fn_of_abs_lt_top (of_decide_eq_true (ofBool_eq_one.1 h2))

/-- When the printed predicate is all ones on fourteen arrays of extended reals, every entry of each is real. -/
theorem fin_of_fn [Cert.Pre_finite_inputs.Facts]
    (x0 : Cert.KernelIdeal.S1024x128.Idx → EReal) (x1 : Cert.KernelIdeal.S2048x16.Idx → EReal) (x2 : Cert.KernelIdeal.S2048x2048.Idx → EReal)
    (x3 : Cert.KernelIdeal.S1024x1024.Idx → EReal) (x4 : Cert.KernelIdeal.S1024x2048.Idx → EReal) (x5 : Cert.KernelIdeal.S128x64.Idx → EReal)
    (x6 : Cert.KernelIdeal.S1x16.Idx → EReal) (x7 : Cert.KernelIdeal.S64.Idx → EReal) (x8 : Cert.KernelIdeal.S16x16.Idx → EReal)
    (x9 : Cert.KernelIdeal.S1x64.Idx → EReal) (x10 : Cert.KernelIdeal.S16.Idx → EReal) (x11 : Cert.KernelIdeal.S64x16.Idx → EReal)
    (x12 : Cert.KernelIdeal.S1x16.Idx → EReal) (x13 : Cert.KernelIdeal.S16.Idx → EReal)
    (h : Cert.Pre_finite_inputs.fn (F := Ideal) x0 x1 x2 x3 x4 x5 x6 x7 x8 x9 x10 x11 x12 x13 = (fun _ => 1#1)) :
    (∀ i, Fn (x0 i)) ∧ (∀ i, Fn (x1 i)) ∧ (∀ i, Fn (x2 i)) ∧ (∀ i, Fn (x3 i)) ∧ (∀ i, Fn (x4 i)) ∧ (∀ i, Fn (x5 i)) ∧ (∀ i, Fn (x6 i))
      ∧ (∀ i, Fn (x7 i)) ∧ (∀ i, Fn (x8 i)) ∧ (∀ i, Fn (x9 i)) ∧ (∀ i, Fn (x10 i)) ∧ (∀ i, Fn (x11 i)) ∧ (∀ i, Fn (x12 i)) ∧ (∀ i, Fn (x13 i)) := by
  have h0 := congrFun h ix0
  unfold Cert.Pre_finite_inputs.fn Cert.Pre_finite_inputs.fn_part1 Cert.Pre_finite_inputs.fn_part2
    Cert.Pre_finite_inputs.fn_part3 Cert.Pre_finite_inputs.fn_part4 at h0
  dsimp only [Idealize.ShloMosaic.andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨all_fn x0 _ _ _ e0, all_fn x1 _ _ _ e1, all_fn x2 _ _ _ e2, all_fn x3 _ _ _ e3, all_fn x4 _ _ _ e4,
    all_fn x5 _ _ _ e5, all_fn x6 _ _ _ e6, all_fn x7 _ _ _ e7, all_fn x8 _ _ _ e8, all_fn x9 _ _ _ e9,
    all_fn x10 _ _ _ e10, all_fn x11 _ _ _ e11, all_fn x12 _ _ _ e12, all_fn x13 _ _ _ e13⟩

end Cert.PreFin

end
-- ==== Proof.lean ====
/-
  The certificate of a three-layer graph-convolution network (two node layers around an edge layer, then a row-wise
  log-softmax): its kernel, one pallas_call per layer gridded over blocks of 256 output rows, against the plain jnp reference.

  The frames. Each kernel region is entered from the unscoped buffers as the region before left them; its first grid point
  fills two scratch buffers (the edge or node weights d and the projected features HW) that every later point reads, so the
  region's invariant names their contents after the first point; the two windows on the incidence matrix T share its array,
  each holding half of its share. The word-level program and its idealization are one text in two namespaces, run by the
  same modules, generic in the float family. The reference is a host program: its generated run.

  The values, at the extended reals. Both programs compute, layer by layer,
      pre(r, j) = ∑_c ((1 on the diagonal, ∑ (T · d) T off it) · adj)(r, c) · (∑ₖ H(c, k) W(k, j)) + b(j),
  the kernel block by block (row r of block t is global row 256 t + r; the diagonal is an index comparison) and the
  reference on whole arrays (the diagonal is eye + (1 − eye) · mult, where 0 · x = 0 and 1 · x = x hold for every extended
  real); relu twice is relu. They differ only in how the last log-softmax is associated, o − (m + l) against (o − m) − l,
  which agree where o is real: and every entry of the last pre-activation is a real number because every input entry is
  (the precondition) and sums, products and maxima of reals are real.
-/
import proofs.«147858_g78709570666604_cont_9to1_m_429_2_alg».proof.Defs
import proofs.«147858_g78709570666604_cont_9to1_m_429_2_alg».proof.Proof.Gen.Kernel
import proofs.«147858_g78709570666604_cont_9to1_m_429_2_alg».proof.Proof.Gen.KernelIdeal
import proofs.«147858_g78709570666604_cont_9to1_m_429_2_alg».proof.Proof.Gen.ReferenceIdeal
import proofs.«147858_g78709570666604_cont_9to1_m_429_2_alg».proof.Proof.Gen.Pre_finite_inputs
import proofs.«147858_g78709570666604_cont_9to1_m_429_2_alg».proof.Proof.RegsI
import proofs.«147858_g78709570666604_cont_9to1_m_429_2_alg».proof.Proof.RegsK
import proofs.«147858_g78709570666604_cont_9to1_m_429_2_alg».proof.Proof.RefRunP
import proofs.«147858_g78709570666604_cont_9to1_m_429_2_alg».proof.Proof.RefReadP
import proofs.«147858_g78709570666604_cont_9to1_m_429_2_alg».proof.Proof.RefValue
import proofs.«147858_g78709570666604_cont_9to1_m_429_2_alg».proof.Proof.KernelValue
import proofs.«147858_g78709570666604_cont_9to1_m_429_2_alg».proof.Proof.PreFin
import proofs.«147858_g78709570666604_cont_9to1_m_429_2_alg».proof.Proof.Spec
import Idealize.ShloMosaic.Adequacy
import Idealize.ShloMosaic.Init

set_option maxRecDepth 16384

noncomputable section

namespace Cert.Proof

open Idealize.ShloMosaic Idealize.ShloMosaic.ValueIdx Idealize.SL.Sem Cert.Gcn

theorem frame_k [Cert.Kernel.Facts] [Cert.Pre_finite_inputs.Facts] : Cert.frame_Kernel := fun m ρ _ =>
  (θ_run Cert.Kernel.defs _ _).mono (fun _ h c => (h c).2) (Cert.Kernel.Hand.run_main (F := Bits) m ρ)

theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run_main (F := Ideal) m ρ)

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- The two programs' results agree: the reference's is the reference-spelt log-softmax of the last pre-activation, the kernel's
    the kernel-spelt one, of arguments that agree; the pre-activation is real under the precondition. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.x5 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v76_eq]
  obtain ⟨h0, h1, h2, h3, h4, h5, h6, h7, h8, h9, h10, h11, h12, h13⟩ := hagree c
  rw [h0, h1, h2, h3, h4, h5, h6, h7, h8, h9, h10, h11, h12, h13]
  obtain ⟨f0, f1, f2, f3, f4, f5, f6, f7, f8, f9, f10, f11, f12, f13⟩ := Cert.PreFin.fin_of_fn _ _ _ _ _ _ _ _ _ _ _ _ _ _ (hpre c)
  funext i
  obtain ⟨r, j, rfl⟩ : ∃ (r : Fin 1024) (j : Fin 16), i = ix2 r j := ⟨i 0, i 1, eq_ix2 i⟩
  refine (Cert.ReferenceIdeal.RefValue.ref_eq _ _ _ _ _ _ _ _ _ _ _ _ _ _ r j).trans ?_
  refine Eq.trans ?_ (Cert.KernelIdeal.KVal.x5_eq m c r j).symm
  unfold Cert.Gcn.out
  have hO := logsmK_eq_logsmR (A := 1024) (B := 16) (by decide)
    (O3 (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg2))) (mat (m ((c.tc : Thread Cert.KernelIdeal.nD Cert.KernelIdeal.τ).loc Cert.KernelIdeal.main_arg3))) (mat (m ((c.tc : Thread Cert.KernelIdeal.nD Cert.KernelIdeal.τ).loc Cert.KernelIdeal.main_arg4))) (mat (m ((c.tc : Thread Cert.KernelIdeal.nD Cert.KernelIdeal.τ).loc Cert.KernelIdeal.main_arg5)))
      (row (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7))) (mat (m ((c.tc : Thread Cert.KernelIdeal.nD Cert.KernelIdeal.τ).loc Cert.KernelIdeal.main_arg8))) (row (m ((c.tc : Thread Cert.KernelIdeal.nD Cert.KernelIdeal.τ).loc Cert.KernelIdeal.main_arg9))) (vec (m ((c.tc : Thread Cert.KernelIdeal.nD Cert.KernelIdeal.τ).loc Cert.KernelIdeal.main_arg10))) (mat (m ((c.tc : Thread Cert.KernelIdeal.nD Cert.KernelIdeal.τ).loc Cert.KernelIdeal.main_arg11))) (row (m ((c.tc : Thread Cert.KernelIdeal.nD Cert.KernelIdeal.τ).loc Cert.KernelIdeal.main_arg12))) (vec (m ((c.tc : Thread Cert.KernelIdeal.nD Cert.KernelIdeal.τ).loc Cert.KernelIdeal.main_arg13))))
    (fun r j => O3_fn _ _ _ _ _ _ _ _ _ _ _ _ _ _
      (fun a b => f0 _) (fun a b => f1 _) (fun a b => f2 _) (fun a b => f3 _) (fun a b => f4 _) (fun a b => f5 _) (fun a => f6 _) (fun a => f7 _)
      (fun a b => f8 _) (fun a => f9 _) (fun a => f10 _) (fun a b => f11 _) (fun a => f12 _) (fun a => f13 _) r j)
  exact (congrFun (congrFun hO r) j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
